-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S2x1600000 : Shape := ⟨2, ![2, 1600000]⟩
abbrev S100000 : Shape := ⟨1, ![100000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64x64 .f32) (main_arg8 : FVec F S64x16 .f32) (main_arg9 : FVec F S16 .f32) (main_arg10 : FVec F S16x1 .f32) (main_arg11 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x16 .f32 := Host.absf main_arg8
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x1 .f32 := Host.absf main_arg10
  let main_cst_18 : FVec F S_ .f32 := constant S_ .f32 0x7F800000#32
  let main_v50 : FVec F S16x1 .f32 := broadcastInDim S16x1 ![] bcast_S_S16x1 main_cst_18
  fn_part3 (F := F) main_arg11 main_v48 main_v49 main_v50

def fn_part1 {F : FTy → Type} [FloatOps F] (main_arg4 : FVec F S32x64 .f32) (main_arg5 : FVec F S64x64 .f32) (main_arg6 : FVec F S64 .f32) (main_arg7 : FVec F S64x64 .f32) (main_arg8 : FVec F S64x16 .f32) (main_arg9 : FVec F S16 .f32) (main_arg10 : FVec F S16x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x32 .f32) (main_arg1 : FVec F S1600000 .f32) (main_arg2 : FVec F S32x64 .f32) (main_arg3 : FVec F S64 .f32) (main_arg4 : FVec F S32x64 .f32) (main_arg5 : FVec F S64x64 .f32) (main_arg6 : FVec F S64 .f32) (main_arg7 : FVec F S64x64 .f32) (main_arg8 : FVec F S64x16 .f32) (main_arg9 : FVec F S16 .f32) (main_arg10 : FVec F S16x1 .f32) (main_arg11 : FVec F S1 .f32) (main_arg12 : IVec S2x1600000 32) (main_arg13 : IVec S100000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S1x16 : Shape := ⟨2, ![1, 16]⟩
abbrev S1x1 : Shape := ⟨2, ![1, 1]⟩
abbrev S100000x1 : Shape := ⟨2, ![100000, 1]⟩
abbrev S64x1 : Shape := ⟨2, ![64, 1]⟩
abbrev S10000x64 : Shape := ⟨2, ![10000, 64]⟩
abbrev S10000x1 : Shape := ⟨2, ![10000, 1]⟩

abbrev nBuf : Space → Nat
  | .hbm => 58
  | .vmem => 29
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S2x1600000, .i32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x32, .f32⟩
  | .hbm, ⟨27, _⟩ => ⟨S1600000x1, .f32⟩
  | .hbm, ⟨28, _⟩ => ⟨S1600000x32, .f32⟩
  | .hbm, ⟨29, _⟩ => ⟨S1600000x32, .f32⟩
  | .hbm, ⟨30, _⟩ => ⟨S_, .f32⟩
  | .hbm, ⟨31, _⟩ => ⟨S100000x32, .f32⟩
  | .hbm, ⟨32, _⟩ => ⟨S1600000x1, .i32⟩
  | .hbm, ⟨33, _⟩ => ⟨S100000x32, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S1600000x1, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S1x16, .f32⟩
  | .hbm, ⟨55, _⟩ => ⟨S1x1, .f32⟩
  | .hbm, ⟨56, _⟩ => ⟨S100000x1, .i32⟩
  | .hbm, ⟨57, _⟩ => ⟨S64x1, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .i32⟩
  | .local _ .vmem, ⟨21, _⟩ => ⟨S10000x1, .i32⟩
  | .local _ .vmem, ⟨22, _⟩ => ⟨S64x16, .f32⟩
  | .local _ .vmem, ⟨23, _⟩ => ⟨S1x16, .f32⟩
  | .local _ .vmem, ⟨24, _⟩ => ⟨S16x1, .f32⟩
  | .local _ .vmem, ⟨25, _⟩ => ⟨S1x1, .f32⟩
  | .local _ .vmem, ⟨26, _⟩ => ⟨S64x1, .f32⟩
  | .local _ .vmem, ⟨27, _⟩ => ⟨S64x64, .f32⟩
  | .local _ .vmem, ⟨28, _⟩ => ⟨S1x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_scratch0 : Ref sig .tc := ⟨.vmem, 27, rfl⟩
abbrev cc2_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_13 : BitVec 32 := 0#32
  let v31 : BitVec 1 := Scalar.cmpi .ne v30 c0_i32_13
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S16_S1x16 : S16.ShapeCasts S1x16
  shapeCasts_S1_S1x1 : S1.ShapeCasts S1x1
  shapeCasts_S100000_S100000x1 : S100000.ShapeCasts S100000x1
  shapeCasts_S64x64_S64x64 : S64x64.ShapeCasts S64x64
  iota_S10000x64_d1_w32 : S10000x64.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  natLt_1_32 : 1 < 32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S64 : S10000x64.Reduces [0] S64
  transposes_S1x64_p1_0_S64x1 : S1x64.Transposes [1, 0] S64x1
  broadcasts_S64x1_S64x64 : S64x1.Broadcasts S64x64
  inb_S64x16_S64x16_0_0 : ∀ a, (![0, 0] : Fin 2 → Nat) a + S64x16.size a ≤ S64x16.size a
  h_S64x16 : 0 < S64x16.numel
  inb_S16x1_S16x1_0_0 : ∀ a, (![0, 0] : Fin 2 → Nat) a + S16x1.size a ≤ S16x1.size a
  h_S16x1 : 0 < S16x1.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S10000x64_S10000x64_S64x64_0_0_1_1_n_n_wf : DotDims.WF S10000x64 S10000x64 S64x64 [0] [0] [1] [1] [] []
  dot_S64x64_S64x16_S64x16_1_0_0_1_n_n_wf : DotDims.WF S64x64 S64x16 S64x16 [1] [0] [0] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .i32 = 32 ∨ (Rect.block (s := S100000x1) S10000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x1.size a ≤ S16x1.size a
  hwx2_4 : ∀ i : grid2.Coords, EltTy.bits .f32 = 32 ∨ (Rect.block (s := S16x1) S16x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_v16) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S16x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S64x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x1 : Shape := ⟨2, ![100000, 1]⟩
abbrev S64x1 : Shape := ⟨2, ![64, 1]⟩
abbrev S1x16 : Shape := ⟨2, ![1, 16]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S2x1600000, .i32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x32, .f32⟩
  | .hbm, ⟨27, _⟩ => ⟨S1600000x1, .f32⟩
  | .hbm, ⟨28, _⟩ => ⟨S1600000x32, .f32⟩
  | .hbm, ⟨29, _⟩ => ⟨S1600000x32, .f32⟩
  | .hbm, ⟨30, _⟩ => ⟨S_, .f32⟩
  | .hbm, ⟨31, _⟩ => ⟨S100000x32, .f32⟩
  | .hbm, ⟨32, _⟩ => ⟨S1600000x1, .i32⟩
  | .hbm, ⟨33, _⟩ => ⟨S100000x32, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x1, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S64x64, .f32⟩
  | .hbm, ⟨70, _⟩ => ⟨S100000x1, .i32⟩
  | .hbm, ⟨71, _⟩ => ⟨S64x64, .f32⟩
  | .hbm, ⟨72, _⟩ => ⟨S_, .f32⟩
  | .hbm, ⟨73, _⟩ => ⟨S100000, .f32⟩
  | .hbm, ⟨74, _⟩ => ⟨S_, .f32⟩
  | .hbm, ⟨75, _⟩ => ⟨S64, .f32⟩
  | .hbm, ⟨76, _⟩ => ⟨S100000x1, .i32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S64x1, .f32⟩
  | .hbm, ⟨82, _⟩ => ⟨S64x64, .f32⟩
  | .hbm, ⟨83, _⟩ => ⟨S64x64, .f32⟩
  | .hbm, ⟨84, _⟩ => ⟨S64x16, .f32⟩
  | .hbm, ⟨85, _⟩ => ⟨S1x16, .f32⟩
  | .hbm, ⟨86, _⟩ => ⟨S64x16, .f32⟩
  | .hbm, ⟨87, _⟩ => ⟨S64x16, .f32⟩
  | .hbm, ⟨88, _⟩ => ⟨S_, .f32⟩
  | .hbm, ⟨89, _⟩ => ⟨S64x16, .f32⟩
  | .hbm, ⟨90, _⟩ => ⟨S64x16, .f32⟩
  | .hbm, ⟨91, _⟩ => ⟨S64x1, .f32⟩
  | .hbm, ⟨92, _⟩ => ⟨S1x1, .f32⟩
  | .hbm, ⟨93, _⟩ => ⟨S64x1, .f32⟩
  | .hbm, ⟨94, _⟩ => ⟨S64x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_c_1 : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_cst : Ref sig .tc := ⟨.hbm, 88, rfl⟩
abbrev main_call2_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x16_S64x16_1_0_0_1_n_n_wf : DotDims.WF S64x64 S64x16 S64x16 [1] [0] [0] [1] [] []
  dot_S64x16_S16x1_S64x1_1_0_0_1_n_n_wf : DotDims.WF S64x16 S16x1 S64x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.K.Layer1.lean ====
/-
  Region 0 of the program: the first GraphConv layer's combine stage, over 20 blocks of 5000 nodes with 32 input features.
  At the contents `V` that the region finds in the TensorCore's buffers: each window's block at a grid point; what the
  body leaves in the output window's buffer, as a function of the five input blocks (the block of aggregated
  features, the block of node features, W_rel, the bias row, W_root); the body run once on whole staging buffers;
  the pipeline's proof data and its body obligation. Nothing here depends on the float instance.
-/
import proofs.«422455_j33483565040041_2_alg».proof.Proof.Gen.Kernel.Launch
import proofs.«422455_j33483565040041_2_alg».proof.Proof.Gen.Kernel.Skeleton
import proofs.«422455_j33483565040041_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. Windows 0 and 1 step through
    the 20 blocks of 5000 nodes; windows 2, 3, 4 (the two weight matrices and the bias row) are the whole array at
    every point; window 5 is the output. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not that point fetched it: where it
    was not fetched the window's block index has not moved. -/
theorem held0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point, whether or not that point fetched it: where it
    was not fetched the window's block index has not moved. -/
theorem held1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point, whether or not that point fetched it: where it
    was not fetched the window's block index has not moved. -/
theorem held2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point, whether or not that point fetched it: where it
    was not fetched the window's block index has not moved. -/
theorem held3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds its block at every point, whether or not that point fetched it: where it
    was not fetched the window's block index has not moved. -/
theorem held4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

abbrev rectA : Rect S5000x32 := Rect.unit (s := S5000x32) ![0, 0] S5000x32.size inb_S5000x32_S5000x32_0_0
abbrev rectW : Rect S32x64 := Rect.unit (s := S32x64) ![0, 0] S32x64.size inb_S32x64_S32x64_0_0
abbrev rectB : Rect S1x64 := Rect.unit (s := S1x64) ![0, 0] S1x64.size inb_S1x64_S1x64_0_0
abbrev rectO : Rect S5000x64 := Rect.unit (s := S5000x64) ![0, 0] S5000x64.size inb_S5000x64_S5000x64_0_0

/-- The output block after the body: its one store, of the whole block, of the combine of the five input blocks. -/
def combinedBlock (a x : Vec F S5000x32 .f32) (wr : Vec F S32x64 .f32) (b : Vec F S1x64 .f32) (wo : Vec F S32x64 .f32) : Vec F S5000x64 .f32 :=
  View.canon [⟨rectO, k0_pay1 (View.ld a rectA) (View.ld x rectA) (View.ld wr rectW) (View.ld wo rectW) (View.ld b rectB)⟩]

/-- That one store covers the block. -/
theorem store_covers (p0 : Vec F S5000x64 .f32) (y : S5000x64.Idx) :
    ∃ pc ∈ ([⟨rectO, p0⟩] : List (View.Piece (Elt F) S5000x64 .f32)), y ∈ pc.1.set :=
  View.cover_of_tiled [⟨rectO, p0⟩] S5000x64.size (by rfl) y

/-! ## The body on whole staging buffers -/

set_option maxHeartbeats 4000000 in
/-- With the five input buffers whole at `a x wr b wo` and the output buffer at anything, the body runs to its return,
    the inputs as they were and the output buffer at `combinedBlock` of them. -/
theorem body_runs (c : Dev nD) (E : Set ℕ) (i : grid0.Coords)
    (arg1 : Memref sig .tc .vmem S5000x32 .f32) (harg1 : arg1.IsWhole) (arg2 : Memref sig .tc .vmem S5000x32 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S32x64 .f32) (harg5 : arg5.IsWhole) (arg6 : Memref sig .tc .vmem S5000x64 .f32) (harg6 : arg6.IsWhole)
    (a x : Vec F S5000x32 .f32) (wr : Vec F S32x64 .f32) (b : Vec F S1x64 .f32) (wo : Vec F S32x64 .f32) (K : PUnit → sProp 𝕄) :
    iprop(owns (c : Thread nD τ) arg1 fullShare a ∗ owns (c : Thread nD τ) arg2 fullShare x ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare a ∗ owns (c : Thread nD τ) arg2 fullShare x ∗ owns (c : Thread nD τ) arg3 fullShare wr
            ∗ owns (c : Thread nD τ) arg4 fullShare b ∗ owns (c : Thread nD τ) arg5 fullShare wo
            ∗ owns (c : Thread nD τ) arg6 fullShare (combinedBlock a x wr b wo)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The pipeline's proof data -/

/-- The arrays as the region finds them; after the body at point `t` each input buffer still at its block and the
    output buffer at the combine of the five blocks; between points nothing but the buffers the pipeline does not stage
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => combinedBlock (blockAt V c 0 t) (blockAt V c 1 t) (blockAt V c 2 t) (blockAt V c 3 t) (blockAt V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after_in0 (c : Dev nD) (t : Fin cfg0.N) : (dat V c).after 0 t = blockAt V c 0 t := by dsimp only [dat]
theorem after_in1 (c : Dev nD) (t : Fin cfg0.N) : (dat V c).after 1 t = blockAt V c 1 t := by dsimp only [dat]
theorem after_in2 (c : Dev nD) (t : Fin cfg0.N) : (dat V c).after 2 t = blockAt V c 2 t := by dsimp only [dat]
theorem after_in3 (c : Dev nD) (t : Fin cfg0.N) : (dat V c).after 3 t = blockAt V c 3 t := by dsimp only [dat]
theorem after_in4 (c : Dev nD) (t : Fin cfg0.N) : (dat V c).after 4 t = blockAt V c 4 t := by dsimp only [dat]
/-- What point `t` writes back: the combine of the point's five blocks. -/
theorem after_out (c : Dev nD) (t : Fin cfg0.N) :
    (dat V c).after 5 t = combinedBlock (blockAt V c 0 t) (blockAt V c 1 t) (blockAt V c 2 t) (blockAt V c 3 t) (blockAt V c 4 t) := by
  dsimp only [dat]

theorem held0 (c : Dev nD) (t : Fin cfg0.N) (d) : (dat V c).before 0 t d = blockAt V c 0 t := held0_of V (dat V c) (dat_A V c 0) (after_in0 V c) t d
theorem held1 (c : Dev nD) (t : Fin cfg0.N) (d) : (dat V c).before 1 t d = blockAt V c 1 t := held1_of V (dat V c) (dat_A V c 1) (after_in1 V c) t d
theorem held2 (c : Dev nD) (t : Fin cfg0.N) (d) : (dat V c).before 2 t d = blockAt V c 2 t := held2_of V (dat V c) (dat_A V c 2) (after_in2 V c) t d
theorem held3 (c : Dev nD) (t : Fin cfg0.N) (d) : (dat V c).before 3 t d = blockAt V c 3 t := held3_of V (dat V c) (dat_A V c 3) (after_in3 V c) t d
theorem held4 (c : Dev nD) (t : Fin cfg0.N) (d) : (dat V c).before 4 t d = blockAt V c 4 t := held4_of V (dat V c) (dat_A V c 4) (after_in4 V c) t d

/-! ## The body obligation -/

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 2000000 in
/-- At any point the input buffers hold their blocks, so the body runs as `body_runs` says; the rest passes through. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (dat V c).Φ t.succ = (dat V c).Φ t.castSucc from rfl,
    show (dat V c).owesAt () t.succ = (dat V c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact body_at V c t

end Cert.Kernel.Layer1

end
-- ==== Proof.K.Layer2.lean ====
/-
  Region 1 of the program: the second GraphConv layer's combine stage, over 20 blocks of 5000 nodes with 64 input features.
  At the contents `V` that the region finds in the TensorCore's buffers: each window's block at a grid point; what the
  body leaves in the output window's buffer, as a function of the five input blocks (the block of aggregated
  features, the block of node features, W_rel, the bias row, W_root); the body run once on whole staging buffers;
  the pipeline's proof data and its body obligation. Nothing here depends on the float instance.
-/
import proofs.«422455_j33483565040041_2_alg».proof.Proof.Gen.Kernel.Launch
import proofs.«422455_j33483565040041_2_alg».proof.Proof.Gen.Kernel.Skeleton
import proofs.«422455_j33483565040041_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. Windows 0 and 1 step through
    the 20 blocks of 5000 nodes; windows 2, 3, 4 (the two weight matrices and the bias row) are the whole array at
    every point; window 5 is the output. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not that point fetched it: where it
    was not fetched the window's block index has not moved. -/
theorem held0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point, whether or not that point fetched it: where it
    was not fetched the window's block index has not moved. -/
theorem held1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point, whether or not that point fetched it: where it
    was not fetched the window's block index has not moved. -/
theorem held2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point, whether or not that point fetched it: where it
    was not fetched the window's block index has not moved. -/
theorem held3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds its block at every point, whether or not that point fetched it: where it
    was not fetched the window's block index has not moved. -/
theorem held4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

abbrev rectA : Rect S5000x64 := Rect.unit (s := S5000x64) ![0, 0] S5000x64.size inb_S5000x64_S5000x64_0_0
abbrev rectW : Rect S64x64 := Rect.unit (s := S64x64) ![0, 0] S64x64.size inb_S64x64_S64x64_0_0
abbrev rectB : Rect S1x64 := Rect.unit (s := S1x64) ![0, 0] S1x64.size inb_S1x64_S1x64_0_0
abbrev rectO : Rect S5000x64 := Rect.unit (s := S5000x64) ![0, 0] S5000x64.size inb_S5000x64_S5000x64_0_0

/-- The output block after the body: its one store, of the whole block, of the combine of the five input blocks. -/
def combinedBlock (a x : Vec F S5000x64 .f32) (wr : Vec F S64x64 .f32) (b : Vec F S1x64 .f32) (wo : Vec F S64x64 .f32) : Vec F S5000x64 .f32 :=
  View.canon [⟨rectO, k1_pay1 (View.ld a rectA) (View.ld x rectA) (View.ld wr rectW) (View.ld wo rectW) (View.ld b rectB)⟩]

/-- That one store covers the block. -/
theorem store_covers (p0 : Vec F S5000x64 .f32) (y : S5000x64.Idx) :
    ∃ pc ∈ ([⟨rectO, p0⟩] : List (View.Piece (Elt F) S5000x64 .f32)), y ∈ pc.1.set :=
  View.cover_of_tiled [⟨rectO, p0⟩] S5000x64.size (by rfl) y

/-! ## The body on whole staging buffers -/

set_option maxHeartbeats 4000000 in
/-- With the five input buffers whole at `a x wr b wo` and the output buffer at anything, the body runs to its return,
    the inputs as they were and the output buffer at `combinedBlock` of them. -/
theorem body_runs (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (a x : Vec F S5000x64 .f32) (wr : Vec F S64x64 .f32) (b : Vec F S1x64 .f32) (wo : Vec F S64x64 .f32) (K : PUnit → sProp 𝕄) :
    iprop(owns (c : Thread nD τ) arg1 fullShare a ∗ owns (c : Thread nD τ) arg2 fullShare x ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare a ∗ owns (c : Thread nD τ) arg2 fullShare x ∗ owns (c : Thread nD τ) arg3 fullShare wr
            ∗ owns (c : Thread nD τ) arg4 fullShare b ∗ owns (c : Thread nD τ) arg5 fullShare wo
            ∗ owns (c : Thread nD τ) arg6 fullShare (combinedBlock a x wr b wo)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The pipeline's proof data -/

/-- The arrays as the region finds them; after the body at point `t` each input buffer still at its block and the
    output buffer at the combine of the five blocks; between points nothing but the buffers the pipeline does not stage
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => combinedBlock (blockAt V c 0 t) (blockAt V c 1 t) (blockAt V c 2 t) (blockAt V c 3 t) (blockAt V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after_in0 (c : Dev nD) (t : Fin cfg1.N) : (dat V c).after 0 t = blockAt V c 0 t := by dsimp only [dat]
theorem after_in1 (c : Dev nD) (t : Fin cfg1.N) : (dat V c).after 1 t = blockAt V c 1 t := by dsimp only [dat]
theorem after_in2 (c : Dev nD) (t : Fin cfg1.N) : (dat V c).after 2 t = blockAt V c 2 t := by dsimp only [dat]
theorem after_in3 (c : Dev nD) (t : Fin cfg1.N) : (dat V c).after 3 t = blockAt V c 3 t := by dsimp only [dat]
theorem after_in4 (c : Dev nD) (t : Fin cfg1.N) : (dat V c).after 4 t = blockAt V c 4 t := by dsimp only [dat]
/-- What point `t` writes back: the combine of the point's five blocks. -/
theorem after_out (c : Dev nD) (t : Fin cfg1.N) :
    (dat V c).after 5 t = combinedBlock (blockAt V c 0 t) (blockAt V c 1 t) (blockAt V c 2 t) (blockAt V c 3 t) (blockAt V c 4 t) := by
  dsimp only [dat]

theorem held0 (c : Dev nD) (t : Fin cfg1.N) (d) : (dat V c).before 0 t d = blockAt V c 0 t := held0_of V (dat V c) (dat_A V c 0) (after_in0 V c) t d
theorem held1 (c : Dev nD) (t : Fin cfg1.N) (d) : (dat V c).before 1 t d = blockAt V c 1 t := held1_of V (dat V c) (dat_A V c 1) (after_in1 V c) t d
theorem held2 (c : Dev nD) (t : Fin cfg1.N) (d) : (dat V c).before 2 t d = blockAt V c 2 t := held2_of V (dat V c) (dat_A V c 2) (after_in2 V c) t d
theorem held3 (c : Dev nD) (t : Fin cfg1.N) (d) : (dat V c).before 3 t d = blockAt V c 3 t := held3_of V (dat V c) (dat_A V c 3) (after_in3 V c) t d
theorem held4 (c : Dev nD) (t : Fin cfg1.N) (d) : (dat V c).before 4 t d = blockAt V c 4 t := held4_of V (dat V c) (dat_A V c 4) (after_in4 V c) t d

/-! ## The body obligation -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 2000000 in
/-- At any point the input buffers hold their blocks, so the body runs as `body_runs` says; the rest passes through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3, held4]
  rw [show (dat V c).Φ t.succ = (dat V c).Φ t.castSucc from rfl,
    show (dat V c).owesAt () t.succ = (dat V c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W1, bigSep_W1]
  exact body_at V c t

end Cert.Kernel.Layer2

end
-- ==== Proof.K.PoolCases.lean ====
/-
  Region 2 of the program — the mean pool over the graphs and the head, over 10 blocks of 10000 nodes — : what its
  three kinds of grid point share. The body zeroes its two accumulators (the per-graph feature sums, 64 by 64, and the
  per-graph node counts, 1 by 64) at the first point, adds the block's contribution at every point, and at the last
  point divides, applies the head and stores the result. So a point is the first (0), a middle one (1 to 8) or the
  last (9); the result window is idle, and not written back, except at the last. Here: the two branch conditions
  decided over the grid, where the windows are idle, the staging buffers by name, the two accumulators as buffers, and
  the region's resting invariant with the accumulators taken out of the buffers nobody stages.
-/
import proofs.«422455_j33483565040041_2_alg».proof.Proof.Gen.Kernel.Launch
import proofs.«422455_j33483565040041_2_alg».proof.Proof.Gen.Kernel.Skeleton
import proofs.«422455_j33483565040041_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The body's first `if`: the grid coordinate is 0. -/
abbrev isFirst (i : grid2.Coords) : Prop := (Scalar.cmpi .ne (Scalar.extui (Scalar.cmpi .eq (BitVec.ofNat 32 (i 0).val) 0#32)) 0#32) = 1#1
theorem isFirst_iff : ∀ t : Fin cfg2.N, isFirst (grid2.coords t) ↔ t.val = 0 :=
  (by decide +kernel : ∀ t : Fin grid2.N, isFirst (grid2.coords t) ↔ t.val = 0)

/-- The body's second `if`: the grid coordinate is 9. -/
abbrev isLast (i : grid2.Coords) : Prop := k2_cond2 i = 1#1
theorem isLast_iff : ∀ t : Fin cfg2.N, isLast (grid2.coords t) ↔ t.val = 9 :=
  (by decide +kernel : ∀ t : Fin grid2.N, isLast (grid2.coords t) ↔ t.val = 9)

/-! ## Where the windows are idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem live4 : ∀ t : Fin cfg2.N, cfg2.idle 4 (grid2.coords t) = false := by decide +kernel
theorem live5 : ∀ t : Fin cfg2.N, cfg2.idle 5 (grid2.coords t) = false := by decide +kernel
/-- Away from the last point the result window is idle -/
theorem result_idle : ∀ t : Fin cfg2.N, ¬isLast (grid2.coords t) → cfg2.idle 6 (grid2.coords t) = true := by decide +kernel
/-- and not written back; -/
theorem result_kept : ∀ t : Fin cfg2.N, ¬isLast (grid2.coords t) → (cfg2.win 6).flush t = false := by decide +kernel
/-- at the last point it is live. -/
theorem result_live : ∀ t : Fin cfg2.N, isLast (grid2.coords t) → cfg2.idle 6 (grid2.coords t) = false := by decide +kernel

/-! ## The buffers by name -/

abbrev buf0 (t : Fin cfg2.N) : Memref sig .tc .vmem S10000x64 .f32 := win2_0.stage (cfg2.slots t 0)
abbrev whole0 (t : Fin cfg2.N) : (buf0 t).IsWhole := hstage2_0 ((cfg2.slots t 0).cast nbuf2_0)
abbrev buf1 (t : Fin cfg2.N) : Memref sig .tc .vmem S10000x1 .i32 := win2_1.stage (cfg2.slots t 1)
abbrev whole1 (t : Fin cfg2.N) : (buf1 t).IsWhole := hstage2_1 ((cfg2.slots t 1).cast nbuf2_1)
abbrev buf2 (t : Fin cfg2.N) : Memref sig .tc .vmem S64x16 .f32 := win2_2.stage (cfg2.slots t 2)
abbrev whole2 (t : Fin cfg2.N) : (buf2 t).IsWhole := hstage2_2 ((cfg2.slots t 2).cast nbuf2_2)
abbrev buf3 (t : Fin cfg2.N) : Memref sig .tc .vmem S1x16 .f32 := win2_3.stage (cfg2.slots t 3)
abbrev whole3 (t : Fin cfg2.N) : (buf3 t).IsWhole := hstage2_3 ((cfg2.slots t 3).cast nbuf2_3)
abbrev buf4 (t : Fin cfg2.N) : Memref sig .tc .vmem S16x1 .f32 := win2_4.stage (cfg2.slots t 4)
abbrev whole4 (t : Fin cfg2.N) : (buf4 t).IsWhole := hstage2_4 ((cfg2.slots t 4).cast nbuf2_4)
abbrev buf5 (t : Fin cfg2.N) : Memref sig .tc .vmem S1x1 .f32 := win2_5.stage (cfg2.slots t 5)
abbrev whole5 (t : Fin cfg2.N) : (buf5 t).IsWhole := hstage2_5 ((cfg2.slots t 5).cast nbuf2_5)
abbrev buf6 (t : Fin cfg2.N) : Memref sig .tc .vmem S64x1 .f32 := win2_6.stage (cfg2.slots t 6)
abbrev whole6 (t : Fin cfg2.N) : (buf6 t).IsWhole := hstage2_6 ((cfg2.slots t 6).cast nbuf2_6)

/-- The accumulator of per-graph feature sums, -/
abbrev sumsBuf : Memref sig .tc .vmem S64x64 .f32 := Memref.whole cc2_scratch0
/-- the accumulator of per-graph node counts, -/
abbrev countsBuf : Memref sig .tc .vmem S1x64 .f32 := Memref.whole cc2_scratch1
/-- and the views their contents are stated through. -/
abbrev sumsView : View sig .tc .vmem S64x64 .f32 := sumsBuf.view
abbrev countsView : View sig .tc .vmem S1x64 .f32 := countsBuf.view
/-- The result window's one staging buffer, as a view. -/
abbrev resultView : View sig .tc .vmem S64x1 .f32 := (Memref.whole cc2_stg6_0 : Memref sig .tc .vmem S64x1 .f32).view

/-! ## The resting invariant, the accumulators taken out -/

/-- The buffers nobody stages, but for the two accumulators: the other calls' staging buffers, at anything. -/
abbrev others (c : Dev nD) : sProp 𝕄 :=
  Pipeline.scopedRestBut (Ix := Unit) (Name := ℕ) (U := UR sig nD τ) (Lvl := ℕ) (Val := Elt F) spec2 c [cc2_scratch0, cc2_scratch1]

/-- Between regions: both accumulators at anything, the others, the generator register at some state. -/
theorem resting_eq (c : Dev nD) :
    (Pipeline.ΦA spec2 c : sProp 𝕄)
      = iprop(((∃ d, owns (c : Thread nD τ) sumsBuf fullShare d) ∗ (∃ d, owns (c : Thread nD τ) countsBuf fullShare d) ∗ others c) ∗ (∃ r, prngReg c r)) := by
  unfold Pipeline.ΦA
  rw [Pipeline.scopedRest_split_of_list spec2 c [cc2_scratch0, cc2_scratch1] (by decide) (by decide)]
  simp only [sumsBuf, countsBuf, owns_whole, bigSepL_cons_cons, bigSepL_singleton]
  congr 1
  exact equiv_iff.mp ⟨BI.sep_assoc, BI.sep_assoc'⟩

end Cert.Kernel.Pool

end
-- ==== Proof.K.PoolFirst.lean ====
/-
  Region 2's body at the first grid point: both accumulators, found at anything, are zeroed, then the block's contribution is added; the result buffer is not touched. The lists of pieces the body's stores leave in each buffer it writes are what the run
  finds; the statement gives back the six input buffers as they were.
-/
import proofs.«422455_j33483565040041_2_alg».proof.Proof.Gen.Kernel.Launch
import proofs.«422455_j33483565040041_2_alg».proof.Proof.Gen.Kernel.Skeleton
import proofs.«422455_j33483565040041_2_alg».proof.Proof.Gen.Kernel.Points
import proofs.«422455_j33483565040041_2_alg».proof.Proof.K.PoolCases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runFirst (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : isFirst i) (hc2 : ¬isLast i)
    (x0 : Vec F S10000x64 .f32) (x1 : Vec F S10000x1 .i32) (x2 : Vec F S64x16 .f32) (x3 : Vec F S1x16 .f32) (x4 : Vec F S16x1 .f32) (x5 : Vec F S1x1 .f32) :
    Σ' (LS : List (View.Piece (Elt F) S64x64 .f32)), { LN : List (View.Piece (Elt F) S1x64 .f32) //
      ∀ (r : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ owns (c : Thread nD τ) arg7 fullShare r
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ owns (c : Thread nD τ) arg7 fullShare r
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LN)) -∗ K ⟨⟩))
          ⊢ wp frame (wpE (defs₀ (F := F)) Variants.none c none) E (cc2__pool_mlp_kernel i arg1 harg1 arg2 harg2 arg3 harg3 arg4 harg4 arg5 harg5 arg6 harg6 arg7 harg7 arg8 harg8 arg9 harg9) K } := by
  refine ⟨?_, ?_, fun r E K => ?run⟩
  case run =>
    simp only [cc2__pool_mlp_kernel_eq_skeleton]; unfold cc2__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, ⟨%dn, %fn, -, HN⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS]; · iexists _; iexact HS
    iexists _; iexact HN

end Cert.Kernel.Pool

end
-- ==== Proof.K.PoolMiddle.lean ====
/-
  Region 2's body at a middle grid point: the block's contribution is added to the accumulators as the point before left them; the result buffer is not touched. The lists of pieces the body's stores leave in each buffer it writes are what the run
  finds; the statement gives back the six input buffers as they were.
-/
import proofs.«422455_j33483565040041_2_alg».proof.Proof.Gen.Kernel.Launch
import proofs.«422455_j33483565040041_2_alg».proof.Proof.Gen.Kernel.Skeleton
import proofs.«422455_j33483565040041_2_alg».proof.Proof.Gen.Kernel.Points
import proofs.«422455_j33483565040041_2_alg».proof.Proof.K.PoolCases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runMiddle (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : ¬isFirst i) (hc2 : ¬isLast i)
    (x0 : Vec F S10000x64 .f32) (x1 : Vec F S10000x1 .i32) (x2 : Vec F S64x16 .f32) (x3 : Vec F S1x16 .f32) (x4 : Vec F S16x1 .f32) (x5 : Vec F S1x1 .f32) (s : Vec F S64x64 .f32) (n : Vec F S1x64 .f32) :
    Σ' (LS : List (View.Piece (Elt F) S64x64 .f32)), { LN : List (View.Piece (Elt F) S1x64 .f32) //
      ∀ (r : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ owns (c : Thread nD τ) arg7 fullShare r
            ∗ owns (c : Thread nD τ) arg8 fullShare s ∗ owns (c : Thread nD τ) arg9 fullShare n
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ owns (c : Thread nD τ) arg7 fullShare r
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LN)) -∗ K ⟨⟩))
          ⊢ wp frame (wpE (defs₀ (F := F)) Variants.none c none) E (cc2__pool_mlp_kernel i arg1 harg1 arg2 harg2 arg3 harg3 arg4 harg4 arg5 harg5 arg6 harg6 arg7 harg7 arg8 harg8 arg9 harg9) K } := by
  refine ⟨?_, ?_, fun r E K => ?run⟩
  case run =>
    simp only [cc2__pool_mlp_kernel_eq_skeleton]; unfold cc2__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, ⟨%fn, %hfn, HN⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs; obtain rfl := harg9.eq_unread hfn
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS]; · iexists _; iexact HS
    iexists _; iexact HN

end Cert.Kernel.Pool

end
-- ==== Proof.K.PoolLast.lean ====
/-
  Region 2's body at the last grid point: the block's contribution is added to the accumulators as the point before left them, then the sums are divided by the counts, the head applied, and the result stored. The lists of pieces the body's stores leave in each buffer it writes are what the run
  finds; the statement gives back the six input buffers as they were.
-/
import proofs.«422455_j33483565040041_2_alg».proof.Proof.Gen.Kernel.Launch
import proofs.«422455_j33483565040041_2_alg».proof.Proof.Gen.Kernel.Skeleton
import proofs.«422455_j33483565040041_2_alg».proof.Proof.Gen.Kernel.Points
import proofs.«422455_j33483565040041_2_alg».proof.Proof.K.PoolCases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runLast (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : ¬isFirst i) (hc2 : isLast i)
    (x0 : Vec F S10000x64 .f32) (x1 : Vec F S10000x1 .i32) (x2 : Vec F S64x16 .f32) (x3 : Vec F S1x16 .f32) (x4 : Vec F S16x1 .f32) (x5 : Vec F S1x1 .f32) (s : Vec F S64x64 .f32) (n : Vec F S1x64 .f32) :
    Σ' (LR : List (View.Piece (Elt F) S64x1 .f32)) (LS : List (View.Piece (Elt F) S64x64 .f32)), { LN : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ (∃ d, owns (c : Thread nD τ) arg7 fullShare d)
            ∗ owns (c : Thread nD τ) arg8 fullShare s ∗ owns (c : Thread nD τ) arg9 fullShare n
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LR)
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LN)) -∗ K ⟨⟩))
          ⊢ wp frame (wpE (defs₀ (F := F)) Variants.none c none) E (cc2__pool_mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__pool_mlp_kernel_eq_skeleton]; unfold cc2__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fn, %hfn, HN⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs; obtain rfl := harg9.eq_unread hfn
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS]; · iexists _; iexact HS
    iexists _; iexact HN

end Cert.Kernel.Pool

end
-- ==== Proof.K.Pool.lean ====
/-
  Region 2 of the program, at the contents `V` the region finds: what each grid point leaves in the result buffer and
  in the two accumulators (the per-graph feature sums and the per-graph node counts), point by point — the first
  point's run from accumulators at anything, every later point's from what the point before left —; the invariant
  that carries the accumulators from point to point; the pipeline's proof data and its body obligation; and that the
  invariant is the resting one before the first point and gives it back after the last. Nothing here depends on the
  float instance.
-/
import proofs.«422455_j33483565040041_2_alg».proof.Proof.Gen.Kernel.Launch
import proofs.«422455_j33483565040041_2_alg».proof.Proof.Gen.Kernel.Skeleton
import proofs.«422455_j33483565040041_2_alg».proof.Proof.Gen.Kernel.Points
import proofs.«422455_j33483565040041_2_alg».proof.Proof.K.PoolFirst
import proofs.«422455_j33483565040041_2_alg».proof.Proof.K.PoolMiddle
import proofs.«422455_j33483565040041_2_alg».proof.Proof.K.PoolLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it: windows 0 and 1 (the node table and
    the graph ids) step through 10 blocks of 10000 nodes; windows 2 to 5 (the head's weights and biases) are whole
    arrays; window 6 is the result. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem held0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg2 c) (hA : dat.A 4 = V c (Pipeline.arrRef spec2 4))
    (hafter : ∀ t, dat.after 4 t = blockAt V c 4 t) (t : Fin cfg2.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5_of {c : Dev nD} (dat : Dat τ (Elt F) Unit ℕ (UR sig nD τ) ℕ cfg2 c) (hA : dat.A 5 = V c (Pipeline.arrRef spec2 5))
    (hafter : ∀ t, dat.after 5 t = blockAt V c 5 t) (t : Fin cfg2.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## What a point leaves -/

/-- A buffer's contents after a list of stores into it, whatever it held (the stores below cover it). -/
def readSums (L : List (View.Piece (Elt F) S64x64 .f32)) : Vec F S64x64 .f32 := sumsView.read (Elt F) (sumsView.writes (Elt F) sumsView.junk L)
def readCounts (L : List (View.Piece (Elt F) S1x64 .f32)) : Vec F S1x64 .f32 := countsView.read (Elt F) (countsView.writes (Elt F) countsView.junk L)
def readResult (L : List (View.Piece (Elt F) S64x1 .f32)) : Vec F S64x1 .f32 := resultView.read (Elt F) (resultView.writes (Elt F) resultView.junk L)

/-- The body's run at a first, a middle, the last point `t`, on the point's buffers and blocks. -/
abbrev firstAt (c : Dev nD) (t : Fin cfg2.N) (h0 : t.val = 0) :=
  runFirst (F := F) c (grid2.coords t) (buf0 t) (whole0 t) (buf1 t) (whole1 t) (buf2 t) (whole2 t) (buf3 t) (whole3 t) (buf4 t) (whole4 t) (buf5 t) (whole5 t) (buf6 t) (whole6 t) sumsBuf (Memref.isWhole_whole _) countsBuf (Memref.isWhole_whole _) ((isFirst_iff t).mpr h0) (fun h => by have := (isLast_iff t).mp h; omega) (blockAt V c 0 t) (blockAt V c 1 t) (blockAt V c 2 t) (blockAt V c 3 t) (blockAt V c 4 t) (blockAt V c 5 t)
abbrev middleAt (c : Dev nD) (t : Fin cfg2.N) (h0 : t.val ≠ 0) (h9 : t.val ≠ 9) (s : Vec F S64x64 .f32) (n : Vec F S1x64 .f32) :=
  runMiddle (F := F) c (grid2.coords t) (buf0 t) (whole0 t) (buf1 t) (whole1 t) (buf2 t) (whole2 t) (buf3 t) (whole3 t) (buf4 t) (whole4 t) (buf5 t) (whole5 t) (buf6 t) (whole6 t) sumsBuf (Memref.isWhole_whole _) countsBuf (Memref.isWhole_whole _) (fun h => h0 ((isFirst_iff t).mp h)) (fun h => h9 ((isLast_iff t).mp h)) (blockAt V c 0 t) (blockAt V c 1 t) (blockAt V c 2 t) (blockAt V c 3 t) (blockAt V c 4 t) (blockAt V c 5 t) s n
abbrev lastAt (c : Dev nD) (t : Fin cfg2.N) (h9 : t.val = 9) (s : Vec F S64x64 .f32) (n : Vec F S1x64 .f32) :=
  runLast (F := F) c (grid2.coords t) (buf0 t) (whole0 t) (buf1 t) (whole1 t) (buf2 t) (whole2 t) (buf3 t) (whole3 t) (buf4 t) (whole4 t) (buf5 t) (whole5 t) (buf6 t) (whole6 t) sumsBuf (Memref.isWhole_whole _) countsBuf (Memref.isWhole_whole _) (fun h => by have := (isFirst_iff t).mp h; omega) ((isLast_iff t).mpr h9) (blockAt V c 0 t) (blockAt V c 1 t) (blockAt V c 2 t) (blockAt V c 3 t) (blockAt V c 4 t) (blockAt V c 5 t) s n

/-- THE ACCUMULATION: after the body at position `n`, the result buffer, the sums and the counts. The first point runs from
    accumulators at anything; point `n + 1` from what point `n` left; only the last point stores a result. -/
def leftAt (c : Dev nD) : (n : ℕ) → n < cfg2.N → Vec F S64x1 .f32 × Vec F S64x64 .f32 × Vec F S1x64 .f32
  | 0, hn => (readResult [], readSums (firstAt V c ⟨0, hn⟩ rfl).1, readCounts (firstAt V c ⟨0, hn⟩ rfl).2.1)
  | n + 1, hn =>
    if h9 : n + 1 = 9 then
      (readResult (lastAt V c ⟨n + 1, hn⟩ h9 (leftAt c n (Nat.lt_of_succ_lt hn)).2.1 (leftAt c n (Nat.lt_of_succ_lt hn)).2.2).1,
       readSums (lastAt V c ⟨n + 1, hn⟩ h9 (leftAt c n (Nat.lt_of_succ_lt hn)).2.1 (leftAt c n (Nat.lt_of_succ_lt hn)).2.2).2.1,
       readCounts (lastAt V c ⟨n + 1, hn⟩ h9 (leftAt c n (Nat.lt_of_succ_lt hn)).2.1 (leftAt c n (Nat.lt_of_succ_lt hn)).2.2).2.2.1)
    else
      (readResult [],
       readSums (middleAt V c ⟨n + 1, hn⟩ (Nat.succ_ne_zero n) h9 (leftAt c n (Nat.lt_of_succ_lt hn)).2.1 (leftAt c n (Nat.lt_of_succ_lt hn)).2.2).1,
       readCounts (middleAt V c ⟨n + 1, hn⟩ (Nat.succ_ne_zero n) h9 (leftAt c n (Nat.lt_of_succ_lt hn)).2.1 (leftAt c n (Nat.lt_of_succ_lt hn)).2.2).2.1)

/-- What the point before `t` left. -/
abbrev before (c : Dev nD) (t : Fin cfg2.N) := leftAt V c (t.val - 1) (Nat.lt_of_le_of_lt (Nat.sub_le _ _) t.isLt)

theorem leftAt_first (c : Dev nD) (t : Fin cfg2.N) (h0 : t.val = 0) :
    leftAt V c t.val t.isLt = (readResult [], readSums (firstAt V c t h0).1, readCounts (firstAt V c t h0).2.1) := by
  obtain ⟨n, hn⟩ := t
  cases n with
  | zero => exact rfl
  | succ n => exact absurd h0 (Nat.succ_ne_zero n)

theorem leftAt_middle (c : Dev nD) (t : Fin cfg2.N) (h0 : t.val ≠ 0) (h9 : t.val ≠ 9) :
    leftAt V c t.val t.isLt = (readResult [], readSums (middleAt V c t h0 h9 (before V c t).2.1 (before V c t).2.2).1,
      readCounts (middleAt V c t h0 h9 (before V c t).2.1 (before V c t).2.2).2.1) := by
  obtain ⟨n, hn⟩ := t
  cases n with
  | zero => exact absurd rfl h0
  | succ n => exact (dif_neg h9).trans rfl

theorem leftAt_last (c : Dev nD) (t : Fin cfg2.N) (h9 : t.val = 9) :
    leftAt V c t.val t.isLt = (readResult (lastAt V c t h9 (before V c t).2.1 (before V c t).2.2).1,
      readSums (lastAt V c t h9 (before V c t).2.1 (before V c t).2.2).2.1,
      readCounts (lastAt V c t h9 (before V c t).2.1 (before V c t).2.2).2.2.1) := by
  obtain ⟨n, hn⟩ := t
  cases n with
  | zero => exact absurd (show (0 : ℕ) = 9 from h9) (by decide)
  | succ n => exact (dif_pos h9).trans rfl

/-! ## The invariant between points -/

/-- Before position `n`: the resting invariant before the first point; afterwards the two accumulators at what the point
    before left, the other unstaged buffers at anything, the generator register at some state. -/
def carried (c : Dev nD) : (n : ℕ) → n ≤ cfg2.N → sProp 𝕄
  | 0, _ => Pipeline.ΦA spec2 c
  | n + 1, hn => iprop((owns (c : Thread nD τ) sumsBuf fullShare (leftAt V c n hn).2.1
      ∗ owns (c : Thread nD τ) countsBuf fullShare (leftAt V c n hn).2.2 ∗ others c) ∗ (∃ r, prngReg c r))

theorem carried_zero (c : Dev nD) (n : ℕ) (h : n ≤ cfg2.N) (hz : n = 0) : carried V c n h = Pipeline.ΦA spec2 c := by
  subst hz; rfl

theorem carried_succ (c : Dev nD) (n : ℕ) (hn : n < cfg2.N) :
    carried V c (n + 1) hn = iprop((owns (c : Thread nD τ) sumsBuf fullShare (leftAt V c n hn).2.1
      ∗ owns (c : Thread nD τ) countsBuf fullShare (leftAt V c n hn).2.2 ∗ others c) ∗ (∃ r, prngReg c r)) := rfl

theorem carried_pos (c : Dev nD) (n : ℕ) (h : n ≤ cfg2.N) (hz : n ≠ 0) :
    carried V c n h = iprop((owns (c : Thread nD τ) sumsBuf fullShare (leftAt V c (n - 1) (by omega)).2.1
      ∗ owns (c : Thread nD τ) countsBuf fullShare (leftAt V c (n - 1) (by omega)).2.2 ∗ others c) ∗ (∃ r, prngReg c r)) := by
  cases n with
  | zero => exact absurd rfl hz
  | succ n => rfl

/-! ## The pipeline's proof data -/

def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => (leftAt V c t.val t.isLt).1
  Φ t := carried V c t.val (Nat.le_of_lt_succ t.isLt)
  q _ := fullShare
  owed _ := 0

theorem dat_A (c : Dev nD) (w : Fin cfg2.W) : (dat V c).A w = V c (Pipeline.arrRef spec2 w) := by
  dsimp only [dat]

theorem carried_at (c : Dev nD) (t : Fin cfg2.N) : (dat V c).Φ t.castSucc = carried V c t.val (Nat.le_of_lt t.isLt) := by
  dsimp only [dat]; simp only [Fin.coe_castSucc]

theorem after_in0 (c : Dev nD) (t : Fin cfg2.N) : (dat V c).after 0 t = blockAt V c 0 t := by dsimp only [dat]
theorem after_in1 (c : Dev nD) (t : Fin cfg2.N) : (dat V c).after 1 t = blockAt V c 1 t := by dsimp only [dat]
theorem after_in2 (c : Dev nD) (t : Fin cfg2.N) : (dat V c).after 2 t = blockAt V c 2 t := by dsimp only [dat]
theorem after_in3 (c : Dev nD) (t : Fin cfg2.N) : (dat V c).after 3 t = blockAt V c 3 t := by dsimp only [dat]
theorem after_in4 (c : Dev nD) (t : Fin cfg2.N) : (dat V c).after 4 t = blockAt V c 4 t := by dsimp only [dat]
theorem after_in5 (c : Dev nD) (t : Fin cfg2.N) : (dat V c).after 5 t = blockAt V c 5 t := by dsimp only [dat]
/-- The result buffer after the body at point `t`. -/
theorem after_result (c : Dev nD) (t : Fin cfg2.N) : (dat V c).after 6 t = (leftAt V c t.val t.isLt).1 := by dsimp only [dat]

theorem held0 (c : Dev nD) (t : Fin cfg2.N) (d) : (dat V c).before 0 t d = blockAt V c 0 t := held0_of V (dat V c) (dat_A V c 0) (after_in0 V c) t d
theorem held1 (c : Dev nD) (t : Fin cfg2.N) (d) : (dat V c).before 1 t d = blockAt V c 1 t := held1_of V (dat V c) (dat_A V c 1) (after_in1 V c) t d
theorem held2 (c : Dev nD) (t : Fin cfg2.N) (d) : (dat V c).before 2 t d = blockAt V c 2 t := held2_of V (dat V c) (dat_A V c 2) (after_in2 V c) t d
theorem held3 (c : Dev nD) (t : Fin cfg2.N) (d) : (dat V c).before 3 t d = blockAt V c 3 t := held3_of V (dat V c) (dat_A V c 3) (after_in3 V c) t d
theorem held4 (c : Dev nD) (t : Fin cfg2.N) (d) : (dat V c).before 4 t d = blockAt V c 4 t := held4_of V (dat V c) (dat_A V c 4) (after_in4 V c) t d
theorem held5 (c : Dev nD) (t : Fin cfg2.N) (d) : (dat V c).before 5 t d = blockAt V c 5 t := held5_of V (dat V c) (dat_A V c 5) (after_in5 V c) t d

theorem leaves_in0 (c : Dev nD) (t : Fin cfg2.N) : (dat V c).leavesExact 0 t = owns (c : Thread nD τ) (buf0 t) fullShare (blockAt V c 0 t) := by
  unfold Dat.leavesExact; rw [live0 t, after_in0]
theorem leaves_in1 (c : Dev nD) (t : Fin cfg2.N) : (dat V c).leavesExact 1 t = owns (c : Thread nD τ) (buf1 t) fullShare (blockAt V c 1 t) := by
  unfold Dat.leavesExact; rw [live1 t, after_in1]
theorem leaves_in2 (c : Dev nD) (t : Fin cfg2.N) : (dat V c).leavesExact 2 t = owns (c : Thread nD τ) (buf2 t) fullShare (blockAt V c 2 t) := by
  unfold Dat.leavesExact; rw [live2 t, after_in2]
theorem leaves_in3 (c : Dev nD) (t : Fin cfg2.N) : (dat V c).leavesExact 3 t = owns (c : Thread nD τ) (buf3 t) fullShare (blockAt V c 3 t) := by
  unfold Dat.leavesExact; rw [live3 t, after_in3]
theorem leaves_in4 (c : Dev nD) (t : Fin cfg2.N) : (dat V c).leavesExact 4 t = owns (c : Thread nD τ) (buf4 t) fullShare (blockAt V c 4 t) := by
  unfold Dat.leavesExact; rw [live4 t, after_in4]
theorem leaves_in5 (c : Dev nD) (t : Fin cfg2.N) : (dat V c).leavesExact 5 t = owns (c : Thread nD τ) (buf5 t) fullShare (blockAt V c 5 t) := by
  unfold Dat.leavesExact; rw [live5 t, after_in5]

/-! ## The body obligation -/

def bodyPre (c : Dev nD) (t : Fin cfg2.N) : sProp 𝕄 :=
  iprop((dat V c).Φ t.castSucc ∗ (dat V c).owesAt () t.castSucc
    ∗ (∃ d, owns (c : Thread nD τ) (buf0 t) fullShare ((dat V c).before 0 t d))
    ∗ (∃ d, owns (c : Thread nD τ) (buf1 t) fullShare ((dat V c).before 1 t d))
    ∗ (∃ d, owns (c : Thread nD τ) (buf2 t) fullShare ((dat V c).before 2 t d))
    ∗ (∃ d, owns (c : Thread nD τ) (buf3 t) fullShare ((dat V c).before 3 t d))
    ∗ (∃ d, owns (c : Thread nD τ) (buf4 t) fullShare ((dat V c).before 4 t d))
    ∗ (∃ d, owns (c : Thread nD τ) (buf5 t) fullShare ((dat V c).before 5 t d))
    ∗ (∃ d, owns (c : Thread nD τ) (buf6 t) fullShare ((dat V c).before 6 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- At any point the input buffers hold their blocks; the point is the first, a middle one or the last, and the matching run
    applies: the invariant hands it the accumulators (at anything before the first point, else at what the point before left)
    and takes them back at what this point leaves; away from the last point the result buffer is handed back untouched. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [held0, held1, held2, held3, held4, held5]
  rw [show (dat V c).owesAt () t.succ = (dat V c).owesAt () t.castSucc from rfl]
  rw [show (dat V c).Φ t.succ = carried V c (t.val + 1) t.isLt from rfl, carried_succ]
  rw [leaves_in0, leaves_in1, leaves_in2, leaves_in3, leaves_in4, leaves_in5]
  have hN : t.val < 10 := lt_of_lt_of_eq t.isLt (show cfg2.N = 10 from N_2)
  by_cases h0 : t.val = 0
  · have hnl : ¬isLast (grid2.coords t) := fun h => by have := (isLast_iff t).mp h; omega
    rw [Dat.leavesExact_idle (dat V c) 6 t (result_idle t hnl) (result_kept t hnl)]
    rw [leftAt_first V c t h0]
    dsimp only
    rw [carried_at V c t, carried_zero V c _ _ h0, resting_eq]
    iintro ⟨⟨⟨HS, HN, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((firstAt V c t h0).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HN]; · iexact HN
    iintro ⟨H0, H1, H2, H3, H4, H5, H6, ⟨%es, HS⟩, ⟨%en, HN⟩⟩
    isplitl [HS HN Hoth Hg]
    · isplitl [HS HN Hoth]
      · isplitl [HS]
        · unfold owns; iexists _; isplitr
          swap; · iexact HS
          ipureintro; exact View.read_writes_of_cover _ _ _ _ _ (View.cover_of_wholeMem _ (by sl_whole_mem))
        isplitl [HN]
        · unfold owns; iexists _; isplitr
          swap; · iexact HN
          ipureintro; exact View.read_writes_of_cover _ _ _ _ _ (View.cover_of_wholeMem _ (by sl_whole_mem))
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h9 : t.val = 9
    · have hl : isLast (grid2.coords t) := (isLast_iff t).mpr h9
      rw [show (dat V c).leavesExact 6 t = owns (c : Thread nD τ) (buf6 t) fullShare ((dat V c).after 6 t) from by
        unfold Dat.leavesExact; rw [result_live t hl], after_result]
      rw [leftAt_last V c t h9]
      dsimp only
      rw [carried_at V c t, carried_pos V c _ _ h0]
      iintro ⟨⟨⟨HS, HN, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((lastAt V c t h9 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HN]; · iexact HN
      iintro ⟨H0, H1, H2, H3, H4, H5, ⟨%er, H6⟩, ⟨%es, HS⟩, ⟨%en, HN⟩⟩
      isplitl [HS HN Hoth Hg]
      · isplitl [HS HN Hoth]
        · isplitl [HS]
          · unfold owns; iexists _; isplitr
            swap; · iexact HS
            ipureintro; exact View.read_writes_of_cover _ _ _ _ _ (View.cover_of_wholeMem _ (by sl_whole_mem))
          isplitl [HN]
          · unfold owns; iexists _; isplitr
            swap; · iexact HN
            ipureintro; exact View.read_writes_of_cover _ _ _ _ _ (View.cover_of_wholeMem _ (by sl_whole_mem))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (View.cover_of_wholeMem _ (by sl_whole_mem))
    · have hnl : ¬isLast (grid2.coords t) := fun h => h9 ((isLast_iff t).mp h)
      rw [Dat.leavesExact_idle (dat V c) 6 t (result_idle t hnl) (result_kept t hnl)]
      rw [leftAt_middle V c t h0 h9]
      dsimp only
      rw [carried_at V c t, carried_pos V c _ _ h0]
      iintro ⟨⟨⟨HS, HN, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((middleAt V c t h0 h9 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HN]; · iexact HN
      iintro ⟨H0, H1, H2, H3, H4, H5, H6, ⟨%es, HS⟩, ⟨%en, HN⟩⟩
      isplitl [HS HN Hoth Hg]
      · isplitl [HS HN Hoth]
        · isplitl [HS]
          · unfold owns; iexists _; isplitr
            swap; · iexact HS
            ipureintro; exact View.read_writes_of_cover _ _ _ _ _ (View.cover_of_wholeMem _ (by sl_whole_mem))
          isplitl [HN]
          · unfold owns; iexists _; isplitr
            swap; · iexact HN
            ipureintro; exact View.read_writes_of_cover _ _ _ _ _ (View.cover_of_wholeMem _ (by sl_whole_mem))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation (c : Dev nD) : BodyObligation (dat (F := F) V c) (defs₀ (F := F)) Variants.none () Set.univ := fun t => by
  rw [bigSep_W2, bigSep_W2]
  exact body_at V c t

/-! ## Into the region and out of it -/

/-- What the launch hands the region is the invariant before the first point. -/
theorem enters (c : Dev nD) : Pipeline.ΦA spec2 c ⊢ (dat V c).Φ 0 := by
  rw [show (dat V c).Φ 0 = carried V c 0 (Nat.zero_le _) from rfl, carried_zero V c 0 _ rfl]

/-- After the last point the invariant gives the resting one back: what the accumulators hold is forgotten. -/
theorem exits (c : Dev nD) : (dat V c).Φ (Fin.last cfg2.N) ⊢ Pipeline.ΦA spec2 c := by
  rw [show (dat V c).Φ (Fin.last cfg2.N) = carried V c (Fin.last cfg2.N).val (Nat.le_of_lt_succ (Fin.last cfg2.N).isLt) from rfl,
    carried_pos V c _ _ (by rw [Fin.val_last]; have : cfg2.N = 10 := N_2; omega), resting_eq]
  iintro ⟨⟨HS, HN, Hoth⟩, Hg⟩
  isplitl [HS HN Hoth]
  · isplitl [HS]; · iexists _; iexact HS
    isplitl [HN]; · iexists _; iexact HN
    iexact Hoth
  iexact Hg

end Cert.Kernel.Pool

end
-- ==== Proof.K.Whole.lean ====
/-
  The whole program: @main is three stretches of host operations and three kernel regions. Here: what the TensorCore's
  buffers hold at each of the six boundaries, as a fold from the launch memory (a host stretch applies its operations;
  a region leaves each of its input arrays as entered and its output array at what its write-backs leave); that no
  argument array is ever written; every pipeline's proof data at its region's entry contents; each region as a segment
  over one thread state; and the run: every weakly fair execution terminates, nothing faulting, with every unscoped
  buffer at the last boundary's contents. Nothing here depends on the float instance.
-/
import proofs.«422455_j33483565040041_2_alg».proof.Proof.Gen.Kernel.Launch
import proofs.«422455_j33483565040041_2_alg».proof.Proof.Gen.Kernel.Skeleton
import proofs.«422455_j33483565040041_2_alg».proof.Proof.Gen.Kernel.Points
import proofs.«422455_j33483565040041_2_alg».proof.Proof.Gen.Kernel.Regions
import proofs.«422455_j33483565040041_2_alg».proof.Proof.K.Layer1
import proofs.«422455_j33483565040041_2_alg».proof.Proof.K.Layer2
import proofs.«422455_j33483565040041_2_alg».proof.Proof.K.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch: region 0's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves (an input as entered, the output its write-backs folded),
    every other buffer as entered. -/
def B2 (c : Dev nD) : Valuation τ sig (Elt F) :=
  Pipeline.withArrays spec0 c (B1 m ρ c) fun w => (Layer1.dat (E1 m ρ) c).arrAt w cfg0.N
theorem B2_arr (c : Dev nD) (w : Fin cfg0.W) :
    B2 m ρ c (Proc.devRef .tc (Pipeline.arrRef spec0 w)) = (Layer1.dat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem left0 (c : Dev nD) (w : Fin cfg0.W) : (Layer1.dat (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch: region 1's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves (an input as entered, the output its write-backs folded),
    every other buffer as entered. -/
def B4 (c : Dev nD) : Valuation τ sig (Elt F) :=
  Pipeline.withArrays spec1 c (B3 m ρ c) fun w => (Layer2.dat (E3 m ρ) c).arrAt w cfg1.N
theorem B4_arr (c : Dev nD) (w : Fin cfg1.W) :
    B4 m ρ c (Proc.devRef .tc (Pipeline.arrRef spec1 w)) = (Layer2.dat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m ρ c b
theorem left1 (c : Dev nD) (w : Fin cfg1.W) : (Layer2.dat (E3 m ρ) c).arrAt w cfg1.N = E4 m ρ c (Pipeline.arrRef spec1 w) :=
  (B4_arr m ρ c w).symm
theorem kept1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the third host stretch: region 2's entry. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves (an input as entered, the output its write-backs folded),
    every other buffer as entered. -/
def B6 (c : Dev nD) : Valuation τ sig (Elt F) :=
  Pipeline.withArrays spec2 c (B5 m ρ c) fun w => (Pool.dat (E5 m ρ) c).arrAt w cfg2.N
theorem B6_arr (c : Dev nD) (w : Fin cfg2.W) :
    B6 m ρ c (Proc.devRef .tc (Pipeline.arrRef spec2 w)) = (Pool.dat (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m ρ c b
theorem left2 (c : Dev nD) (w : Fin cfg2.W) : (Pool.dat (E5 m ρ) c).arrAt w cfg2.N = E6 m ρ c (Pipeline.arrRef spec2 w) :=
  (B6_arr m ρ c w).symm
theorem kept2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-! ## No argument array is ever written -/

/-- Region 0 changes none of the buffers but its output array `main_v18`: an input array ends as entered, a buffer it does not
    stage is not touched. -/
theorem B2_keeps (c : Dev nD) (b : Ref sig .tc) (hb : b ≠ main_v18) :
    B2 m ρ c (Proc.devRef .tc b) = B1 m ρ c (Proc.devRef .tc b) := by
  by_cases hr : ∃ w, Pipeline.arrRef spec0 w = b
  · obtain ⟨w, rfl⟩ := hr
    rw [B2_arr]
    have hw : (cfg0.win w).isOut = false := by
      revert hb; revert w; decide
    exact ((Layer1.dat (E1 m ρ) c).arrAt_in w hw _).trans (Layer1.dat_A (E1 m ρ) c w)
  · exact B2_of_ne m ρ c b fun w e => hr ⟨w, e⟩

/-- Region 1 changes none of the buffers but its output array `main_v33`: an input array ends as entered, a buffer it does not
    stage is not touched. -/
theorem B4_keeps (c : Dev nD) (b : Ref sig .tc) (hb : b ≠ main_v33) :
    B4 m ρ c (Proc.devRef .tc b) = B3 m ρ c (Proc.devRef .tc b) := by
  by_cases hr : ∃ w, Pipeline.arrRef spec1 w = b
  · obtain ⟨w, rfl⟩ := hr
    rw [B4_arr]
    have hw : (cfg1.win w).isOut = false := by
      revert hb; revert w; decide
    exact ((Layer2.dat (E3 m ρ) c).arrAt_in w hw _).trans (Layer2.dat_A (E3 m ρ) c w)
  · exact B4_of_ne m ρ c b fun w e => hr ⟨w, e⟩

/-- Region 2 changes none of the buffers but its output array `main_v37`: an input array ends as entered, a buffer it does not
    stage is not touched. -/
theorem B6_keeps (c : Dev nD) (b : Ref sig .tc) (hb : b ≠ main_v37) :
    B6 m ρ c (Proc.devRef .tc b) = B5 m ρ c (Proc.devRef .tc b) := by
  by_cases hr : ∃ w, Pipeline.arrRef spec2 w = b
  · obtain ⟨w, rfl⟩ := hr
    rw [B6_arr]
    have hw : (cfg2.win w).isOut = false := by
      revert hb; revert w; decide
    exact ((Pool.dat (E5 m ρ) c).arrAt_in w hw _).trans (Pool.dat_A (E5 m ρ) c w)
  · exact B6_of_ne m ρ c b fun w e => hr ⟨w, e⟩

theorem atEnd_main_arg0 (c : Dev nD) : B6 m ρ c (Proc.devRef .tc main_arg0) = m ((c : Thread nD τ).loc main_arg0) :=
  (B6_keeps m ρ c main_arg0 (by decide)).trans <| (StableHlo.after_of_writes_sub hostOps2 _ hostOps2_writes (by decide)).trans <|
    (B4_keeps m ρ c main_arg0 (by decide)).trans <| (StableHlo.after_of_writes_sub hostOps1 _ hostOps1_writes (by decide)).trans <|
    (B2_keeps m ρ c main_arg0 (by decide)).trans <| (StableHlo.after_of_writes_sub hostOps0 _ hostOps0_writes (by decide)).trans rfl
theorem atEnd_main_arg1 (c : Dev nD) : B6 m ρ c (Proc.devRef .tc main_arg1) = m ((c : Thread nD τ).loc main_arg1) :=
  (B6_keeps m ρ c main_arg1 (by decide)).trans <| (StableHlo.after_of_writes_sub hostOps2 _ hostOps2_writes (by decide)).trans <|
    (B4_keeps m ρ c main_arg1 (by decide)).trans <| (StableHlo.after_of_writes_sub hostOps1 _ hostOps1_writes (by decide)).trans <|
    (B2_keeps m ρ c main_arg1 (by decide)).trans <| (StableHlo.after_of_writes_sub hostOps0 _ hostOps0_writes (by decide)).trans rfl
theorem atEnd_main_arg2 (c : Dev nD) : B6 m ρ c (Proc.devRef .tc main_arg2) = m ((c : Thread nD τ).loc main_arg2) :=
  (B6_keeps m ρ c main_arg2 (by decide)).trans <| (StableHlo.after_of_writes_sub hostOps2 _ hostOps2_writes (by decide)).trans <|
    (B4_keeps m ρ c main_arg2 (by decide)).trans <| (StableHlo.after_of_writes_sub hostOps1 _ hostOps1_writes (by decide)).trans <|
    (B2_keeps m ρ c main_arg2 (by decide)).trans <| (StableHlo.after_of_writes_sub hostOps0 _ hostOps0_writes (by decide)).trans rfl
theorem atEnd_main_arg3 (c : Dev nD) : B6 m ρ c (Proc.devRef .tc main_arg3) = m ((c : Thread nD τ).loc main_arg3) :=
  (B6_keeps m ρ c main_arg3 (by decide)).trans <| (StableHlo.after_of_writes_sub hostOps2 _ hostOps2_writes (by decide)).trans <|
    (B4_keeps m ρ c main_arg3 (by decide)).trans <| (StableHlo.after_of_writes_sub hostOps1 _ hostOps1_writes (by decide)).trans <|
    (B2_keeps m ρ c main_arg3 (by decide)).trans <| (StableHlo.after_of_writes_sub hostOps0 _ hostOps0_writes (by decide)).trans rfl
theorem atEnd_main_arg4 (c : Dev nD) : B6 m ρ c (Proc.devRef .tc main_arg4) = m ((c : Thread nD τ).loc main_arg4) :=
  (B6_keeps m ρ c main_arg4 (by decide)).trans <| (StableHlo.after_of_writes_sub hostOps2 _ hostOps2_writes (by decide)).trans <|
    (B4_keeps m ρ c main_arg4 (by decide)).trans <| (StableHlo.after_of_writes_sub hostOps1 _ hostOps1_writes (by decide)).trans <|
    (B2_keeps m ρ c main_arg4 (by decide)).trans <| (StableHlo.after_of_writes_sub hostOps0 _ hostOps0_writes (by decide)).trans rfl
theorem atEnd_main_arg5 (c : Dev nD) : B6 m ρ c (Proc.devRef .tc main_arg5) = m ((c : Thread nD τ).loc main_arg5) :=
  (B6_keeps m ρ c main_arg5 (by decide)).trans <| (StableHlo.after_of_writes_sub hostOps2 _ hostOps2_writes (by decide)).trans <|
    (B4_keeps m ρ c main_arg5 (by decide)).trans <| (StableHlo.after_of_writes_sub hostOps1 _ hostOps1_writes (by decide)).trans <|
    (B2_keeps m ρ c main_arg5 (by decide)).trans <| (StableHlo.after_of_writes_sub hostOps0 _ hostOps0_writes (by decide)).trans rfl
theorem atEnd_main_arg6 (c : Dev nD) : B6 m ρ c (Proc.devRef .tc main_arg6) = m ((c : Thread nD τ).loc main_arg6) :=
  (B6_keeps m ρ c main_arg6 (by decide)).trans <| (StableHlo.after_of_writes_sub hostOps2 _ hostOps2_writes (by decide)).trans <|
    (B4_keeps m ρ c main_arg6 (by decide)).trans <| (StableHlo.after_of_writes_sub hostOps1 _ hostOps1_writes (by decide)).trans <|
    (B2_keeps m ρ c main_arg6 (by decide)).trans <| (StableHlo.after_of_writes_sub hostOps0 _ hostOps0_writes (by decide)).trans rfl
theorem atEnd_main_arg7 (c : Dev nD) : B6 m ρ c (Proc.devRef .tc main_arg7) = m ((c : Thread nD τ).loc main_arg7) :=
  (B6_keeps m ρ c main_arg7 (by decide)).trans <| (StableHlo.after_of_writes_sub hostOps2 _ hostOps2_writes (by decide)).trans <|
    (B4_keeps m ρ c main_arg7 (by decide)).trans <| (StableHlo.after_of_writes_sub hostOps1 _ hostOps1_writes (by decide)).trans <|
    (B2_keeps m ρ c main_arg7 (by decide)).trans <| (StableHlo.after_of_writes_sub hostOps0 _ hostOps0_writes (by decide)).trans rfl
theorem atEnd_main_arg8 (c : Dev nD) : B6 m ρ c (Proc.devRef .tc main_arg8) = m ((c : Thread nD τ).loc main_arg8) :=
  (B6_keeps m ρ c main_arg8 (by decide)).trans <| (StableHlo.after_of_writes_sub hostOps2 _ hostOps2_writes (by decide)).trans <|
    (B4_keeps m ρ c main_arg8 (by decide)).trans <| (StableHlo.after_of_writes_sub hostOps1 _ hostOps1_writes (by decide)).trans <|
    (B2_keeps m ρ c main_arg8 (by decide)).trans <| (StableHlo.after_of_writes_sub hostOps0 _ hostOps0_writes (by decide)).trans rfl
theorem atEnd_main_arg9 (c : Dev nD) : B6 m ρ c (Proc.devRef .tc main_arg9) = m ((c : Thread nD τ).loc main_arg9) :=
  (B6_keeps m ρ c main_arg9 (by decide)).trans <| (StableHlo.after_of_writes_sub hostOps2 _ hostOps2_writes (by decide)).trans <|
    (B4_keeps m ρ c main_arg9 (by decide)).trans <| (StableHlo.after_of_writes_sub hostOps1 _ hostOps1_writes (by decide)).trans <|
    (B2_keeps m ρ c main_arg9 (by decide)).trans <| (StableHlo.after_of_writes_sub hostOps0 _ hostOps0_writes (by decide)).trans rfl
theorem atEnd_main_arg10 (c : Dev nD) : B6 m ρ c (Proc.devRef .tc main_arg10) = m ((c : Thread nD τ).loc main_arg10) :=
  (B6_keeps m ρ c main_arg10 (by decide)).trans <| (StableHlo.after_of_writes_sub hostOps2 _ hostOps2_writes (by decide)).trans <|
    (B4_keeps m ρ c main_arg10 (by decide)).trans <| (StableHlo.after_of_writes_sub hostOps1 _ hostOps1_writes (by decide)).trans <|
    (B2_keeps m ρ c main_arg10 (by decide)).trans <| (StableHlo.after_of_writes_sub hostOps0 _ hostOps0_writes (by decide)).trans rfl
theorem atEnd_main_arg11 (c : Dev nD) : B6 m ρ c (Proc.devRef .tc main_arg11) = m ((c : Thread nD τ).loc main_arg11) :=
  (B6_keeps m ρ c main_arg11 (by decide)).trans <| (StableHlo.after_of_writes_sub hostOps2 _ hostOps2_writes (by decide)).trans <|
    (B4_keeps m ρ c main_arg11 (by decide)).trans <| (StableHlo.after_of_writes_sub hostOps1 _ hostOps1_writes (by decide)).trans <|
    (B2_keeps m ρ c main_arg11 (by decide)).trans <| (StableHlo.after_of_writes_sub hostOps0 _ hostOps0_writes (by decide)).trans rfl
theorem atEnd_main_arg12 (c : Dev nD) : B6 m ρ c (Proc.devRef .tc main_arg12) = m ((c : Thread nD τ).loc main_arg12) :=
  (B6_keeps m ρ c main_arg12 (by decide)).trans <| (StableHlo.after_of_writes_sub hostOps2 _ hostOps2_writes (by decide)).trans <|
    (B4_keeps m ρ c main_arg12 (by decide)).trans <| (StableHlo.after_of_writes_sub hostOps1 _ hostOps1_writes (by decide)).trans <|
    (B2_keeps m ρ c main_arg12 (by decide)).trans <| (StableHlo.after_of_writes_sub hostOps0 _ hostOps0_writes (by decide)).trans rfl
theorem atEnd_main_arg13 (c : Dev nD) : B6 m ρ c (Proc.devRef .tc main_arg13) = m ((c : Thread nD τ).loc main_arg13) :=
  (B6_keeps m ρ c main_arg13 (by decide)).trans <| (StableHlo.after_of_writes_sub hostOps2 _ hostOps2_writes (by decide)).trans <|
    (B4_keeps m ρ c main_arg13 (by decide)).trans <| (StableHlo.after_of_writes_sub hostOps1 _ hostOps1_writes (by decide)).trans <|
    (B2_keeps m ρ c main_arg13 (by decide)).trans <| (StableHlo.after_of_writes_sub hostOps0 _ hostOps0_writes (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Layer1.dat (E1 m ρ) c
  | ⟨1, _⟩ => fun c => Layer2.dat (E3 m ρ) c
  | ⟨2, _⟩ => fun c => Pool.dat (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev atEnd (c : Dev nD) : sProp 𝕄 := iprop(StableHlo.held (c : Thread nD τ) (Pipeline.ucRefs τ sig) (B6 m ρ c) ∗ ∃ r, prngReg c r)

/-! ## The regions as segments -/

-- a library lemma stated over the pinned configuration unifies only when unification may unfold plain definitions in a metavariable's type
set_option backward.isDefEq.respectTransparency.types false in
/-- Region 0 over the thread state "every unscoped buffer at the boundary's contents, the generator register at some state,
    nothing owed": entered at `B1`, left at `B2`. Its arrays are split out of the unscoped buffers and put back at the
    exit contents; the generator register goes into the region's invariant and comes back; the kernel has no semaphore of
    its own. -/
def seg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (E1 m ρ) c).loose
  hwaits := Pipeline.hwaits_of_owed_zero _ _ _ _ L lv 0 fun _ _ => rfl
  pre c := iprop(StableHlo.held (c : Thread nD τ) (Pipeline.ucRefs τ sig) (B1 m ρ c) ∗ riding c)
  post c := iprop(StableHlo.held (c : Thread nD τ) (Pipeline.ucRefs τ sig) (B2 m ρ c) ∗ riding c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- Region 1 over the thread state "every unscoped buffer at the boundary's contents, the generator register at some state,
    nothing owed": entered at `B3`, left at `B4`. Its arrays are split out of the unscoped buffers and put back at the
    exit contents; the generator register goes into the region's invariant and comes back; the kernel has no semaphore of
    its own. -/
def seg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (E3 m ρ) c).loose
  hwaits := Pipeline.hwaits_of_owed_zero _ _ _ _ L lv 1 fun _ _ => rfl
  pre c := iprop(StableHlo.held (c : Thread nD τ) (Pipeline.ucRefs τ sig) (B3 m ρ c) ∗ riding c)
  post c := iprop(StableHlo.held (c : Thread nD τ) (Pipeline.ucRefs τ sig) (B4 m ρ c) ∗ riding c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- Region 2 over the thread state "every unscoped buffer at the boundary's contents, the generator register at some state,
    nothing owed": entered at `B5`, left at `B6`. Its arrays are split out of the unscoped buffers and put back at the
    exit contents; the generator register goes into the region's invariant and comes back; the kernel has no semaphore of
    its own. -/
def seg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Pool.body_obligation (E5 m ρ) c).loose
  hwaits := Pipeline.hwaits_of_owed_zero _ _ _ _ L lv 2 fun _ _ => rfl
  pre c := iprop(StableHlo.held (c : Thread nD τ) (Pipeline.ucRefs τ sig) (B5 m ρ c) ∗ riding c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = (Pool.dat (E5 m ρ) c).Φ (Fin.last cfg2.N) from rfl]
    have hx := Pool.exits (E5 m ρ) c
    unfold Pipeline.ΦA at hx
    iintro H
    ihave H' := hx $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hostSeg hostOps0 hostOps0_sub hostOps0_fresh (B0 m ρ)),
    .region (seg0 m ρ),
    .host (hostSeg hostOps1 hostOps1_sub hostOps1_fresh (B2 m ρ)),
    .region (seg1 m ρ),
    .host (hostSeg hostOps2 hostOps2_sub hostOps2_fresh (B4 m ρ)),
    .region (seg2 m ρ) ]
theorem main_is_segs (c : Dev nD) : main (F := F) c = Pipeline.Seg.run (segs m ρ) := (main_chain c).trans (by chain_rfl)

set_option backward.isDefEq.respectTransparency.types false in
/-- THE RUN. From any memory with zero counters every weakly fair execution of @main terminates, nothing faulting, and in every
    final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ riding c)) (Tₙ := atEnd m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (atEnd_main_arg0 m ρ c),
    (h c _ (mem_uc main_arg1 (by decide))).trans (atEnd_main_arg1 m ρ c),
    (h c _ (mem_uc main_arg2 (by decide))).trans (atEnd_main_arg2 m ρ c),
    (h c _ (mem_uc main_arg3 (by decide))).trans (atEnd_main_arg3 m ρ c),
    (h c _ (mem_uc main_arg4 (by decide))).trans (atEnd_main_arg4 m ρ c),
    (h c _ (mem_uc main_arg5 (by decide))).trans (atEnd_main_arg5 m ρ c),
    (h c _ (mem_uc main_arg6 (by decide))).trans (atEnd_main_arg6 m ρ c),
    (h c _ (mem_uc main_arg7 (by decide))).trans (atEnd_main_arg7 m ρ c),
    (h c _ (mem_uc main_arg8 (by decide))).trans (atEnd_main_arg8 m ρ c),
    (h c _ (mem_uc main_arg9 (by decide))).trans (atEnd_main_arg9 m ρ c),
    (h c _ (mem_uc main_arg10 (by decide))).trans (atEnd_main_arg10 m ρ c),
    (h c _ (mem_uc main_arg11 (by decide))).trans (atEnd_main_arg11 m ρ c),
    (h c _ (mem_uc main_arg12 (by decide))).trans (atEnd_main_arg12 m ρ c),
    (h c _ (mem_uc main_arg13 (by decide))).trans (atEnd_main_arg13 m ρ c)⟩) (run m ρ)

end Cert.Kernel.Whole

end
-- ==== Proof.KI.Layer1.lean ====
/-
  Region 0 of the program: the first GraphConv layer's combine stage, over 20 blocks of 5000 nodes with 32 input features.
  At the contents `V` that the region finds in the TensorCore's buffers: each window's block at a grid point; what the
  body leaves in the output window's buffer, as a function of the five input blocks (the block of aggregated
  features, the block of node features, W_rel, the bias row, W_root); the body run once on whole staging buffers;
  the pipeline's proof data and its body obligation. Nothing here depends on the float instance.
-/
import proofs.«422455_j33483565040041_2_alg».proof.Proof.Gen.KernelIdeal.Launch
import proofs.«422455_j33483565040041_2_alg».proof.Proof.Gen.KernelIdeal.Skeleton
import proofs.«422455_j33483565040041_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. Windows 0 and 1 step through
    the 20 blocks of 5000 nodes; windows 2, 3, 4 (the two weight matrices and the bias row) are the whole array at
    every point; window 5 is the output. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not that point fetched it: where it
    was not fetched the window's block index has not moved. -/
theorem held0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point, whether or not that point fetched it: where it
    was not fetched the window's block index has not moved. -/
theorem held1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point, whether or not that point fetched it: where it
    was not fetched the window's block index has not moved. -/
theorem held2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point, whether or not that point fetched it: where it
    was not fetched the window's block index has not moved. -/
theorem held3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds its block at every point, whether or not that point fetched it: where it
    was not fetched the window's block index has not moved. -/
theorem held4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

abbrev rectA : Rect S5000x32 := Rect.unit (s := S5000x32) ![0, 0] S5000x32.size inb_S5000x32_S5000x32_0_0
abbrev rectW : Rect S32x64 := Rect.unit (s := S32x64) ![0, 0] S32x64.size inb_S32x64_S32x64_0_0
abbrev rectB : Rect S1x64 := Rect.unit (s := S1x64) ![0, 0] S1x64.size inb_S1x64_S1x64_0_0
abbrev rectO : Rect S5000x64 := Rect.unit (s := S5000x64) ![0, 0] S5000x64.size inb_S5000x64_S5000x64_0_0

/-- The output block after the body: its one store, of the whole block, of the combine of the five input blocks. -/
def combinedBlock (a x : Vec F S5000x32 .f32) (wr : Vec F S32x64 .f32) (b : Vec F S1x64 .f32) (wo : Vec F S32x64 .f32) : Vec F S5000x64 .f32 :=
  View.canon [⟨rectO, k0_pay1 (View.ld a rectA) (View.ld x rectA) (View.ld wr rectW) (View.ld wo rectW) (View.ld b rectB)⟩]

/-- That one store covers the block. -/
theorem store_covers (p0 : Vec F S5000x64 .f32) (y : S5000x64.Idx) :
    ∃ pc ∈ ([⟨rectO, p0⟩] : List (View.Piece (Elt F) S5000x64 .f32)), y ∈ pc.1.set :=
  View.cover_of_tiled [⟨rectO, p0⟩] S5000x64.size (by rfl) y

/-! ## The body on whole staging buffers -/

set_option maxHeartbeats 4000000 in
/-- With the five input buffers whole at `a x wr b wo` and the output buffer at anything, the body runs to its return,
    the inputs as they were and the output buffer at `combinedBlock` of them. -/
theorem body_runs (c : Dev nD) (E : Set ℕ) (i : grid0.Coords)
    (arg1 : Memref sig .tc .vmem S5000x32 .f32) (harg1 : arg1.IsWhole) (arg2 : Memref sig .tc .vmem S5000x32 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S32x64 .f32) (harg5 : arg5.IsWhole) (arg6 : Memref sig .tc .vmem S5000x64 .f32) (harg6 : arg6.IsWhole)
    (a x : Vec F S5000x32 .f32) (wr : Vec F S32x64 .f32) (b : Vec F S1x64 .f32) (wo : Vec F S32x64 .f32) (K : PUnit → sProp 𝕄) :
    iprop(owns (c : Thread nD τ) arg1 fullShare a ∗ owns (c : Thread nD τ) arg2 fullShare x ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare a ∗ owns (c : Thread nD τ) arg2 fullShare x ∗ owns (c : Thread nD τ) arg3 fullShare wr
            ∗ owns (c : Thread nD τ) arg4 fullShare b ∗ owns (c : Thread nD τ) arg5 fullShare wo
            ∗ owns (c : Thread nD τ) arg6 fullShare (combinedBlock a x wr b wo)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The pipeline's proof data -/

/-- The arrays as the region finds them; after the body at point `t` each input buffer still at its block and the
    output buffer at the combine of the five blocks; between points nothing but the buffers the pipeline does not stage
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => combinedBlock (blockAt V c 0 t) (blockAt V c 1 t) (blockAt V c 2 t) (blockAt V c 3 t) (blockAt V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after_in0 (c : Dev nD) (t : Fin cfg0.N) : (dat V c).after 0 t = blockAt V c 0 t := by dsimp only [dat]
theorem after_in1 (c : Dev nD) (t : Fin cfg0.N) : (dat V c).after 1 t = blockAt V c 1 t := by dsimp only [dat]
theorem after_in2 (c : Dev nD) (t : Fin cfg0.N) : (dat V c).after 2 t = blockAt V c 2 t := by dsimp only [dat]
theorem after_in3 (c : Dev nD) (t : Fin cfg0.N) : (dat V c).after 3 t = blockAt V c 3 t := by dsimp only [dat]
theorem after_in4 (c : Dev nD) (t : Fin cfg0.N) : (dat V c).after 4 t = blockAt V c 4 t := by dsimp only [dat]
/-- What point `t` writes back: the combine of the point's five blocks. -/
theorem after_out (c : Dev nD) (t : Fin cfg0.N) :
    (dat V c).after 5 t = combinedBlock (blockAt V c 0 t) (blockAt V c 1 t) (blockAt V c 2 t) (blockAt V c 3 t) (blockAt V c 4 t) := by
  dsimp only [dat]

theorem held0 (c : Dev nD) (t : Fin cfg0.N) (d) : (dat V c).before 0 t d = blockAt V c 0 t := held0_of V (dat V c) (dat_A V c 0) (after_in0 V c) t d
theorem held1 (c : Dev nD) (t : Fin cfg0.N) (d) : (dat V c).before 1 t d = blockAt V c 1 t := held1_of V (dat V c) (dat_A V c 1) (after_in1 V c) t d
theorem held2 (c : Dev nD) (t : Fin cfg0.N) (d) : (dat V c).before 2 t d = blockAt V c 2 t := held2_of V (dat V c) (dat_A V c 2) (after_in2 V c) t d
theorem held3 (c : Dev nD) (t : Fin cfg0.N) (d) : (dat V c).before 3 t d = blockAt V c 3 t := held3_of V (dat V c) (dat_A V c 3) (after_in3 V c) t d
theorem held4 (c : Dev nD) (t : Fin cfg0.N) (d) : (dat V c).before 4 t d = blockAt V c 4 t := held4_of V (dat V c) (dat_A V c 4) (after_in4 V c) t d

/-! ## The body obligation -/

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 2000000 in
/-- At any point the input buffers hold their blocks, so the body runs as `body_runs` says; the rest passes through. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (dat V c).Φ t.succ = (dat V c).Φ t.castSucc from rfl,
    show (dat V c).owesAt () t.succ = (dat V c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact body_at V c t

end Cert.KernelIdeal.Layer1

end
-- ==== Proof.KI.Layer2.lean ====
/-
  Region 1 of the program: the second GraphConv layer's combine stage, over 20 blocks of 5000 nodes with 64 input features.
  At the contents `V` that the region finds in the TensorCore's buffers: each window's block at a grid point; what the
  body leaves in the output window's buffer, as a function of the five input blocks (the block of aggregated
  features, the block of node features, W_rel, the bias row, W_root); the body run once on whole staging buffers;
  the pipeline's proof data and its body obligation. Nothing here depends on the float instance.
-/
import proofs.«422455_j33483565040041_2_alg».proof.Proof.Gen.KernelIdeal.Launch
import proofs.«422455_j33483565040041_2_alg».proof.Proof.Gen.KernelIdeal.Skeleton
import proofs.«422455_j33483565040041_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. Windows 0 and 1 step through
    the 20 blocks of 5000 nodes; windows 2, 3, 4 (the two weight matrices and the bias row) are the whole array at
    every point; window 5 is the output. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not that point fetched it: where it
    was not fetched the window's block index has not moved. -/
theorem held0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point, whether or not that point fetched it: where it
    was not fetched the window's block index has not moved. -/
theorem held1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point, whether or not that point fetched it: where it
    was not fetched the window's block index has not moved. -/
theorem held2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point, whether or not that point fetched it: where it
    was not fetched the window's block index has not moved. -/
theorem held3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds its block at every point, whether or not that point fetched it: where it
    was not fetched the window's block index has not moved. -/
theorem held4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

abbrev rectA : Rect S5000x64 := Rect.unit (s := S5000x64) ![0, 0] S5000x64.size inb_S5000x64_S5000x64_0_0
abbrev rectW : Rect S64x64 := Rect.unit (s := S64x64) ![0, 0] S64x64.size inb_S64x64_S64x64_0_0
abbrev rectB : Rect S1x64 := Rect.unit (s := S1x64) ![0, 0] S1x64.size inb_S1x64_S1x64_0_0
abbrev rectO : Rect S5000x64 := Rect.unit (s := S5000x64) ![0, 0] S5000x64.size inb_S5000x64_S5000x64_0_0

/-- The output block after the body: its one store, of the whole block, of the combine of the five input blocks. -/
def combinedBlock (a x : Vec F S5000x64 .f32) (wr : Vec F S64x64 .f32) (b : Vec F S1x64 .f32) (wo : Vec F S64x64 .f32) : Vec F S5000x64 .f32 :=
  View.canon [⟨rectO, k1_pay1 (View.ld a rectA) (View.ld x rectA) (View.ld wr rectW) (View.ld wo rectW) (View.ld b rectB)⟩]

/-- That one store covers the block. -/
theorem store_covers (p0 : Vec F S5000x64 .f32) (y : S5000x64.Idx) :
    ∃ pc ∈ ([⟨rectO, p0⟩] : List (View.Piece (Elt F) S5000x64 .f32)), y ∈ pc.1.set :=
  View.cover_of_tiled [⟨rectO, p0⟩] S5000x64.size (by rfl) y

/-! ## The body on whole staging buffers -/

set_option maxHeartbeats 4000000 in
/-- With the five input buffers whole at `a x wr b wo` and the output buffer at anything, the body runs to its return,
    the inputs as they were and the output buffer at `combinedBlock` of them. -/
theorem body_runs (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (a x : Vec F S5000x64 .f32) (wr : Vec F S64x64 .f32) (b : Vec F S1x64 .f32) (wo : Vec F S64x64 .f32) (K : PUnit → sProp 𝕄) :
    iprop(owns (c : Thread nD τ) arg1 fullShare a ∗ owns (c : Thread nD τ) arg2 fullShare x ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare a ∗ owns (c : Thread nD τ) arg2 fullShare x ∗ owns (c : Thread nD τ) arg3 fullShare wr
            ∗ owns (c : Thread nD τ) arg4 fullShare b ∗ owns (c : Thread nD τ) arg5 fullShare wo
            ∗ owns (c : Thread nD τ) arg6 fullShare (combinedBlock a x wr b wo)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The pipeline's proof data -/

/-- The arrays as the region finds them; after the body at point `t` each input buffer still at its block and the
    output buffer at the combine of the five blocks; between points nothing but the buffers the pipeline does not stage
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => combinedBlock (blockAt V c 0 t) (blockAt V c 1 t) (blockAt V c 2 t) (blockAt V c 3 t) (blockAt V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after_in0 (c : Dev nD) (t : Fin cfg1.N) : (dat V c).after 0 t = blockAt V c 0 t := by dsimp only [dat]
theorem after_in1 (c : Dev nD) (t : Fin cfg1.N) : (dat V c).after 1 t = blockAt V c 1 t := by dsimp only [dat]
theorem after_in2 (c : Dev nD) (t : Fin cfg1.N) : (dat V c).after 2 t = blockAt V c 2 t := by dsimp only [dat]
theorem after_in3 (c : Dev nD) (t : Fin cfg1.N) : (dat V c).after 3 t = blockAt V c 3 t := by dsimp only [dat]
theorem after_in4 (c : Dev nD) (t : Fin cfg1.N) : (dat V c).after 4 t = blockAt V c 4 t := by dsimp only [dat]
/-- What point `t` writes back: the combine of the point's five blocks. -/
theorem after_out (c : Dev nD) (t : Fin cfg1.N) :
    (dat V c).after 5 t = combinedBlock (blockAt V c 0 t) (blockAt V c 1 t) (blockAt V c 2 t) (blockAt V c 3 t) (blockAt V c 4 t) := by
  dsimp only [dat]

theorem held0 (c : Dev nD) (t : Fin cfg1.N) (d) : (dat V c).before 0 t d = blockAt V c 0 t := held0_of V (dat V c) (dat_A V c 0) (after_in0 V c) t d
theorem held1 (c : Dev nD) (t : Fin cfg1.N) (d) : (dat V c).before 1 t d = blockAt V c 1 t := held1_of V (dat V c) (dat_A V c 1) (after_in1 V c) t d
theorem held2 (c : Dev nD) (t : Fin cfg1.N) (d) : (dat V c).before 2 t d = blockAt V c 2 t := held2_of V (dat V c) (dat_A V c 2) (after_in2 V c) t d
theorem held3 (c : Dev nD) (t : Fin cfg1.N) (d) : (dat V c).before 3 t d = blockAt V c 3 t := held3_of V (dat V c) (dat_A V c 3) (after_in3 V c) t d
theorem held4 (c : Dev nD) (t : Fin cfg1.N) (d) : (dat V c).before 4 t d = blockAt V c 4 t := held4_of V (dat V c) (dat_A V c 4) (after_in4 V c) t d

/-! ## The body obligation -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 2000000 in
/-- At any point the input buffers hold their blocks, so the body runs as `body_runs` says; the rest passes through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3, held4]
  rw [show (dat V c).Φ t.succ = (dat V c).Φ t.castSucc from rfl,
    show (dat V c).owesAt () t.succ = (dat V c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W1, bigSep_W1]
  exact body_at V c t

end Cert.KernelIdeal.Layer2

end
-- ==== Proof.KI.PoolCases.lean ====
/-
  Region 2 of the program — the mean pool over the graphs and the head, over 10 blocks of 10000 nodes — : what its
  three kinds of grid point share. The body zeroes its two accumulators (the per-graph feature sums, 64 by 64, and the
  per-graph node counts, 1 by 64) at the first point, adds the block's contribution at every point, and at the last
  point divides, applies the head and stores the result. So a point is the first (0), a middle one (1 to 8) or the
  last (9); the result window is idle, and not written back, except at the last. Here: the two branch conditions
  decided over the grid, where the windows are idle, the staging buffers by name, the two accumulators as buffers, and
  the region's resting invariant with the accumulators taken out of the buffers nobody stages.
-/
import proofs.«422455_j33483565040041_2_alg».proof.Proof.Gen.KernelIdeal.Launch
import proofs.«422455_j33483565040041_2_alg».proof.Proof.Gen.KernelIdeal.Skeleton
import proofs.«422455_j33483565040041_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The body's first `if`: the grid coordinate is 0. -/
abbrev isFirst (i : grid2.Coords) : Prop := (Scalar.cmpi .ne (Scalar.extui (Scalar.cmpi .eq (BitVec.ofNat 32 (i 0).val) 0#32)) 0#32) = 1#1
theorem isFirst_iff : ∀ t : Fin cfg2.N, isFirst (grid2.coords t) ↔ t.val = 0 :=
  (by decide +kernel : ∀ t : Fin grid2.N, isFirst (grid2.coords t) ↔ t.val = 0)

/-- The body's second `if`: the grid coordinate is 9. -/
abbrev isLast (i : grid2.Coords) : Prop := k2_cond2 i = 1#1
theorem isLast_iff : ∀ t : Fin cfg2.N, isLast (grid2.coords t) ↔ t.val = 9 :=
  (by decide +kernel : ∀ t : Fin grid2.N, isLast (grid2.coords t) ↔ t.val = 9)

/-! ## Where the windows are idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem live4 : ∀ t : Fin cfg2.N, cfg2.idle 4 (grid2.coords t) = false := by decide +kernel
theorem live5 : ∀ t : Fin cfg2.N, cfg2.idle 5 (grid2.coords t) = false := by decide +kernel
/-- Away from the last point the result window is idle -/
theorem result_idle : ∀ t : Fin cfg2.N, ¬isLast (grid2.coords t) → cfg2.idle 6 (grid2.coords t) = true := by decide +kernel
/-- and not written back; -/
theorem result_kept : ∀ t : Fin cfg2.N, ¬isLast (grid2.coords t) → (cfg2.win 6).flush t = false := by decide +kernel
/-- at the last point it is live. -/
theorem result_live : ∀ t : Fin cfg2.N, isLast (grid2.coords t) → cfg2.idle 6 (grid2.coords t) = false := by decide +kernel

/-! ## The buffers by name -/

abbrev buf0 (t : Fin cfg2.N) : Memref sig .tc .vmem S10000x64 .f32 := win2_0.stage (cfg2.slots t 0)
abbrev whole0 (t : Fin cfg2.N) : (buf0 t).IsWhole := hstage2_0 ((cfg2.slots t 0).cast nbuf2_0)
abbrev buf1 (t : Fin cfg2.N) : Memref sig .tc .vmem S10000x1 .i32 := win2_1.stage (cfg2.slots t 1)
abbrev whole1 (t : Fin cfg2.N) : (buf1 t).IsWhole := hstage2_1 ((cfg2.slots t 1).cast nbuf2_1)
abbrev buf2 (t : Fin cfg2.N) : Memref sig .tc .vmem S64x16 .f32 := win2_2.stage (cfg2.slots t 2)
abbrev whole2 (t : Fin cfg2.N) : (buf2 t).IsWhole := hstage2_2 ((cfg2.slots t 2).cast nbuf2_2)
abbrev buf3 (t : Fin cfg2.N) : Memref sig .tc .vmem S1x16 .f32 := win2_3.stage (cfg2.slots t 3)
abbrev whole3 (t : Fin cfg2.N) : (buf3 t).IsWhole := hstage2_3 ((cfg2.slots t 3).cast nbuf2_3)
abbrev buf4 (t : Fin cfg2.N) : Memref sig .tc .vmem S16x1 .f32 := win2_4.stage (cfg2.slots t 4)
abbrev whole4 (t : Fin cfg2.N) : (buf4 t).IsWhole := hstage2_4 ((cfg2.slots t 4).cast nbuf2_4)
abbrev buf5 (t : Fin cfg2.N) : Memref sig .tc .vmem S1x1 .f32 := win2_5.stage (cfg2.slots t 5)
abbrev whole5 (t : Fin cfg2.N) : (buf5 t).IsWhole := hstage2_5 ((cfg2.slots t 5).cast nbuf2_5)
abbrev buf6 (t : Fin cfg2.N) : Memref sig .tc .vmem S64x1 .f32 := win2_6.stage (cfg2.slots t 6)
abbrev whole6 (t : Fin cfg2.N) : (buf6 t).IsWhole := hstage2_6 ((cfg2.slots t 6).cast nbuf2_6)

/-- The accumulator of per-graph feature sums, -/
abbrev sumsBuf : Memref sig .tc .vmem S64x64 .f32 := Memref.whole cc2_scratch0
/-- the accumulator of per-graph node counts, -/
abbrev countsBuf : Memref sig .tc .vmem S1x64 .f32 := Memref.whole cc2_scratch1
/-- and the views their contents are stated through. -/
abbrev sumsView : View sig .tc .vmem S64x64 .f32 := sumsBuf.view
abbrev countsView : View sig .tc .vmem S1x64 .f32 := countsBuf.view
/-- The result window's one staging buffer, as a view. -/
abbrev resultView : View sig .tc .vmem S64x1 .f32 := (Memref.whole cc2_stg6_0 : Memref sig .tc .vmem S64x1 .f32).view

/-! ## The resting invariant, the accumulators taken out -/

/-- The buffers nobody stages, but for the two accumulators: the other calls' staging buffers, at anything. -/
abbrev others (c : Dev nD) : sProp 𝕄 :=
  Pipeline.scopedRestBut (Ix := Unit) (Name := ℕ) (U := UR sig nD τ) (Lvl := ℕ) (Val := Elt F) spec2 c [cc2_scratch0, cc2_scratch1]

/-- Between regions: both accumulators at anything, the others, the generator register at some state. -/
theorem resting_eq (c : Dev nD) :
    (Pipeline.ΦA spec2 c : sProp 𝕄)
      = iprop(((∃ d, owns (c : Thread nD τ) sumsBuf fullShare d) ∗ (∃ d, owns (c : Thread nD τ) countsBuf fullShare d) ∗ others c) ∗ (∃ r, prngReg c r)) := by
  unfold Pipeline.ΦA
  rw [Pipeline.scopedRest_split_of_list spec2 c [cc2_scratch0, cc2_scratch1] (by decide) (by decide)]
  simp only [sumsBuf, countsBuf, owns_whole, bigSepL_cons_cons, bigSepL_singleton]
  congr 1
  exact equiv_iff.mp ⟨BI.sep_assoc, BI.sep_assoc'⟩

end Cert.KernelIdeal.Pool

end
-- ==== Proof.KI.PoolFirst.lean ====
/-
  Region 2's body at the first grid point: both accumulators, found at anything, are zeroed, then the block's contribution is added; the result buffer is not touched. The lists of pieces the body's stores leave in each buffer it writes are what the run
  finds; the statement gives back the six input buffers as they were.
-/
import proofs.«422455_j33483565040041_2_alg».proof.Proof.Gen.KernelIdeal.Launch
import proofs.«422455_j33483565040041_2_alg».proof.Proof.Gen.KernelIdeal.Skeleton
import proofs.«422455_j33483565040041_2_alg».proof.Proof.Gen.KernelIdeal.Points
import proofs.«422455_j33483565040041_2_alg».proof.Proof.KI.PoolCases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runFirst (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : isFirst i) (hc2 : ¬isLast i)
    (x0 : Vec F S10000x64 .f32) (x1 : Vec F S10000x1 .i32) (x2 : Vec F S64x16 .f32) (x3 : Vec F S1x16 .f32) (x4 : Vec F S16x1 .f32) (x5 : Vec F S1x1 .f32) :
    Σ' (LS : List (View.Piece (Elt F) S64x64 .f32)), { LN : List (View.Piece (Elt F) S1x64 .f32) //
      ∀ (r : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ owns (c : Thread nD τ) arg7 fullShare r
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ owns (c : Thread nD τ) arg7 fullShare r
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LN)) -∗ K ⟨⟩))
          ⊢ wp frame (wpE (defs₀ (F := F)) Variants.none c none) E (cc2__pool_mlp_kernel i arg1 harg1 arg2 harg2 arg3 harg3 arg4 harg4 arg5 harg5 arg6 harg6 arg7 harg7 arg8 harg8 arg9 harg9) K } := by
  refine ⟨?_, ?_, fun r E K => ?run⟩
  case run =>
    simp only [cc2__pool_mlp_kernel_eq_skeleton]; unfold cc2__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, ⟨%dn, %fn, -, HN⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS]; · iexists _; iexact HS
    iexists _; iexact HN

end Cert.KernelIdeal.Pool

end
-- ==== Proof.KI.PoolMiddle.lean ====
/-
  Region 2's body at a middle grid point: the block's contribution is added to the accumulators as the point before left them; the result buffer is not touched. The lists of pieces the body's stores leave in each buffer it writes are what the run
  finds; the statement gives back the six input buffers as they were.
-/
import proofs.«422455_j33483565040041_2_alg».proof.Proof.Gen.KernelIdeal.Launch
import proofs.«422455_j33483565040041_2_alg».proof.Proof.Gen.KernelIdeal.Skeleton
import proofs.«422455_j33483565040041_2_alg».proof.Proof.Gen.KernelIdeal.Points
import proofs.«422455_j33483565040041_2_alg».proof.Proof.KI.PoolCases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runMiddle (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : ¬isFirst i) (hc2 : ¬isLast i)
    (x0 : Vec F S10000x64 .f32) (x1 : Vec F S10000x1 .i32) (x2 : Vec F S64x16 .f32) (x3 : Vec F S1x16 .f32) (x4 : Vec F S16x1 .f32) (x5 : Vec F S1x1 .f32) (s : Vec F S64x64 .f32) (n : Vec F S1x64 .f32) :
    Σ' (LS : List (View.Piece (Elt F) S64x64 .f32)), { LN : List (View.Piece (Elt F) S1x64 .f32) //
      ∀ (r : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ owns (c : Thread nD τ) arg7 fullShare r
            ∗ owns (c : Thread nD τ) arg8 fullShare s ∗ owns (c : Thread nD τ) arg9 fullShare n
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ owns (c : Thread nD τ) arg7 fullShare r
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LN)) -∗ K ⟨⟩))
          ⊢ wp frame (wpE (defs₀ (F := F)) Variants.none c none) E (cc2__pool_mlp_kernel i arg1 harg1 arg2 harg2 arg3 harg3 arg4 harg4 arg5 harg5 arg6 harg6 arg7 harg7 arg8 harg8 arg9 harg9) K } := by
  refine ⟨?_, ?_, fun r E K => ?run⟩
  case run =>
    simp only [cc2__pool_mlp_kernel_eq_skeleton]; unfold cc2__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, ⟨%fn, %hfn, HN⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs; obtain rfl := harg9.eq_unread hfn
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS]; · iexists _; iexact HS
    iexists _; iexact HN

end Cert.KernelIdeal.Pool

end
-- ==== Proof.KI.PoolLast.lean ====
/-
  Region 2's body at the last grid point: the block's contribution is added to the accumulators as the point before left them, then the sums are divided by the counts, the head applied, and the result stored. The lists of pieces the body's stores leave in each buffer it writes are what the run
  finds; the statement gives back the six input buffers as they were.
-/
import proofs.«422455_j33483565040041_2_alg».proof.Proof.Gen.KernelIdeal.Launch
import proofs.«422455_j33483565040041_2_alg».proof.Proof.Gen.KernelIdeal.Skeleton
import proofs.«422455_j33483565040041_2_alg».proof.Proof.Gen.KernelIdeal.Points
import proofs.«422455_j33483565040041_2_alg».proof.Proof.KI.PoolCases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runLast (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : ¬isFirst i) (hc2 : isLast i)
    (x0 : Vec F S10000x64 .f32) (x1 : Vec F S10000x1 .i32) (x2 : Vec F S64x16 .f32) (x3 : Vec F S1x16 .f32) (x4 : Vec F S16x1 .f32) (x5 : Vec F S1x1 .f32) (s : Vec F S64x64 .f32) (n : Vec F S1x64 .f32) :
    Σ' (LR : List (View.Piece (Elt F) S64x1 .f32)) (LS : List (View.Piece (Elt F) S64x64 .f32)), { LN : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ (∃ d, owns (c : Thread nD τ) arg7 fullShare d)
            ∗ owns (c : Thread nD τ) arg8 fullShare s ∗ owns (c : Thread nD τ) arg9 fullShare n
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LR)
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LN)) -∗ K ⟨⟩))
          ⊢ wp frame (wpE (defs₀ (F := F)) Variants.none c none) E (cc2__pool_mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__pool_mlp_kernel_eq_skeleton]; unfold cc2__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fn, %hfn, HN⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs; obtain rfl := harg9.eq_unread hfn
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS]; · iexists _; iexact HS
    iexists _; iexact HN

end Cert.KernelIdeal.Pool

end
-- ==== Proof.KI.Pool.lean ====
/-
  Region 2 of the program, at the contents `V` the region finds: what each grid point leaves in the result buffer and
  in the two accumulators (the per-graph feature sums and the per-graph node counts), point by point — the first
  point's run from accumulators at anything, every later point's from what the point before left —; the invariant
  that carries the accumulators from point to point; the pipeline's proof data and its body obligation; and that the
  invariant is the resting one before the first point and gives it back after the last. Nothing here depends on the
  float instance.
-/
import proofs.«422455_j33483565040041_2_alg».proof.Proof.Gen.KernelIdeal.Launch
import proofs.«422455_j33483565040041_2_alg».proof.Proof.Gen.KernelIdeal.Skeleton
import proofs.«422455_j33483565040041_2_alg».proof.Proof.Gen.KernelIdeal.Points
import proofs.«422455_j33483565040041_2_alg».proof.Proof.KI.PoolFirst
import proofs.«422455_j33483565040041_2_alg».proof.Proof.KI.PoolMiddle
import proofs.«422455_j33483565040041_2_alg».proof.Proof.KI.PoolLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it: windows 0 and 1 (the node table and
    the graph ids) step through 10 blocks of 10000 nodes; windows 2 to 5 (the head's weights and biases) are whole
    arrays; window 6 is the result. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem held0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg2 c) (hA : dat.A 4 = V c (Pipeline.arrRef spec2 4))
    (hafter : ∀ t, dat.after 4 t = blockAt V c 4 t) (t : Fin cfg2.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5_of {c : Dev nD} (dat : Dat τ (Elt F) Unit ℕ (UR sig nD τ) ℕ cfg2 c) (hA : dat.A 5 = V c (Pipeline.arrRef spec2 5))
    (hafter : ∀ t, dat.after 5 t = blockAt V c 5 t) (t : Fin cfg2.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## What a point leaves -/

/-- A buffer's contents after a list of stores into it, whatever it held (the stores below cover it). -/
def readSums (L : List (View.Piece (Elt F) S64x64 .f32)) : Vec F S64x64 .f32 := sumsView.read (Elt F) (sumsView.writes (Elt F) sumsView.junk L)
def readCounts (L : List (View.Piece (Elt F) S1x64 .f32)) : Vec F S1x64 .f32 := countsView.read (Elt F) (countsView.writes (Elt F) countsView.junk L)
def readResult (L : List (View.Piece (Elt F) S64x1 .f32)) : Vec F S64x1 .f32 := resultView.read (Elt F) (resultView.writes (Elt F) resultView.junk L)

/-- The body's run at a first, a middle, the last point `t`, on the point's buffers and blocks. -/
abbrev firstAt (c : Dev nD) (t : Fin cfg2.N) (h0 : t.val = 0) :=
  runFirst (F := F) c (grid2.coords t) (buf0 t) (whole0 t) (buf1 t) (whole1 t) (buf2 t) (whole2 t) (buf3 t) (whole3 t) (buf4 t) (whole4 t) (buf5 t) (whole5 t) (buf6 t) (whole6 t) sumsBuf (Memref.isWhole_whole _) countsBuf (Memref.isWhole_whole _) ((isFirst_iff t).mpr h0) (fun h => by have := (isLast_iff t).mp h; omega) (blockAt V c 0 t) (blockAt V c 1 t) (blockAt V c 2 t) (blockAt V c 3 t) (blockAt V c 4 t) (blockAt V c 5 t)
abbrev middleAt (c : Dev nD) (t : Fin cfg2.N) (h0 : t.val ≠ 0) (h9 : t.val ≠ 9) (s : Vec F S64x64 .f32) (n : Vec F S1x64 .f32) :=
  runMiddle (F := F) c (grid2.coords t) (buf0 t) (whole0 t) (buf1 t) (whole1 t) (buf2 t) (whole2 t) (buf3 t) (whole3 t) (buf4 t) (whole4 t) (buf5 t) (whole5 t) (buf6 t) (whole6 t) sumsBuf (Memref.isWhole_whole _) countsBuf (Memref.isWhole_whole _) (fun h => h0 ((isFirst_iff t).mp h)) (fun h => h9 ((isLast_iff t).mp h)) (blockAt V c 0 t) (blockAt V c 1 t) (blockAt V c 2 t) (blockAt V c 3 t) (blockAt V c 4 t) (blockAt V c 5 t) s n
abbrev lastAt (c : Dev nD) (t : Fin cfg2.N) (h9 : t.val = 9) (s : Vec F S64x64 .f32) (n : Vec F S1x64 .f32) :=
  runLast (F := F) c (grid2.coords t) (buf0 t) (whole0 t) (buf1 t) (whole1 t) (buf2 t) (whole2 t) (buf3 t) (whole3 t) (buf4 t) (whole4 t) (buf5 t) (whole5 t) (buf6 t) (whole6 t) sumsBuf (Memref.isWhole_whole _) countsBuf (Memref.isWhole_whole _) (fun h => by have := (isFirst_iff t).mp h; omega) ((isLast_iff t).mpr h9) (blockAt V c 0 t) (blockAt V c 1 t) (blockAt V c 2 t) (blockAt V c 3 t) (blockAt V c 4 t) (blockAt V c 5 t) s n

/-- THE ACCUMULATION: after the body at position `n`, the result buffer, the sums and the counts. The first point runs from
    accumulators at anything; point `n + 1` from what point `n` left; only the last point stores a result. -/
def leftAt (c : Dev nD) : (n : ℕ) → n < cfg2.N → Vec F S64x1 .f32 × Vec F S64x64 .f32 × Vec F S1x64 .f32
  | 0, hn => (readResult [], readSums (firstAt V c ⟨0, hn⟩ rfl).1, readCounts (firstAt V c ⟨0, hn⟩ rfl).2.1)
  | n + 1, hn =>
    if h9 : n + 1 = 9 then
      (readResult (lastAt V c ⟨n + 1, hn⟩ h9 (leftAt c n (Nat.lt_of_succ_lt hn)).2.1 (leftAt c n (Nat.lt_of_succ_lt hn)).2.2).1,
       readSums (lastAt V c ⟨n + 1, hn⟩ h9 (leftAt c n (Nat.lt_of_succ_lt hn)).2.1 (leftAt c n (Nat.lt_of_succ_lt hn)).2.2).2.1,
       readCounts (lastAt V c ⟨n + 1, hn⟩ h9 (leftAt c n (Nat.lt_of_succ_lt hn)).2.1 (leftAt c n (Nat.lt_of_succ_lt hn)).2.2).2.2.1)
    else
      (readResult [],
       readSums (middleAt V c ⟨n + 1, hn⟩ (Nat.succ_ne_zero n) h9 (leftAt c n (Nat.lt_of_succ_lt hn)).2.1 (leftAt c n (Nat.lt_of_succ_lt hn)).2.2).1,
       readCounts (middleAt V c ⟨n + 1, hn⟩ (Nat.succ_ne_zero n) h9 (leftAt c n (Nat.lt_of_succ_lt hn)).2.1 (leftAt c n (Nat.lt_of_succ_lt hn)).2.2).2.1)

/-- What the point before `t` left. -/
abbrev before (c : Dev nD) (t : Fin cfg2.N) := leftAt V c (t.val - 1) (Nat.lt_of_le_of_lt (Nat.sub_le _ _) t.isLt)

theorem leftAt_first (c : Dev nD) (t : Fin cfg2.N) (h0 : t.val = 0) :
    leftAt V c t.val t.isLt = (readResult [], readSums (firstAt V c t h0).1, readCounts (firstAt V c t h0).2.1) := by
  obtain ⟨n, hn⟩ := t
  cases n with
  | zero => exact rfl
  | succ n => exact absurd h0 (Nat.succ_ne_zero n)

theorem leftAt_middle (c : Dev nD) (t : Fin cfg2.N) (h0 : t.val ≠ 0) (h9 : t.val ≠ 9) :
    leftAt V c t.val t.isLt = (readResult [], readSums (middleAt V c t h0 h9 (before V c t).2.1 (before V c t).2.2).1,
      readCounts (middleAt V c t h0 h9 (before V c t).2.1 (before V c t).2.2).2.1) := by
  obtain ⟨n, hn⟩ := t
  cases n with
  | zero => exact absurd rfl h0
  | succ n => exact (dif_neg h9).trans rfl

theorem leftAt_last (c : Dev nD) (t : Fin cfg2.N) (h9 : t.val = 9) :
    leftAt V c t.val t.isLt = (readResult (lastAt V c t h9 (before V c t).2.1 (before V c t).2.2).1,
      readSums (lastAt V c t h9 (before V c t).2.1 (before V c t).2.2).2.1,
      readCounts (lastAt V c t h9 (before V c t).2.1 (before V c t).2.2).2.2.1) := by
  obtain ⟨n, hn⟩ := t
  cases n with
  | zero => exact absurd (show (0 : ℕ) = 9 from h9) (by decide)
  | succ n => exact (dif_pos h9).trans rfl

/-! ## The invariant between points -/

/-- Before position `n`: the resting invariant before the first point; afterwards the two accumulators at what the point
    before left, the other unstaged buffers at anything, the generator register at some state. -/
def carried (c : Dev nD) : (n : ℕ) → n ≤ cfg2.N → sProp 𝕄
  | 0, _ => Pipeline.ΦA spec2 c
  | n + 1, hn => iprop((owns (c : Thread nD τ) sumsBuf fullShare (leftAt V c n hn).2.1
      ∗ owns (c : Thread nD τ) countsBuf fullShare (leftAt V c n hn).2.2 ∗ others c) ∗ (∃ r, prngReg c r))

theorem carried_zero (c : Dev nD) (n : ℕ) (h : n ≤ cfg2.N) (hz : n = 0) : carried V c n h = Pipeline.ΦA spec2 c := by
  subst hz; rfl

theorem carried_succ (c : Dev nD) (n : ℕ) (hn : n < cfg2.N) :
    carried V c (n + 1) hn = iprop((owns (c : Thread nD τ) sumsBuf fullShare (leftAt V c n hn).2.1
      ∗ owns (c : Thread nD τ) countsBuf fullShare (leftAt V c n hn).2.2 ∗ others c) ∗ (∃ r, prngReg c r)) := rfl

theorem carried_pos (c : Dev nD) (n : ℕ) (h : n ≤ cfg2.N) (hz : n ≠ 0) :
    carried V c n h = iprop((owns (c : Thread nD τ) sumsBuf fullShare (leftAt V c (n - 1) (by omega)).2.1
      ∗ owns (c : Thread nD τ) countsBuf fullShare (leftAt V c (n - 1) (by omega)).2.2 ∗ others c) ∗ (∃ r, prngReg c r)) := by
  cases n with
  | zero => exact absurd rfl hz
  | succ n => rfl

/-! ## The pipeline's proof data -/

def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => (leftAt V c t.val t.isLt).1
  Φ t := carried V c t.val (Nat.le_of_lt_succ t.isLt)
  q _ := fullShare
  owed _ := 0

theorem dat_A (c : Dev nD) (w : Fin cfg2.W) : (dat V c).A w = V c (Pipeline.arrRef spec2 w) := by
  dsimp only [dat]

theorem carried_at (c : Dev nD) (t : Fin cfg2.N) : (dat V c).Φ t.castSucc = carried V c t.val (Nat.le_of_lt t.isLt) := by
  dsimp only [dat]; simp only [Fin.coe_castSucc]

theorem after_in0 (c : Dev nD) (t : Fin cfg2.N) : (dat V c).after 0 t = blockAt V c 0 t := by dsimp only [dat]
theorem after_in1 (c : Dev nD) (t : Fin cfg2.N) : (dat V c).after 1 t = blockAt V c 1 t := by dsimp only [dat]
theorem after_in2 (c : Dev nD) (t : Fin cfg2.N) : (dat V c).after 2 t = blockAt V c 2 t := by dsimp only [dat]
theorem after_in3 (c : Dev nD) (t : Fin cfg2.N) : (dat V c).after 3 t = blockAt V c 3 t := by dsimp only [dat]
theorem after_in4 (c : Dev nD) (t : Fin cfg2.N) : (dat V c).after 4 t = blockAt V c 4 t := by dsimp only [dat]
theorem after_in5 (c : Dev nD) (t : Fin cfg2.N) : (dat V c).after 5 t = blockAt V c 5 t := by dsimp only [dat]
/-- The result buffer after the body at point `t`. -/
theorem after_result (c : Dev nD) (t : Fin cfg2.N) : (dat V c).after 6 t = (leftAt V c t.val t.isLt).1 := by dsimp only [dat]

theorem held0 (c : Dev nD) (t : Fin cfg2.N) (d) : (dat V c).before 0 t d = blockAt V c 0 t := held0_of V (dat V c) (dat_A V c 0) (after_in0 V c) t d
theorem held1 (c : Dev nD) (t : Fin cfg2.N) (d) : (dat V c).before 1 t d = blockAt V c 1 t := held1_of V (dat V c) (dat_A V c 1) (after_in1 V c) t d
theorem held2 (c : Dev nD) (t : Fin cfg2.N) (d) : (dat V c).before 2 t d = blockAt V c 2 t := held2_of V (dat V c) (dat_A V c 2) (after_in2 V c) t d
theorem held3 (c : Dev nD) (t : Fin cfg2.N) (d) : (dat V c).before 3 t d = blockAt V c 3 t := held3_of V (dat V c) (dat_A V c 3) (after_in3 V c) t d
theorem held4 (c : Dev nD) (t : Fin cfg2.N) (d) : (dat V c).before 4 t d = blockAt V c 4 t := held4_of V (dat V c) (dat_A V c 4) (after_in4 V c) t d
theorem held5 (c : Dev nD) (t : Fin cfg2.N) (d) : (dat V c).before 5 t d = blockAt V c 5 t := held5_of V (dat V c) (dat_A V c 5) (after_in5 V c) t d

theorem leaves_in0 (c : Dev nD) (t : Fin cfg2.N) : (dat V c).leavesExact 0 t = owns (c : Thread nD τ) (buf0 t) fullShare (blockAt V c 0 t) := by
  unfold Dat.leavesExact; rw [live0 t, after_in0]
theorem leaves_in1 (c : Dev nD) (t : Fin cfg2.N) : (dat V c).leavesExact 1 t = owns (c : Thread nD τ) (buf1 t) fullShare (blockAt V c 1 t) := by
  unfold Dat.leavesExact; rw [live1 t, after_in1]
theorem leaves_in2 (c : Dev nD) (t : Fin cfg2.N) : (dat V c).leavesExact 2 t = owns (c : Thread nD τ) (buf2 t) fullShare (blockAt V c 2 t) := by
  unfold Dat.leavesExact; rw [live2 t, after_in2]
theorem leaves_in3 (c : Dev nD) (t : Fin cfg2.N) : (dat V c).leavesExact 3 t = owns (c : Thread nD τ) (buf3 t) fullShare (blockAt V c 3 t) := by
  unfold Dat.leavesExact; rw [live3 t, after_in3]
theorem leaves_in4 (c : Dev nD) (t : Fin cfg2.N) : (dat V c).leavesExact 4 t = owns (c : Thread nD τ) (buf4 t) fullShare (blockAt V c 4 t) := by
  unfold Dat.leavesExact; rw [live4 t, after_in4]
theorem leaves_in5 (c : Dev nD) (t : Fin cfg2.N) : (dat V c).leavesExact 5 t = owns (c : Thread nD τ) (buf5 t) fullShare (blockAt V c 5 t) := by
  unfold Dat.leavesExact; rw [live5 t, after_in5]

/-! ## The body obligation -/

def bodyPre (c : Dev nD) (t : Fin cfg2.N) : sProp 𝕄 :=
  iprop((dat V c).Φ t.castSucc ∗ (dat V c).owesAt () t.castSucc
    ∗ (∃ d, owns (c : Thread nD τ) (buf0 t) fullShare ((dat V c).before 0 t d))
    ∗ (∃ d, owns (c : Thread nD τ) (buf1 t) fullShare ((dat V c).before 1 t d))
    ∗ (∃ d, owns (c : Thread nD τ) (buf2 t) fullShare ((dat V c).before 2 t d))
    ∗ (∃ d, owns (c : Thread nD τ) (buf3 t) fullShare ((dat V c).before 3 t d))
    ∗ (∃ d, owns (c : Thread nD τ) (buf4 t) fullShare ((dat V c).before 4 t d))
    ∗ (∃ d, owns (c : Thread nD τ) (buf5 t) fullShare ((dat V c).before 5 t d))
    ∗ (∃ d, owns (c : Thread nD τ) (buf6 t) fullShare ((dat V c).before 6 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- At any point the input buffers hold their blocks; the point is the first, a middle one or the last, and the matching run
    applies: the invariant hands it the accumulators (at anything before the first point, else at what the point before left)
    and takes them back at what this point leaves; away from the last point the result buffer is handed back untouched. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [held0, held1, held2, held3, held4, held5]
  rw [show (dat V c).owesAt () t.succ = (dat V c).owesAt () t.castSucc from rfl]
  rw [show (dat V c).Φ t.succ = carried V c (t.val + 1) t.isLt from rfl, carried_succ]
  rw [leaves_in0, leaves_in1, leaves_in2, leaves_in3, leaves_in4, leaves_in5]
  have hN : t.val < 10 := lt_of_lt_of_eq t.isLt (show cfg2.N = 10 from N_2)
  by_cases h0 : t.val = 0
  · have hnl : ¬isLast (grid2.coords t) := fun h => by have := (isLast_iff t).mp h; omega
    rw [Dat.leavesExact_idle (dat V c) 6 t (result_idle t hnl) (result_kept t hnl)]
    rw [leftAt_first V c t h0]
    dsimp only
    rw [carried_at V c t, carried_zero V c _ _ h0, resting_eq]
    iintro ⟨⟨⟨HS, HN, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((firstAt V c t h0).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HN]; · iexact HN
    iintro ⟨H0, H1, H2, H3, H4, H5, H6, ⟨%es, HS⟩, ⟨%en, HN⟩⟩
    isplitl [HS HN Hoth Hg]
    · isplitl [HS HN Hoth]
      · isplitl [HS]
        · unfold owns; iexists _; isplitr
          swap; · iexact HS
          ipureintro; exact View.read_writes_of_cover _ _ _ _ _ (View.cover_of_wholeMem _ (by sl_whole_mem))
        isplitl [HN]
        · unfold owns; iexists _; isplitr
          swap; · iexact HN
          ipureintro; exact View.read_writes_of_cover _ _ _ _ _ (View.cover_of_wholeMem _ (by sl_whole_mem))
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h9 : t.val = 9
    · have hl : isLast (grid2.coords t) := (isLast_iff t).mpr h9
      rw [show (dat V c).leavesExact 6 t = owns (c : Thread nD τ) (buf6 t) fullShare ((dat V c).after 6 t) from by
        unfold Dat.leavesExact; rw [result_live t hl], after_result]
      rw [leftAt_last V c t h9]
      dsimp only
      rw [carried_at V c t, carried_pos V c _ _ h0]
      iintro ⟨⟨⟨HS, HN, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((lastAt V c t h9 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HN]; · iexact HN
      iintro ⟨H0, H1, H2, H3, H4, H5, ⟨%er, H6⟩, ⟨%es, HS⟩, ⟨%en, HN⟩⟩
      isplitl [HS HN Hoth Hg]
      · isplitl [HS HN Hoth]
        · isplitl [HS]
          · unfold owns; iexists _; isplitr
            swap; · iexact HS
            ipureintro; exact View.read_writes_of_cover _ _ _ _ _ (View.cover_of_wholeMem _ (by sl_whole_mem))
          isplitl [HN]
          · unfold owns; iexists _; isplitr
            swap; · iexact HN
            ipureintro; exact View.read_writes_of_cover _ _ _ _ _ (View.cover_of_wholeMem _ (by sl_whole_mem))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (View.cover_of_wholeMem _ (by sl_whole_mem))
    · have hnl : ¬isLast (grid2.coords t) := fun h => h9 ((isLast_iff t).mp h)
      rw [Dat.leavesExact_idle (dat V c) 6 t (result_idle t hnl) (result_kept t hnl)]
      rw [leftAt_middle V c t h0 h9]
      dsimp only
      rw [carried_at V c t, carried_pos V c _ _ h0]
      iintro ⟨⟨⟨HS, HN, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((middleAt V c t h0 h9 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HN]; · iexact HN
      iintro ⟨H0, H1, H2, H3, H4, H5, H6, ⟨%es, HS⟩, ⟨%en, HN⟩⟩
      isplitl [HS HN Hoth Hg]
      · isplitl [HS HN Hoth]
        · isplitl [HS]
          · unfold owns; iexists _; isplitr
            swap; · iexact HS
            ipureintro; exact View.read_writes_of_cover _ _ _ _ _ (View.cover_of_wholeMem _ (by sl_whole_mem))
          isplitl [HN]
          · unfold owns; iexists _; isplitr
            swap; · iexact HN
            ipureintro; exact View.read_writes_of_cover _ _ _ _ _ (View.cover_of_wholeMem _ (by sl_whole_mem))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation (c : Dev nD) : BodyObligation (dat (F := F) V c) (defs₀ (F := F)) Variants.none () Set.univ := fun t => by
  rw [bigSep_W2, bigSep_W2]
  exact body_at V c t

/-! ## Into the region and out of it -/

/-- What the launch hands the region is the invariant before the first point. -/
theorem enters (c : Dev nD) : Pipeline.ΦA spec2 c ⊢ (dat V c).Φ 0 := by
  rw [show (dat V c).Φ 0 = carried V c 0 (Nat.zero_le _) from rfl, carried_zero V c 0 _ rfl]

/-- After the last point the invariant gives the resting one back: what the accumulators hold is forgotten. -/
theorem exits (c : Dev nD) : (dat V c).Φ (Fin.last cfg2.N) ⊢ Pipeline.ΦA spec2 c := by
  rw [show (dat V c).Φ (Fin.last cfg2.N) = carried V c (Fin.last cfg2.N).val (Nat.le_of_lt_succ (Fin.last cfg2.N).isLt) from rfl,
    carried_pos V c _ _ (by rw [Fin.val_last]; have : cfg2.N = 10 := N_2; omega), resting_eq]
  iintro ⟨⟨HS, HN, Hoth⟩, Hg⟩
  isplitl [HS HN Hoth]
  · isplitl [HS]; · iexists _; iexact HS
    isplitl [HN]; · iexists _; iexact HN
    iexact Hoth
  iexact Hg

end Cert.KernelIdeal.Pool

end
-- ==== Proof.KI.Whole.lean ====
/-
  The whole program: @main is three stretches of host operations and three kernel regions. Here: what the TensorCore's
  buffers hold at each of the six boundaries, as a fold from the launch memory (a host stretch applies its operations;
  a region leaves each of its input arrays as entered and its output array at what its write-backs leave); that no
  argument array is ever written; every pipeline's proof data at its region's entry contents; each region as a segment
  over one thread state; and the run: every weakly fair execution terminates, nothing faulting, with every unscoped
  buffer at the last boundary's contents. Nothing here depends on the float instance.
-/
import proofs.«422455_j33483565040041_2_alg».proof.Proof.Gen.KernelIdeal.Launch
import proofs.«422455_j33483565040041_2_alg».proof.Proof.Gen.KernelIdeal.Skeleton
import proofs.«422455_j33483565040041_2_alg».proof.Proof.Gen.KernelIdeal.Points
import proofs.«422455_j33483565040041_2_alg».proof.Proof.Gen.KernelIdeal.Regions
import proofs.«422455_j33483565040041_2_alg».proof.Proof.KI.Layer1
import proofs.«422455_j33483565040041_2_alg».proof.Proof.KI.Layer2
import proofs.«422455_j33483565040041_2_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch: region 0's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves (an input as entered, the output its write-backs folded),
    every other buffer as entered. -/
def B2 (c : Dev nD) : Valuation τ sig (Elt F) :=
  Pipeline.withArrays spec0 c (B1 m ρ c) fun w => (Layer1.dat (E1 m ρ) c).arrAt w cfg0.N
theorem B2_arr (c : Dev nD) (w : Fin cfg0.W) :
    B2 m ρ c (Proc.devRef .tc (Pipeline.arrRef spec0 w)) = (Layer1.dat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem left0 (c : Dev nD) (w : Fin cfg0.W) : (Layer1.dat (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch: region 1's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves (an input as entered, the output its write-backs folded),
    every other buffer as entered. -/
def B4 (c : Dev nD) : Valuation τ sig (Elt F) :=
  Pipeline.withArrays spec1 c (B3 m ρ c) fun w => (Layer2.dat (E3 m ρ) c).arrAt w cfg1.N
theorem B4_arr (c : Dev nD) (w : Fin cfg1.W) :
    B4 m ρ c (Proc.devRef .tc (Pipeline.arrRef spec1 w)) = (Layer2.dat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m ρ c b
theorem left1 (c : Dev nD) (w : Fin cfg1.W) : (Layer2.dat (E3 m ρ) c).arrAt w cfg1.N = E4 m ρ c (Pipeline.arrRef spec1 w) :=
  (B4_arr m ρ c w).symm
theorem kept1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the third host stretch: region 2's entry. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves (an input as entered, the output its write-backs folded),
    every other buffer as entered. -/
def B6 (c : Dev nD) : Valuation τ sig (Elt F) :=
  Pipeline.withArrays spec2 c (B5 m ρ c) fun w => (Pool.dat (E5 m ρ) c).arrAt w cfg2.N
theorem B6_arr (c : Dev nD) (w : Fin cfg2.W) :
    B6 m ρ c (Proc.devRef .tc (Pipeline.arrRef spec2 w)) = (Pool.dat (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m ρ c b
theorem left2 (c : Dev nD) (w : Fin cfg2.W) : (Pool.dat (E5 m ρ) c).arrAt w cfg2.N = E6 m ρ c (Pipeline.arrRef spec2 w) :=
  (B6_arr m ρ c w).symm
theorem kept2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-! ## No argument array is ever written -/

/-- Region 0 changes none of the buffers but its output array `main_v18`: an input array ends as entered, a buffer it does not
    stage is not touched. -/
theorem B2_keeps (c : Dev nD) (b : Ref sig .tc) (hb : b ≠ main_v18) :
    B2 m ρ c (Proc.devRef .tc b) = B1 m ρ c (Proc.devRef .tc b) := by
  by_cases hr : ∃ w, Pipeline.arrRef spec0 w = b
  · obtain ⟨w, rfl⟩ := hr
    rw [B2_arr]
    have hw : (cfg0.win w).isOut = false := by
      revert hb; revert w; decide
    exact ((Layer1.dat (E1 m ρ) c).arrAt_in w hw _).trans (Layer1.dat_A (E1 m ρ) c w)
  · exact B2_of_ne m ρ c b fun w e => hr ⟨w, e⟩

/-- Region 1 changes none of the buffers but its output array `main_v33`: an input array ends as entered, a buffer it does not
    stage is not touched. -/
theorem B4_keeps (c : Dev nD) (b : Ref sig .tc) (hb : b ≠ main_v33) :
    B4 m ρ c (Proc.devRef .tc b) = B3 m ρ c (Proc.devRef .tc b) := by
  by_cases hr : ∃ w, Pipeline.arrRef spec1 w = b
  · obtain ⟨w, rfl⟩ := hr
    rw [B4_arr]
    have hw : (cfg1.win w).isOut = false := by
      revert hb; revert w; decide
    exact ((Layer2.dat (E3 m ρ) c).arrAt_in w hw _).trans (Layer2.dat_A (E3 m ρ) c w)
  · exact B4_of_ne m ρ c b fun w e => hr ⟨w, e⟩

/-- Region 2 changes none of the buffers but its output array `main_v37`: an input array ends as entered, a buffer it does not
    stage is not touched. -/
theorem B6_keeps (c : Dev nD) (b : Ref sig .tc) (hb : b ≠ main_v37) :
    B6 m ρ c (Proc.devRef .tc b) = B5 m ρ c (Proc.devRef .tc b) := by
  by_cases hr : ∃ w, Pipeline.arrRef spec2 w = b
  · obtain ⟨w, rfl⟩ := hr
    rw [B6_arr]
    have hw : (cfg2.win w).isOut = false := by
      revert hb; revert w; decide
    exact ((Pool.dat (E5 m ρ) c).arrAt_in w hw _).trans (Pool.dat_A (E5 m ρ) c w)
  · exact B6_of_ne m ρ c b fun w e => hr ⟨w, e⟩

theorem atEnd_main_arg0 (c : Dev nD) : B6 m ρ c (Proc.devRef .tc main_arg0) = m ((c : Thread nD τ).loc main_arg0) :=
  (B6_keeps m ρ c main_arg0 (by decide)).trans <| (StableHlo.after_of_writes_sub hostOps2 _ hostOps2_writes (by decide)).trans <|
    (B4_keeps m ρ c main_arg0 (by decide)).trans <| (StableHlo.after_of_writes_sub hostOps1 _ hostOps1_writes (by decide)).trans <|
    (B2_keeps m ρ c main_arg0 (by decide)).trans <| (StableHlo.after_of_writes_sub hostOps0 _ hostOps0_writes (by decide)).trans rfl
theorem atEnd_main_arg1 (c : Dev nD) : B6 m ρ c (Proc.devRef .tc main_arg1) = m ((c : Thread nD τ).loc main_arg1) :=
  (B6_keeps m ρ c main_arg1 (by decide)).trans <| (StableHlo.after_of_writes_sub hostOps2 _ hostOps2_writes (by decide)).trans <|
    (B4_keeps m ρ c main_arg1 (by decide)).trans <| (StableHlo.after_of_writes_sub hostOps1 _ hostOps1_writes (by decide)).trans <|
    (B2_keeps m ρ c main_arg1 (by decide)).trans <| (StableHlo.after_of_writes_sub hostOps0 _ hostOps0_writes (by decide)).trans rfl
theorem atEnd_main_arg2 (c : Dev nD) : B6 m ρ c (Proc.devRef .tc main_arg2) = m ((c : Thread nD τ).loc main_arg2) :=
  (B6_keeps m ρ c main_arg2 (by decide)).trans <| (StableHlo.after_of_writes_sub hostOps2 _ hostOps2_writes (by decide)).trans <|
    (B4_keeps m ρ c main_arg2 (by decide)).trans <| (StableHlo.after_of_writes_sub hostOps1 _ hostOps1_writes (by decide)).trans <|
    (B2_keeps m ρ c main_arg2 (by decide)).trans <| (StableHlo.after_of_writes_sub hostOps0 _ hostOps0_writes (by decide)).trans rfl
theorem atEnd_main_arg3 (c : Dev nD) : B6 m ρ c (Proc.devRef .tc main_arg3) = m ((c : Thread nD τ).loc main_arg3) :=
  (B6_keeps m ρ c main_arg3 (by decide)).trans <| (StableHlo.after_of_writes_sub hostOps2 _ hostOps2_writes (by decide)).trans <|
    (B4_keeps m ρ c main_arg3 (by decide)).trans <| (StableHlo.after_of_writes_sub hostOps1 _ hostOps1_writes (by decide)).trans <|
    (B2_keeps m ρ c main_arg3 (by decide)).trans <| (StableHlo.after_of_writes_sub hostOps0 _ hostOps0_writes (by decide)).trans rfl
theorem atEnd_main_arg4 (c : Dev nD) : B6 m ρ c (Proc.devRef .tc main_arg4) = m ((c : Thread nD τ).loc main_arg4) :=
  (B6_keeps m ρ c main_arg4 (by decide)).trans <| (StableHlo.after_of_writes_sub hostOps2 _ hostOps2_writes (by decide)).trans <|
    (B4_keeps m ρ c main_arg4 (by decide)).trans <| (StableHlo.after_of_writes_sub hostOps1 _ hostOps1_writes (by decide)).trans <|
    (B2_keeps m ρ c main_arg4 (by decide)).trans <| (StableHlo.after_of_writes_sub hostOps0 _ hostOps0_writes (by decide)).trans rfl
theorem atEnd_main_arg5 (c : Dev nD) : B6 m ρ c (Proc.devRef .tc main_arg5) = m ((c : Thread nD τ).loc main_arg5) :=
  (B6_keeps m ρ c main_arg5 (by decide)).trans <| (StableHlo.after_of_writes_sub hostOps2 _ hostOps2_writes (by decide)).trans <|
    (B4_keeps m ρ c main_arg5 (by decide)).trans <| (StableHlo.after_of_writes_sub hostOps1 _ hostOps1_writes (by decide)).trans <|
    (B2_keeps m ρ c main_arg5 (by decide)).trans <| (StableHlo.after_of_writes_sub hostOps0 _ hostOps0_writes (by decide)).trans rfl
theorem atEnd_main_arg6 (c : Dev nD) : B6 m ρ c (Proc.devRef .tc main_arg6) = m ((c : Thread nD τ).loc main_arg6) :=
  (B6_keeps m ρ c main_arg6 (by decide)).trans <| (StableHlo.after_of_writes_sub hostOps2 _ hostOps2_writes (by decide)).trans <|
    (B4_keeps m ρ c main_arg6 (by decide)).trans <| (StableHlo.after_of_writes_sub hostOps1 _ hostOps1_writes (by decide)).trans <|
    (B2_keeps m ρ c main_arg6 (by decide)).trans <| (StableHlo.after_of_writes_sub hostOps0 _ hostOps0_writes (by decide)).trans rfl
theorem atEnd_main_arg7 (c : Dev nD) : B6 m ρ c (Proc.devRef .tc main_arg7) = m ((c : Thread nD τ).loc main_arg7) :=
  (B6_keeps m ρ c main_arg7 (by decide)).trans <| (StableHlo.after_of_writes_sub hostOps2 _ hostOps2_writes (by decide)).trans <|
    (B4_keeps m ρ c main_arg7 (by decide)).trans <| (StableHlo.after_of_writes_sub hostOps1 _ hostOps1_writes (by decide)).trans <|
    (B2_keeps m ρ c main_arg7 (by decide)).trans <| (StableHlo.after_of_writes_sub hostOps0 _ hostOps0_writes (by decide)).trans rfl
theorem atEnd_main_arg8 (c : Dev nD) : B6 m ρ c (Proc.devRef .tc main_arg8) = m ((c : Thread nD τ).loc main_arg8) :=
  (B6_keeps m ρ c main_arg8 (by decide)).trans <| (StableHlo.after_of_writes_sub hostOps2 _ hostOps2_writes (by decide)).trans <|
    (B4_keeps m ρ c main_arg8 (by decide)).trans <| (StableHlo.after_of_writes_sub hostOps1 _ hostOps1_writes (by decide)).trans <|
    (B2_keeps m ρ c main_arg8 (by decide)).trans <| (StableHlo.after_of_writes_sub hostOps0 _ hostOps0_writes (by decide)).trans rfl
theorem atEnd_main_arg9 (c : Dev nD) : B6 m ρ c (Proc.devRef .tc main_arg9) = m ((c : Thread nD τ).loc main_arg9) :=
  (B6_keeps m ρ c main_arg9 (by decide)).trans <| (StableHlo.after_of_writes_sub hostOps2 _ hostOps2_writes (by decide)).trans <|
    (B4_keeps m ρ c main_arg9 (by decide)).trans <| (StableHlo.after_of_writes_sub hostOps1 _ hostOps1_writes (by decide)).trans <|
    (B2_keeps m ρ c main_arg9 (by decide)).trans <| (StableHlo.after_of_writes_sub hostOps0 _ hostOps0_writes (by decide)).trans rfl
theorem atEnd_main_arg10 (c : Dev nD) : B6 m ρ c (Proc.devRef .tc main_arg10) = m ((c : Thread nD τ).loc main_arg10) :=
  (B6_keeps m ρ c main_arg10 (by decide)).trans <| (StableHlo.after_of_writes_sub hostOps2 _ hostOps2_writes (by decide)).trans <|
    (B4_keeps m ρ c main_arg10 (by decide)).trans <| (StableHlo.after_of_writes_sub hostOps1 _ hostOps1_writes (by decide)).trans <|
    (B2_keeps m ρ c main_arg10 (by decide)).trans <| (StableHlo.after_of_writes_sub hostOps0 _ hostOps0_writes (by decide)).trans rfl
theorem atEnd_main_arg11 (c : Dev nD) : B6 m ρ c (Proc.devRef .tc main_arg11) = m ((c : Thread nD τ).loc main_arg11) :=
  (B6_keeps m ρ c main_arg11 (by decide)).trans <| (StableHlo.after_of_writes_sub hostOps2 _ hostOps2_writes (by decide)).trans <|
    (B4_keeps m ρ c main_arg11 (by decide)).trans <| (StableHlo.after_of_writes_sub hostOps1 _ hostOps1_writes (by decide)).trans <|
    (B2_keeps m ρ c main_arg11 (by decide)).trans <| (StableHlo.after_of_writes_sub hostOps0 _ hostOps0_writes (by decide)).trans rfl
theorem atEnd_main_arg12 (c : Dev nD) : B6 m ρ c (Proc.devRef .tc main_arg12) = m ((c : Thread nD τ).loc main_arg12) :=
  (B6_keeps m ρ c main_arg12 (by decide)).trans <| (StableHlo.after_of_writes_sub hostOps2 _ hostOps2_writes (by decide)).trans <|
    (B4_keeps m ρ c main_arg12 (by decide)).trans <| (StableHlo.after_of_writes_sub hostOps1 _ hostOps1_writes (by decide)).trans <|
    (B2_keeps m ρ c main_arg12 (by decide)).trans <| (StableHlo.after_of_writes_sub hostOps0 _ hostOps0_writes (by decide)).trans rfl
theorem atEnd_main_arg13 (c : Dev nD) : B6 m ρ c (Proc.devRef .tc main_arg13) = m ((c : Thread nD τ).loc main_arg13) :=
  (B6_keeps m ρ c main_arg13 (by decide)).trans <| (StableHlo.after_of_writes_sub hostOps2 _ hostOps2_writes (by decide)).trans <|
    (B4_keeps m ρ c main_arg13 (by decide)).trans <| (StableHlo.after_of_writes_sub hostOps1 _ hostOps1_writes (by decide)).trans <|
    (B2_keeps m ρ c main_arg13 (by decide)).trans <| (StableHlo.after_of_writes_sub hostOps0 _ hostOps0_writes (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Layer1.dat (E1 m ρ) c
  | ⟨1, _⟩ => fun c => Layer2.dat (E3 m ρ) c
  | ⟨2, _⟩ => fun c => Pool.dat (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev atEnd (c : Dev nD) : sProp 𝕄 := iprop(StableHlo.held (c : Thread nD τ) (Pipeline.ucRefs τ sig) (B6 m ρ c) ∗ ∃ r, prngReg c r)

/-! ## The regions as segments -/

-- a library lemma stated over the pinned configuration unifies only when unification may unfold plain definitions in a metavariable's type
set_option backward.isDefEq.respectTransparency.types false in
/-- Region 0 over the thread state "every unscoped buffer at the boundary's contents, the generator register at some state,
    nothing owed": entered at `B1`, left at `B2`. Its arrays are split out of the unscoped buffers and put back at the
    exit contents; the generator register goes into the region's invariant and comes back; the kernel has no semaphore of
    its own. -/
def seg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (E1 m ρ) c).loose
  hwaits := Pipeline.hwaits_of_owed_zero _ _ _ _ L lv 0 fun _ _ => rfl
  pre c := iprop(StableHlo.held (c : Thread nD τ) (Pipeline.ucRefs τ sig) (B1 m ρ c) ∗ riding c)
  post c := iprop(StableHlo.held (c : Thread nD τ) (Pipeline.ucRefs τ sig) (B2 m ρ c) ∗ riding c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- Region 1 over the thread state "every unscoped buffer at the boundary's contents, the generator register at some state,
    nothing owed": entered at `B3`, left at `B4`. Its arrays are split out of the unscoped buffers and put back at the
    exit contents; the generator register goes into the region's invariant and comes back; the kernel has no semaphore of
    its own. -/
def seg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (E3 m ρ) c).loose
  hwaits := Pipeline.hwaits_of_owed_zero _ _ _ _ L lv 1 fun _ _ => rfl
  pre c := iprop(StableHlo.held (c : Thread nD τ) (Pipeline.ucRefs τ sig) (B3 m ρ c) ∗ riding c)
  post c := iprop(StableHlo.held (c : Thread nD τ) (Pipeline.ucRefs τ sig) (B4 m ρ c) ∗ riding c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- Region 2 over the thread state "every unscoped buffer at the boundary's contents, the generator register at some state,
    nothing owed": entered at `B5`, left at `B6`. Its arrays are split out of the unscoped buffers and put back at the
    exit contents; the generator register goes into the region's invariant and comes back; the kernel has no semaphore of
    its own. -/
def seg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Pool.body_obligation (E5 m ρ) c).loose
  hwaits := Pipeline.hwaits_of_owed_zero _ _ _ _ L lv 2 fun _ _ => rfl
  pre c := iprop(StableHlo.held (c : Thread nD τ) (Pipeline.ucRefs τ sig) (B5 m ρ c) ∗ riding c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = (Pool.dat (E5 m ρ) c).Φ (Fin.last cfg2.N) from rfl]
    have hx := Pool.exits (E5 m ρ) c
    unfold Pipeline.ΦA at hx
    iintro H
    ihave H' := hx $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hostSeg hostOps0 hostOps0_sub hostOps0_fresh (B0 m ρ)),
    .region (seg0 m ρ),
    .host (hostSeg hostOps1 hostOps1_sub hostOps1_fresh (B2 m ρ)),
    .region (seg1 m ρ),
    .host (hostSeg hostOps2 hostOps2_sub hostOps2_fresh (B4 m ρ)),
    .region (seg2 m ρ) ]
theorem main_is_segs (c : Dev nD) : main (F := F) c = Pipeline.Seg.run (segs m ρ) := (main_chain c).trans (by chain_rfl)

set_option backward.isDefEq.respectTransparency.types false in
/-- THE RUN. From any memory with zero counters every weakly fair execution of @main terminates, nothing faulting, and in every
    final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ riding c)) (Tₙ := atEnd m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (atEnd_main_arg0 m ρ c),
    (h c _ (mem_uc main_arg1 (by decide))).trans (atEnd_main_arg1 m ρ c),
    (h c _ (mem_uc main_arg2 (by decide))).trans (atEnd_main_arg2 m ρ c),
    (h c _ (mem_uc main_arg3 (by decide))).trans (atEnd_main_arg3 m ρ c),
    (h c _ (mem_uc main_arg4 (by decide))).trans (atEnd_main_arg4 m ρ c),
    (h c _ (mem_uc main_arg5 (by decide))).trans (atEnd_main_arg5 m ρ c),
    (h c _ (mem_uc main_arg6 (by decide))).trans (atEnd_main_arg6 m ρ c),
    (h c _ (mem_uc main_arg7 (by decide))).trans (atEnd_main_arg7 m ρ c),
    (h c _ (mem_uc main_arg8 (by decide))).trans (atEnd_main_arg8 m ρ c),
    (h c _ (mem_uc main_arg9 (by decide))).trans (atEnd_main_arg9 m ρ c),
    (h c _ (mem_uc main_arg10 (by decide))).trans (atEnd_main_arg10 m ρ c),
    (h c _ (mem_uc main_arg11 (by decide))).trans (atEnd_main_arg11 m ρ c),
    (h c _ (mem_uc main_arg12 (by decide))).trans (atEnd_main_arg12 m ρ c),
    (h c _ (mem_uc main_arg13 (by decide))).trans (atEnd_main_arg13 m ρ c)⟩) (run m ρ)

end Cert.KernelIdeal.Whole

end
-- ==== Proof.Spec.lean ====
/-
  The mathematics both programs compute, on extended reals, entry by entry.

  A graph network of two GraphConv layers, a mean pool over at most 64 graphs and a two-layer head:
  * one layer's combine stage: relu of (aggregated features times W_rel) + bias + (node features times W_root);
    the kernel adds the two products first and the bias last, the reference adds the bias to the first product
    and the second product last; a sum of three extended reals does not depend on that order;
  * the pool: for graph g, the sum over the nodes whose graph id (a 32-bit word read as a signed integer) is g of
    the node's feature row, divided by the larger of the number of such nodes and one; a node whose id is
    outside 0..63 belongs to no graph;
  * the head: relu(P L1 + c1) L2 + c2.
-/
import Idealize.ShloMosaic.PureOps.Ideal

noncomputable section

namespace GraphNet

open Idealize.ShloMosaic

/-- The combine stage at node `r`, feature `j`, the two matrix products added first. -/
def combineProductsFirst {K : ℕ} (A X : Fin 100000 → Fin K → EReal) (Wr Wo : Fin K → Fin 64 → EReal) (b : Fin 64 → EReal)
    (r : Fin 100000) (j : Fin 64) : EReal :=
  max (((∑ k, A r k * Wr k j) + (∑ k, X r k * Wo k j)) + b j) 0

/-- The same stage, the bias added to the first product. -/
def combineBiasFirst {K : ℕ} (A X : Fin 100000 → Fin K → EReal) (Wr Wo : Fin K → Fin 64 → EReal) (b : Fin 64 → EReal)
    (r : Fin 100000) (j : Fin 64) : EReal :=
  max (((∑ k, A r k * Wr k j) + b j) + (∑ k, X r k * Wo k j)) 0

/-- Addition of extended reals is commutative and associative, so the two orders give one value. -/
theorem combineProductsFirst_eq {K : ℕ} (A X : Fin 100000 → Fin K → EReal) (Wr Wo : Fin K → Fin 64 → EReal) (b : Fin 64 → EReal)
    (r : Fin 100000) (j : Fin 64) :
    combineProductsFirst A X Wr Wo b r j = combineBiasFirst A X Wr Wo b r j := by
  unfold combineProductsFirst combineBiasFirst
  rw [add_right_comm]

/-- Node `r` belongs to graph `g`: its id word, read as a signed integer, is `g`. -/
def inGraph (ids : Fin 100000 → BitVec 32) (g : Fin 64) (r : Fin 100000) : Prop := (ids r).toInt = (g.val : ℤ)

instance (ids : Fin 100000 → BitVec 32) (g : Fin 64) (r : Fin 100000) : Decidable (inGraph ids g r) := by
  unfold inGraph; infer_instance

/-- Graph `g`'s feature sum, feature `j`. -/
def graphSum (h : Fin 100000 → Fin 64 → EReal) (ids : Fin 100000 → BitVec 32) (g j : Fin 64) : EReal :=
  ∑ r, if inGraph ids g r then h r j else 0

/-- The number of graph `g`'s nodes. -/
def graphCount (ids : Fin 100000 → BitVec 32) (g : Fin 64) : EReal :=
  ∑ r, if inGraph ids g r then (1 : EReal) else 0

/-- The mean pool: the sum over the larger of the count and one. -/
def pooled (h : Fin 100000 → Fin 64 → EReal) (ids : Fin 100000 → BitVec 32) (g j : Fin 64) : EReal :=
  Ideal.div (graphSum h ids g j) (max (graphCount ids g) 1)

/-- The head on a pooled table. -/
def head (P : Fin 64 → Fin 64 → EReal) (L1 : Fin 64 → Fin 16 → EReal) (c1 : Fin 16 → EReal)
    (L2 : Fin 16 → Fin 1 → EReal) (c2 : Fin 1 → EReal) (g : Fin 64) (o : Fin 1) : EReal :=
  (∑ q : Fin 16, max ((∑ k : Fin 64, P g k * L1 k q) + c1 q) 0 * L2 q o) + c2 o

end GraphNet

end
-- ==== Proof.Net.lean ====
/-
  The whole network as ONE function of the fourteen argument arrays, at the extended reals: what both programs are
  shown to compute. Layer l's hidden table is the combine (bias added to the first product: Spec.lean) of the
  aggregation of the table before it and that table itself; the result is the head of the mean pool of the second
  hidden table. The aggregation is the stretch of host operations the two programs share, kept as one opaque function.
-/
import proofs.«422455_j33483565040041_2_alg».proof.KernelIdeal
import proofs.«422455_j33483565040041_2_alg».proof.Proof.Gen.KernelIdeal
import proofs.«422455_j33483565040041_2_alg».proof.Proof.Spec
import Idealize.ShloMosaic.Lib.ValueIdx

noncomputable section

namespace GraphNet

open Idealize.ShloMosaic Idealize.ShloMosaic.ValueIdx
open Cert.KernelIdeal Cert.KernelIdeal.Gen

/-- One layer's aggregation of 32-feature rows: gather the rows at the source ids (a negative id moved up by the node count
    once, then clamped by the gather), scale edge `e`'s row by its weight, and add it into the row at its destination id
    (an id outside the table dropped by the scatter). Both programs apply these same host operations; nothing below opens them. -/
def aggr32 (h : Vec Ideal S100000x32 .f32) (ea : Vec Ideal S1600000 .f32) (ei : Vec Ideal S2x1600000 .i32) : Vec Ideal S100000x32 .f32 :=
  let src : Vec Ideal S1600000 .i32 := shapeCast S1600000 (extractStridedSlice S1x1600000 ![0, 0] ei slices_S2x1600000_S1x1600000_0_0) shapeCasts_S1x1600000_S1600000
  let dst : Vec Ideal S1600000 .i32 := shapeCast S1600000 (extractStridedSlice S1x1600000 ![1, 0] ei slices_S2x1600000_S1x1600000_1_0) shapeCasts_S1x1600000_S1600000
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (mulf (Host.gather gather_S100000x32_S1600000x1_S1600000x32_1_0_n_n_0_1_132 h
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 100000#32))) src)))
          (broadcastInDim S1600000x32 ![0, 1] bcast_S1600000x1_S1600000x32_0_1 (broadcastInDim S1600000x1 ![0] bcast_S1600000_S1600000x1_0 ea)))

/-- One layer's aggregation of 64-feature rows: gather the rows at the source ids (a negative id moved up by the node count
    once, then clamped by the gather), scale edge `e`'s row by its weight, and add it into the row at its destination id
    (an id outside the table dropped by the scatter). Both programs apply these same host operations; nothing below opens them. -/
def aggr64 (h : Vec Ideal S100000x64 .f32) (ea : Vec Ideal S1600000 .f32) (ei : Vec Ideal S2x1600000 .i32) : Vec Ideal S100000x64 .f32 :=
  let src : Vec Ideal S1600000 .i32 := shapeCast S1600000 (extractStridedSlice S1x1600000 ![0, 0] ei slices_S2x1600000_S1x1600000_0_0) shapeCasts_S1x1600000_S1600000
  let dst : Vec Ideal S1600000 .i32 := shapeCast S1600000 (extractStridedSlice S1x1600000 ![1, 0] ei slices_S2x1600000_S1x1600000_1_0) shapeCasts_S1x1600000_S1600000
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (Host.gather gather_S100000x64_S1600000x1_S1600000x64_1_0_n_n_0_1_164 h
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 100000#32))) src)))
          (broadcastInDim S1600000x64 ![0, 1] bcast_S1600000x1_S1600000x64_0_1 (broadcastInDim S1600000x1 ![0] bcast_S1600000_S1600000x1_0 ea)))

/-- A rank-2 array as a table of rows and columns. -/
abbrev tab {a b : ℕ} (v : (⟨2, ![a, b]⟩ : Shape).Idx → EReal) : Fin a → Fin b → EReal := fun r j => v (ix2 r j)
/-- A rank-1 array as a row. -/
abbrev row {a : ℕ} (v : (⟨1, ![a]⟩ : Shape).Idx → EReal) : Fin a → EReal := fun j => v (ix1 j)

section
variable (x : Vec Ideal S100000x32 .f32) (ea : Vec Ideal S1600000 .f32)
  (w1r : Vec Ideal S32x64 .f32) (b1 : Vec Ideal S64 .f32) (w1o : Vec Ideal S32x64 .f32)
  (w2r : Vec Ideal S64x64 .f32) (b2 : Vec Ideal S64 .f32) (w2o : Vec Ideal S64x64 .f32)
  (l1 : Vec Ideal S64x16 .f32) (c1 : Vec Ideal S16 .f32) (l2 : Vec Ideal S16x1 .f32) (c2 : Vec Ideal S1 .f32)
  (ei : Vec Ideal S2x1600000 .i32) (ids : Vec Ideal S100000 .i32)

/-- The first hidden table. -/
def hidden1 : Vec Ideal S100000x64 .f32 := fun i =>
  combineBiasFirst (tab (aggr32 x ea ei)) (tab x) (tab w1r) (tab w1o) (row b1) (i 0) (i 1)

/-- The second hidden table. -/
def hidden2 : Vec Ideal S100000x64 .f32 := fun i =>
  combineBiasFirst (tab (aggr64 (hidden1 x ea w1r b1 w1o ei) ea ei)) (tab (hidden1 x ea w1r b1 w1o ei)) (tab w2r) (tab w2o) (row b2) (i 0) (i 1)

/-- The result: 64 graphs, one number each. -/
def result : Vec Ideal S64x1 .f32 := fun i =>
  head (pooled (tab (hidden2 x ea w1r b1 w1o w2r b2 w2o ei)) (fun r => ids (ix1 r))) (tab l1) (row c1) (tab l2) (row c2) (i 0) (i 1)
end

end GraphNet

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.Val.CombineEntry.lean ====
/-
  THE COMBINE KERNEL'S STORED VALUE READ AT ONE ENTRY, over the extended reals.

  Each of the two combine kernels stores relu(A · W_rel + X · W_root + b): two matrix products accumulated into the zero
  matrix, their sum, the one bias row broadcast over all rows and added, and the maximum with zero. Over the extended reals
  the narrowing of the operands is the identity, so the entry at row `p` and column `j` is
  `max ((∑ₖ A[p, k] · W_rel[k, j] + ∑ₖ X[p, k] · W_root[k, j]) + b[0, j]) 0`.
-/
import proofs.«422455_j33483565040041_2_alg».proof.Proof.Gen.KernelIdeal.Skeleton
import proofs.«422455_j33483565040041_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.Val
open Idealize.ShloMosaic Idealize.ShloMosaic.ValueIdx Cert.KernelIdeal Cert.KernelIdeal.Gen

/-- The first layer's dimension numbers are those of the plain product `[5000, 32] × [32, 64] → [5000, 64]`. -/
theorem dot0_eq_plain : dot_S5000x32_S32x64_S5000x64_1_0_0_1_n_n = DotDims.plain 5000 32 64 := rfl

/-- The second layer's dimension numbers are those of the plain product `[5000, 64] × [64, 64] → [5000, 64]`. -/
theorem dot1_eq_plain : dot_S5000x64_S64x64_S5000x64_1_0_0_1_n_n = DotDims.plain 5000 64 64 := rfl

/-- The first layer's stored value at row `p`, column `j`: read the maximum, the two sums and the row broadcast at the
    entry, then each product into the zero matrix as the sum over the contraction index; the narrowing of every operand is
    the identity over the extended reals and the zero word is `0`. -/
theorem k0_pay1_entry (a x : Vec Ideal S5000x32 .f32) (wr wo : Vec Ideal S32x64 .f32) (b : Vec Ideal S1x64 .f32) (p : Fin 5000) (j : Fin 64) :
    (k0_pay1 (F := Ideal) a x wr wo b) (ix2 p j)
      = max (((∑ k : Fin 32, a (ix2 p k) * wr (ix2 k j)) + (∑ k : Fin 32, x (ix2 p k) * wo (ix2 k j))) + b (ix2 0 j)) 0 := by
  unfold k0_pay1
  rw [maximumf_apply, addf_apply, addf_apply, broadcast_apply, broadcastTo_1b_ab_apply, shapeCast_self, shapeCast_self,
    dot0_eq_plain, PlainDot.matmul_zero_apply, PlainDot.matmul_zero_apply]
  simp only [truncf_apply, Ideal.ofBits_def, Ideal.ofBits_zero_f32]

/-- The second layer's stored value at row `p`, column `j`: the same reading with contraction length 64. -/
theorem k1_pay1_entry (a x : Vec Ideal S5000x64 .f32) (wr wo : Vec Ideal S64x64 .f32) (b : Vec Ideal S1x64 .f32) (p : Fin 5000) (j : Fin 64) :
    (k1_pay1 (F := Ideal) a x wr wo b) (ix2 p j)
      = max (((∑ k : Fin 64, a (ix2 p k) * wr (ix2 k j)) + (∑ k : Fin 64, x (ix2 p k) * wo (ix2 k j))) + b (ix2 0 j)) 0 := by
  unfold k1_pay1
  rw [maximumf_apply, addf_apply, addf_apply, broadcast_apply, broadcastTo_1b_ab_apply, shapeCast_self, shapeCast_self,
    shapeCast_self, dot1_eq_plain, PlainDot.matmul_zero_apply, PlainDot.matmul_zero_apply]
  simp only [truncf_apply, Ideal.ofBits_def, Ideal.ofBits_zero_f32]

end Cert.KernelIdeal.Val
-- ==== Proof.Val.LayerArray.lean ====
/-
  FROM BLOCKS TO THE ARRAY, for the two combine regions, over the extended reals.

  Each region steps through 20 blocks of 5000 nodes. At point `t` the two feature windows hold rows `5000 t … 5000 t + 4999`
  of their arrays, the two weight matrices and the bias row are whole, and the body leaves in the output block the combine
  of those five blocks, which the pipeline writes back to rows `5000 t … 5000 t + 4999` of the output array. Row `r` of
  the output array lies in the block of point `r / 5000`, so after the 20 write-backs the output array is ONE function of the
  region's five input arrays: at row `r`, column `j`,
  `max ((∑ₖ A[r, k] · W_rel[k, j] + ∑ₖ X[r, k] · W_root[k, j]) + b[0, j]) 0`.
-/
import proofs.«422455_j33483565040041_2_alg».proof.Proof.KI.Layer1
import proofs.«422455_j33483565040041_2_alg».proof.Proof.KI.Layer2
import proofs.«422455_j33483565040041_2_alg».proof.Proof.Net
import proofs.«422455_j33483565040041_2_alg».proof.Proof.Val.CombineEntry
import Idealize.ShloMosaic.Lib.Pipeline.Value
noncomputable section
open Idealize.ShloMosaic Idealize.ShloMosaic.TcCoe Idealize.ShloMosaic.ValueIdx Idealize.SL.Sem
namespace Cert.KernelIdeal.Val
open Cert.KernelIdeal Cert.KernelIdeal.Gen
variable (V : (c : Dev nD) → (b : Ref sig .tc) → Buf (Elt Ideal) ((c : Thread nD τ).loc b))

theorem zero_offsets : (![0, 0] : Fin 2 → Nat) = fun _ => 0 := funext fun a => by fin_cases a <;> rfl

/-! ## The first layer (region 0) -/

/-- Region 0's block indices over its 20 points: the two feature windows and the output step through the row blocks, the
    two weight matrices and the bias row stay at their one block. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first layer's output array as one function of the five arrays the region reads. -/
abbrev layer1Out (c : Dev nD) : Vec Ideal S100000x64 .f32 := fun i =>
  GraphNet.combineProductsFirst (GraphNet.tab (V c main_v16)) (GraphNet.tab (V c main_arg0)) (GraphNet.tab (V c main_arg2))
    (GraphNet.tab (V c main_arg4)) (fun j => (V c main_v17 : Vec Ideal S1x64 .f32) (ix2 0 j)) (i 0) (i 1)

/-- The combine's entry at row `p`, column `j` of a block whose row `p` is row `r` of the two feature arrays and whose
    weights and bias are the arrays': the whole-array combine at row `r`, column `j`. -/
theorem block_entry0 (A X : Vec Ideal S100000x32 .f32) (Wr Wo : Vec Ideal S32x64 .f32) (B : Vec Ideal S1x64 .f32)
    (a x : Vec Ideal S5000x32 .f32) (wr wo : Vec Ideal S32x64 .f32) (b : Vec Ideal S1x64 .f32)
    (r : Fin 100000) (p : Fin 5000) (j : Fin 64)
    (ha : ∀ k : Fin 32, a (ix2 p k) = A (ix2 r k)) (hx : ∀ k : Fin 32, x (ix2 p k) = X (ix2 r k))
    (hwr : ∀ y, wr y = Wr y) (hwo : ∀ y, wo y = Wo y) (hb : ∀ y, b y = B y) :
    k0_pay1 (F := Ideal) a x wr wo b (ix2 p j)
      = GraphNet.combineProductsFirst (GraphNet.tab A) (GraphNet.tab X) (GraphNet.tab Wr) (GraphNet.tab Wo) (fun j => B (ix2 0 j)) r j := by
  rw [k0_pay1_entry]
  unfold GraphNet.combineProductsFirst
  simp only [GraphNet.tab, ha, hx, hwr, hwo, hb]

/-- The aggregated-feature window's block at point `t` is rows `5000 t … 5000 t + 4999` of its array. -/
theorem block0_0_apply (c : Dev nD) (t : Fin cfg0.N) (y : S5000x32.Idx) (k : S100000x32.Idx)
    (hk0 : (k 0).val = 5000 * t.val + (y 0).val) (hk1 : (k 1).val = (y 1).val) :
    (Layer1.blockAt V c 0 t : Vec Ideal S5000x32 .f32) y = (V c main_v16 : Vec Ideal S100000x32 .f32) k := by
  obtain ⟨e0, e1, -⟩ := index_facts0 t
  unfold Layer1.blockAt
  rw [View.read_apply]
  show V c main_v16 _ = V c main_v16 _
  refine congrArg (V c main_v16) ?_
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 32 + 1 * (y 1).val = (k 1).val; rw [e1, hk1]; omega

/-- The node-feature window's block at point `t` is rows `5000 t … 5000 t + 4999` of its array. -/
theorem block0_1_apply (c : Dev nD) (t : Fin cfg0.N) (y : S5000x32.Idx) (k : S100000x32.Idx)
    (hk0 : (k 0).val = 5000 * t.val + (y 0).val) (hk1 : (k 1).val = (y 1).val) :
    (Layer1.blockAt V c 1 t : Vec Ideal S5000x32 .f32) y = (V c main_arg0 : Vec Ideal S100000x32 .f32) k := by
  obtain ⟨-, -, e0, e1, -⟩ := index_facts0 t
  unfold Layer1.blockAt
  rw [View.read_apply]
  show V c main_arg0 _ = V c main_arg0 _
  refine congrArg (V c main_arg0) ?_
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 32 + 1 * (y 1).val = (k 1).val; rw [e1, hk1]; omega

/-- The block of `W_rel` at every point is the whole matrix. -/
theorem block0_2_apply (c : Dev nD) (t : Fin cfg0.N) (y : S32x64.Idx) :
    (Layer1.blockAt V c 2 t : Vec Ideal S32x64 .f32) y = (V c main_arg2 : Vec Ideal S32x64 .f32) y := by
  obtain ⟨-, -, -, -, e0, e1, -⟩ := index_facts0 t
  unfold Layer1.blockAt
  rw [View.read_apply]
  show V c main_arg2 _ = V c main_arg2 _
  refine congrArg (V c main_arg2) ?_
  funext a
  apply Fin.ext
  match a with
  | ⟨0, _⟩ => show win0_2.index t (0 : Fin 2) * 32 + 1 * (y 0).val = (y 0).val; rw [e0]; omega
  | ⟨1, _⟩ => show win0_2.index t (1 : Fin 2) * 64 + 1 * (y 1).val = (y 1).val; rw [e1]; omega

/-- The block of the bias row at every point is the whole row. -/
theorem block0_3_apply (c : Dev nD) (t : Fin cfg0.N) (y : S1x64.Idx) :
    (Layer1.blockAt V c 3 t : Vec Ideal S1x64 .f32) y = (V c main_v17 : Vec Ideal S1x64 .f32) y := by
  obtain ⟨-, -, -, -, -, -, e0, e1, -⟩ := index_facts0 t
  unfold Layer1.blockAt
  rw [View.read_apply]
  show V c main_v17 _ = V c main_v17 _
  refine congrArg (V c main_v17) ?_
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The block of `W_root` at every point is the whole matrix. -/
theorem block0_4_apply (c : Dev nD) (t : Fin cfg0.N) (y : S32x64.Idx) :
    (Layer1.blockAt V c 4 t : Vec Ideal S32x64 .f32) y = (V c main_arg4 : Vec Ideal S32x64 .f32) y := by
  obtain ⟨-, -, -, -, -, -, -, -, e0, e1, -⟩ := index_facts0 t
  unfold Layer1.blockAt
  rw [View.read_apply]
  show V c main_arg4 _ = V c main_arg4 _
  refine congrArg (V c main_arg4) ?_
  funext a
  apply Fin.ext
  match a with
  | ⟨0, _⟩ => show win0_4.index t (0 : Fin 2) * 32 + 1 * (y 0).val = (y 0).val; rw [e0]; omega
  | ⟨1, _⟩ => show win0_4.index t (1 : Fin 2) * 64 + 1 * (y 1).val = (y 1).val; rw [e1]; omega

/-- The combine of point `t`'s five blocks at row `p`, column `j` is the whole-array combine at row `5000 t + p`. -/
theorem point_entry0 (c : Dev nD) (t : Fin cfg0.N) (r : Fin 100000) (p : Fin 5000) (j : Fin 64) (hr : r.val = 5000 * t.val + p.val) :
    k0_pay1 (F := Ideal) (Layer1.blockAt V c 0 t) (Layer1.blockAt V c 1 t) (Layer1.blockAt V c 2 t) (Layer1.blockAt V c 4 t)
      (Layer1.blockAt V c 3 t) (ix2 p j) = layer1Out V c (ix2 r j) :=
  block_entry0 (V c main_v16) (V c main_arg0) (V c main_arg2) (V c main_arg4) (V c main_v17)
    (Layer1.blockAt V c 0 t) (Layer1.blockAt V c 1 t) (Layer1.blockAt V c 2 t) (Layer1.blockAt V c 4 t) (Layer1.blockAt V c 3 t) r p j
    (fun k => block0_0_apply V c t (ix2 p k) (ix2 r k) hr rfl) (fun k => block0_1_apply V c t (ix2 p k) (ix2 r k) hr rfl)
    (block0_2_apply V c t) (block0_4_apply V c t) (block0_3_apply V c t)

/-- What point `t` writes back is block `t` of the whole-array combine. -/
theorem flushed0_eq (c : Dev nD) (t : Fin cfg0.N) :
    (Layer1.dat V c).flushed 5 t = ((cfg0.win 5).blk t).view.read (Elt Ideal) (layer1Out V c) := by
  show (cfg0.win 5).cut (grid0.coords t) ((Layer1.dat V c).after 5 t) = _
  rw [Layer1.after_out]
  unfold Layer1.combinedBlock
  rw [View.canon_unit_zero zero_offsets]
  simp only [View.ld_unit_zero (S := S5000x32) zero_offsets, View.ld_unit_zero (S := S32x64) zero_offsets, View.ld_unit_zero (S := S1x64) zero_offsets]
  funext y
  obtain ⟨-, -, -, -, -, -, -, -, -, -, e0, e1⟩ := index_facts0 t
  have hN : grid0.N = 20 := N_0
  have ht : t.val < 20 := hN ▸ t.isLt
  have hp : (y 0).val < 5000 := (y 0).isLt
  have hj : (y 1).val < 64 := (y 1).isLt
  have hr : 5000 * t.val + (y 0).val < 100000 := by omega
  have hq : (cfg0.win 5).xinj (grid0.coords t) y = ix2 (⟨(y 0).val, hp⟩ : Fin 5000) (⟨(y 1).val, hj⟩ : Fin 64) := by
    funext a
    match a with
    | ⟨0, _⟩ => rfl
    | ⟨1, _⟩ => rfl
  have hi : ((cfg0.win 5).blk t).view.emb y = ix2 (⟨5000 * t.val + (y 0).val, hr⟩ : Fin 100000) (⟨(y 1).val, hj⟩ : Fin 64) := by
    funext a
    apply Fin.ext
    match a with
    | ⟨0, _⟩ => show win0_5.index t (0 : Fin 2) * 5000 + 1 * (y 0).val = 5000 * t.val + (y 0).val; rw [e0]; omega
    | ⟨1, _⟩ => show win0_5.index t (1 : Fin 2) * 64 + 1 * (y 1).val = (y 1).val; rw [e1]; omega
  show k0_pay1 (F := Ideal) (Layer1.blockAt V c 0 t) (Layer1.blockAt V c 1 t) (Layer1.blockAt V c 2 t) (Layer1.blockAt V c 4 t) (Layer1.blockAt V c 3 t)
      ((cfg0.win 5).xinj (grid0.coords t) y) = layer1Out V c (((cfg0.win 5).blk t).view.emb y)
  rw [hq, hi]
  exact point_entry0 V c t _ _ _ rfl

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v18).slice (win0_5.rect t)).set ↔ _
  rw [View.set_slice_whole, Rect.mem_set_unit]
  exact Iff.rfl

/-- Every index of the output array is in some point's block: row `r` is in the block of point `r / 5000`. -/
theorem cover0 (i : S100000x64.Idx) : ∃ t : Fin cfg0.N, (cfg0.win 5).flush t = true ∧ i ∈ ((cfg0.win 5).blk t).view.set := by
  have hN : grid0.N = 20 := N_0
  have hi0 : (i 0).val < 100000 := (i 0).isLt
  have hi1 : (i 1).val < 64 := (i 1).isLt
  have ht : (i 0).val / 5000 < grid0.N := by rw [hN]; omega
  obtain ⟨-, -, -, -, -, -, -, -, -, -, e0, e1⟩ := index_facts0 ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0']; omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    rw [e1]; omega

/-- THE FIRST LAYER'S OUTPUT ARRAY after all 20 write-backs: the combine of the region's five input arrays, entry by entry. -/
theorem layer1_array (c : Dev nD) :
    (Layer1.dat V c).arrAt 5 cfg0.N = (fun i : S100000x64.Idx =>
      GraphNet.combineProductsFirst (GraphNet.tab (V c main_v16)) (GraphNet.tab (V c main_arg0)) (GraphNet.tab (V c main_arg2))
        (GraphNet.tab (V c main_arg4)) (fun j => (V c main_v17 : Vec Ideal S1x64 .f32) (ix2 0 j)) (i 0) (i 1)) :=
  (Layer1.dat V c).arrAt_eq_of_cover 5 (layer1Out V c) (fun t _ => flushed0_eq V c t) cover0

/-! ## The second layer (region 1) -/

/-- Region 1's block indices over its 20 points: the two feature windows and the output step through the row blocks, the
    two weight matrices and the bias row stay at their one block. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The second layer's output array as one function of the five arrays the region reads. -/
abbrev layer2Out (c : Dev nD) : Vec Ideal S100000x64 .f32 := fun i =>
  GraphNet.combineProductsFirst (GraphNet.tab (V c main_v31)) (GraphNet.tab (V c main_v18)) (GraphNet.tab (V c main_arg5))
    (GraphNet.tab (V c main_arg7)) (fun j => (V c main_v32 : Vec Ideal S1x64 .f32) (ix2 0 j)) (i 0) (i 1)

/-- The combine's entry at row `p`, column `j` of a block whose row `p` is row `r` of the two 64-feature arrays and whose
    weights and bias are the arrays': the whole-array combine at row `r`, column `j`. -/
theorem block_entry1 (A X : Vec Ideal S100000x64 .f32) (Wr Wo : Vec Ideal S64x64 .f32) (B : Vec Ideal S1x64 .f32)
    (a x : Vec Ideal S5000x64 .f32) (wr wo : Vec Ideal S64x64 .f32) (b : Vec Ideal S1x64 .f32)
    (r : Fin 100000) (p : Fin 5000) (j : Fin 64)
    (ha : ∀ k : Fin 64, a (ix2 p k) = A (ix2 r k)) (hx : ∀ k : Fin 64, x (ix2 p k) = X (ix2 r k))
    (hwr : ∀ y, wr y = Wr y) (hwo : ∀ y, wo y = Wo y) (hb : ∀ y, b y = B y) :
    k1_pay1 (F := Ideal) a x wr wo b (ix2 p j)
      = GraphNet.combineProductsFirst (GraphNet.tab A) (GraphNet.tab X) (GraphNet.tab Wr) (GraphNet.tab Wo) (fun j => B (ix2 0 j)) r j := by
  rw [k1_pay1_entry]
  unfold GraphNet.combineProductsFirst
  simp only [GraphNet.tab, ha, hx, hwr, hwo, hb]

/-- The aggregated-feature window's block at point `t` is rows `5000 t … 5000 t + 4999` of its array. -/
theorem block1_0_apply (c : Dev nD) (t : Fin cfg1.N) (y : S5000x64.Idx) (k : S100000x64.Idx)
    (hk0 : (k 0).val = 5000 * t.val + (y 0).val) (hk1 : (k 1).val = (y 1).val) :
    (Layer2.blockAt V c 0 t : Vec Ideal S5000x64 .f32) y = (V c main_v31 : Vec Ideal S100000x64 .f32) k := by
  obtain ⟨e0, e1, -⟩ := index_facts1 t
  unfold Layer2.blockAt
  rw [View.read_apply]
  show V c main_v31 _ = V c main_v31 _
  refine congrArg (V c main_v31) ?_
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 64 + 1 * (y 1).val = (k 1).val; rw [e1, hk1]; omega

/-- The first hidden table's window: its block at point `t` is rows `5000 t … 5000 t + 4999` of that table. -/
theorem block1_1_apply (c : Dev nD) (t : Fin cfg1.N) (y : S5000x64.Idx) (k : S100000x64.Idx)
    (hk0 : (k 0).val = 5000 * t.val + (y 0).val) (hk1 : (k 1).val = (y 1).val) :
    (Layer2.blockAt V c 1 t : Vec Ideal S5000x64 .f32) y = (V c main_v18 : Vec Ideal S100000x64 .f32) k := by
  obtain ⟨-, -, e0, e1, -⟩ := index_facts1 t
  unfold Layer2.blockAt
  rw [View.read_apply]
  show V c main_v18 _ = V c main_v18 _
  refine congrArg (V c main_v18) ?_
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 64 + 1 * (y 1).val = (k 1).val; rw [e1, hk1]; omega

/-- The block of the second layer's `W_rel` at every point is the whole matrix. -/
theorem block1_2_apply (c : Dev nD) (t : Fin cfg1.N) (y : S64x64.Idx) :
    (Layer2.blockAt V c 2 t : Vec Ideal S64x64 .f32) y = (V c main_arg5 : Vec Ideal S64x64 .f32) y := by
  obtain ⟨-, -, -, -, e0, e1, -⟩ := index_facts1 t
  unfold Layer2.blockAt
  rw [View.read_apply]
  show V c main_arg5 _ = V c main_arg5 _
  refine congrArg (V c main_arg5) ?_
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The block of the second layer's bias row at every point is the whole row. -/
theorem block1_3_apply (c : Dev nD) (t : Fin cfg1.N) (y : S1x64.Idx) :
    (Layer2.blockAt V c 3 t : Vec Ideal S1x64 .f32) y = (V c main_v32 : Vec Ideal S1x64 .f32) y := by
  obtain ⟨-, -, -, -, -, -, e0, e1, -⟩ := index_facts1 t
  unfold Layer2.blockAt
  rw [View.read_apply]
  show V c main_v32 _ = V c main_v32 _
  refine congrArg (V c main_v32) ?_
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The block of the second layer's `W_root` at every point is the whole matrix. -/
theorem block1_4_apply (c : Dev nD) (t : Fin cfg1.N) (y : S64x64.Idx) :
    (Layer2.blockAt V c 4 t : Vec Ideal S64x64 .f32) y = (V c main_arg7 : Vec Ideal S64x64 .f32) y := by
  obtain ⟨-, -, -, -, -, -, -, -, e0, e1, -⟩ := index_facts1 t
  unfold Layer2.blockAt
  rw [View.read_apply]
  show V c main_arg7 _ = V c main_arg7 _
  refine congrArg (V c main_arg7) ?_
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The combine of point `t`'s five blocks at row `p`, column `j` is the whole-array combine at row `5000 t + p`. -/
theorem point_entry1 (c : Dev nD) (t : Fin cfg1.N) (r : Fin 100000) (p : Fin 5000) (j : Fin 64) (hr : r.val = 5000 * t.val + p.val) :
    k1_pay1 (F := Ideal) (Layer2.blockAt V c 0 t) (Layer2.blockAt V c 1 t) (Layer2.blockAt V c 2 t) (Layer2.blockAt V c 4 t)
      (Layer2.blockAt V c 3 t) (ix2 p j) = layer2Out V c (ix2 r j) :=
  block_entry1 (V c main_v31) (V c main_v18) (V c main_arg5) (V c main_arg7) (V c main_v32)
    (Layer2.blockAt V c 0 t) (Layer2.blockAt V c 1 t) (Layer2.blockAt V c 2 t) (Layer2.blockAt V c 4 t) (Layer2.blockAt V c 3 t) r p j
    (fun k => block1_0_apply V c t (ix2 p k) (ix2 r k) hr rfl) (fun k => block1_1_apply V c t (ix2 p k) (ix2 r k) hr rfl)
    (block1_2_apply V c t) (block1_4_apply V c t) (block1_3_apply V c t)

/-- What point `t` writes back is block `t` of the whole-array combine. -/
theorem flushed1_eq (c : Dev nD) (t : Fin cfg1.N) :
    (Layer2.dat V c).flushed 5 t = ((cfg1.win 5).blk t).view.read (Elt Ideal) (layer2Out V c) := by
  show (cfg1.win 5).cut (grid1.coords t) ((Layer2.dat V c).after 5 t) = _
  rw [Layer2.after_out]
  unfold Layer2.combinedBlock
  rw [View.canon_unit_zero zero_offsets]
  simp only [View.ld_unit_zero (S := S5000x64) zero_offsets, View.ld_unit_zero (S := S64x64) zero_offsets, View.ld_unit_zero (S := S1x64) zero_offsets]
  funext y
  obtain ⟨-, -, -, -, -, -, -, -, -, -, e0, e1⟩ := index_facts1 t
  have hN : grid1.N = 20 := N_1
  have ht : t.val < 20 := hN ▸ t.isLt
  have hp : (y 0).val < 5000 := (y 0).isLt
  have hj : (y 1).val < 64 := (y 1).isLt
  have hr : 5000 * t.val + (y 0).val < 100000 := by omega
  have hq : (cfg1.win 5).xinj (grid1.coords t) y = ix2 (⟨(y 0).val, hp⟩ : Fin 5000) (⟨(y 1).val, hj⟩ : Fin 64) := by
    funext a
    match a with
    | ⟨0, _⟩ => rfl
    | ⟨1, _⟩ => rfl
  have hi : ((cfg1.win 5).blk t).view.emb y = ix2 (⟨5000 * t.val + (y 0).val, hr⟩ : Fin 100000) (⟨(y 1).val, hj⟩ : Fin 64) := by
    funext a
    apply Fin.ext
    match a with
    | ⟨0, _⟩ => show win1_5.index t (0 : Fin 2) * 5000 + 1 * (y 0).val = 5000 * t.val + (y 0).val; rw [e0]; omega
    | ⟨1, _⟩ => show win1_5.index t (1 : Fin 2) * 64 + 1 * (y 1).val = (y 1).val; rw [e1]; omega
  show k1_pay1 (F := Ideal) (Layer2.blockAt V c 0 t) (Layer2.blockAt V c 1 t) (Layer2.blockAt V c 2 t) (Layer2.blockAt V c 4 t) (Layer2.blockAt V c 3 t)
      ((cfg1.win 5).xinj (grid1.coords t) y) = layer2Out V c (((cfg1.win 5).blk t).view.emb y)
  rw [hq, hi]
  exact point_entry1 V c t _ _ _ rfl

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v33).slice (win1_5.rect t)).set ↔ _
  rw [View.set_slice_whole, Rect.mem_set_unit]
  exact Iff.rfl

/-- Every index of the output array is in some point's block: row `r` is in the block of point `r / 5000`. -/
theorem cover1 (i : S100000x64.Idx) : ∃ t : Fin cfg1.N, (cfg1.win 5).flush t = true ∧ i ∈ ((cfg1.win 5).blk t).view.set := by
  have hN : grid1.N = 20 := N_1
  have hi0 : (i 0).val < 100000 := (i 0).isLt
  have hi1 : (i 1).val < 64 := (i 1).isLt
  have ht : (i 0).val / 5000 < grid1.N := by rw [hN]; omega
  obtain ⟨-, -, -, -, -, -, -, -, -, -, e0, e1⟩ := index_facts1 ⟨(i 0).val / 5000, ht⟩
  have e0' : win1_5.index ⟨(i 0).val / 5000, ht⟩ (0 : Fin 2) = (i 0).val / 5000 := e0
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0']; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]; omega

/-- THE SECOND LAYER'S OUTPUT ARRAY after all 20 write-backs: the combine of the region's five input arrays, entry by entry. -/
theorem layer2_array (c : Dev nD) :
    (Layer2.dat V c).arrAt 5 cfg1.N = (fun i : S100000x64.Idx =>
      GraphNet.combineProductsFirst (GraphNet.tab (V c main_v31)) (GraphNet.tab (V c main_v18)) (GraphNet.tab (V c main_arg5))
        (GraphNet.tab (V c main_arg7)) (fun j => (V c main_v32 : Vec Ideal S1x64 .f32) (ix2 0 j)) (i 0) (i 1)) :=
  (Layer2.dat V c).arrAt_eq_of_cover 5 (layer2Out V c) (fun t _ => flushed1_eq V c t) cover1

end Cert.KernelIdeal.Val

end
-- ==== Proof.Val.PoolPieces.lean ====
/-
  What the pool body's stores leave, read back as values: at each kind of grid point the accumulators end at the
  body's "add this block's contribution" payloads — of zero at the first point, of what the point before left at the
  others — and at the last point the result buffer ends at the body's "divide and apply the head" payload of the
  two accumulators just updated. Nothing here depends on the float instance.
-/
import proofs.«422455_j33483565040041_2_alg».proof.Proof.KI.Pool
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every store and load of the body is at offset (0, 0) of its buffer. -/
theorem zero_off2 : (![0, 0] : Fin 2 → ℕ) = fun _ => 0 := by funext a; fin_cases a <;> rfl

/-- First point: the sums end at the block's contribution added to zero. -/
theorem sums_first (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : isFirst i) (hc2 : ¬isLast i) (x0 : Vec F S10000x64 .f32) (x1 : Vec F S10000x1 .i32) (x2 : Vec F S64x16 .f32) (x3 : Vec F S1x16 .f32) (x4 : Vec F S16x1 .f32) (x5 : Vec F S1x1 .f32) :
    readSums (runFirst (F := F) c i arg1 harg1 arg2 harg2 arg3 harg3 arg4 harg4 arg5 harg5 arg6 harg6 arg7 harg7 arg8 harg8 arg9 harg9 hc0 hc2 x0 x1 x2 x3 x4 x5).1 = k2_pay4 x1 x0 (k2_pay1 (F := F)) := by
  unfold readSums
  rw [View.read_writes_eq_canon _ _ _ (View.cover_of_wholeMem _ (by sl_whole_mem))]
  unfold runFirst
  dsimp only
  sl_unfold_words
  rw [View.canon_cons_unit_zero (S := S64x64) zero_off2]
  simp only [View.readAt_eq_ld, harg1.read_unread, harg2.read_unread, harg3.read_unread, harg4.read_unread, harg5.read_unread, harg6.read_unread,
    harg8.read_unread, harg9.read_unread,
    View.ld_unit_zero (S := S10000x64) zero_off2, View.ld_unit_zero (S := S10000x1) zero_off2, View.ld_unit_zero (S := S64x16) zero_off2,
    View.ld_unit_zero (S := S1x16) zero_off2, View.ld_unit_zero (S := S16x1) zero_off2, View.ld_unit_zero (S := S1x1) zero_off2,
    View.ld_unit_zero (S := S64x64) zero_off2, View.ld_unit_zero (S := S1x64) zero_off2,
    View.readCov_unit_zero (S := S64x64) _ zero_off2, View.readCov_unit_zero (S := S1x64) _ zero_off2]

/-- First point: the counts end at the block's counts added to zero. -/
theorem counts_first (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : isFirst i) (hc2 : ¬isLast i) (x0 : Vec F S10000x64 .f32) (x1 : Vec F S10000x1 .i32) (x2 : Vec F S64x16 .f32) (x3 : Vec F S1x16 .f32) (x4 : Vec F S16x1 .f32) (x5 : Vec F S1x1 .f32) :
    readCounts (runFirst (F := F) c i arg1 harg1 arg2 harg2 arg3 harg3 arg4 harg4 arg5 harg5 arg6 harg6 arg7 harg7 arg8 harg8 arg9 harg9 hc0 hc2 x0 x1 x2 x3 x4 x5).2.1 = k2_pay5 x1 (k2_pay2 (F := F)) := by
  unfold readCounts
  rw [View.read_writes_eq_canon _ _ _ (View.cover_of_wholeMem _ (by sl_whole_mem))]
  unfold runFirst
  dsimp only
  sl_unfold_words
  rw [View.canon_cons_unit_zero (S := S1x64) zero_off2]
  simp only [View.readAt_eq_ld, harg1.read_unread, harg2.read_unread, harg3.read_unread, harg4.read_unread, harg5.read_unread, harg6.read_unread,
    harg8.read_unread, harg9.read_unread,
    View.ld_unit_zero (S := S10000x64) zero_off2, View.ld_unit_zero (S := S10000x1) zero_off2, View.ld_unit_zero (S := S64x16) zero_off2,
    View.ld_unit_zero (S := S1x16) zero_off2, View.ld_unit_zero (S := S16x1) zero_off2, View.ld_unit_zero (S := S1x1) zero_off2,
    View.ld_unit_zero (S := S64x64) zero_off2, View.ld_unit_zero (S := S1x64) zero_off2,
    View.readCov_unit_zero (S := S64x64) _ zero_off2, View.readCov_unit_zero (S := S1x64) _ zero_off2]

/-- A middle point: the sums end at the block's contribution added to what the point before left. -/
theorem sums_middle (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : ¬isFirst i) (hc2 : ¬isLast i) (x0 : Vec F S10000x64 .f32) (x1 : Vec F S10000x1 .i32) (x2 : Vec F S64x16 .f32) (x3 : Vec F S1x16 .f32) (x4 : Vec F S16x1 .f32) (x5 : Vec F S1x1 .f32) (s : Vec F S64x64 .f32) (n : Vec F S1x64 .f32) :
    readSums (runMiddle (F := F) c i arg1 harg1 arg2 harg2 arg3 harg3 arg4 harg4 arg5 harg5 arg6 harg6 arg7 harg7 arg8 harg8 arg9 harg9 hc0 hc2 x0 x1 x2 x3 x4 x5 s n).1 = k2_pay4 x1 x0 s := by
  unfold readSums
  rw [View.read_writes_eq_canon _ _ _ (View.cover_of_wholeMem _ (by sl_whole_mem))]
  unfold runMiddle
  dsimp only
  sl_unfold_words
  rw [View.canon_cons_unit_zero (S := S64x64) zero_off2]
  simp only [View.readAt_eq_ld, harg1.read_unread, harg2.read_unread, harg3.read_unread, harg4.read_unread, harg5.read_unread, harg6.read_unread,
    harg8.read_unread, harg9.read_unread,
    View.ld_unit_zero (S := S10000x64) zero_off2, View.ld_unit_zero (S := S10000x1) zero_off2, View.ld_unit_zero (S := S64x16) zero_off2,
    View.ld_unit_zero (S := S1x16) zero_off2, View.ld_unit_zero (S := S16x1) zero_off2, View.ld_unit_zero (S := S1x1) zero_off2,
    View.ld_unit_zero (S := S64x64) zero_off2, View.ld_unit_zero (S := S1x64) zero_off2,
    View.readCov_unit_zero (S := S64x64) _ zero_off2, View.readCov_unit_zero (S := S1x64) _ zero_off2]

/-- A middle point: likewise the counts. -/
theorem counts_middle (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : ¬isFirst i) (hc2 : ¬isLast i) (x0 : Vec F S10000x64 .f32) (x1 : Vec F S10000x1 .i32) (x2 : Vec F S64x16 .f32) (x3 : Vec F S1x16 .f32) (x4 : Vec F S16x1 .f32) (x5 : Vec F S1x1 .f32) (s : Vec F S64x64 .f32) (n : Vec F S1x64 .f32) :
    readCounts (runMiddle (F := F) c i arg1 harg1 arg2 harg2 arg3 harg3 arg4 harg4 arg5 harg5 arg6 harg6 arg7 harg7 arg8 harg8 arg9 harg9 hc0 hc2 x0 x1 x2 x3 x4 x5 s n).2.1 = k2_pay5 x1 n := by
  unfold readCounts
  rw [View.read_writes_eq_canon _ _ _ (View.cover_of_wholeMem _ (by sl_whole_mem))]
  unfold runMiddle
  dsimp only
  sl_unfold_words
  rw [View.canon_cons_unit_zero (S := S1x64) zero_off2]
  simp only [View.readAt_eq_ld, harg1.read_unread, harg2.read_unread, harg3.read_unread, harg4.read_unread, harg5.read_unread, harg6.read_unread,
    harg8.read_unread, harg9.read_unread,
    View.ld_unit_zero (S := S10000x64) zero_off2, View.ld_unit_zero (S := S10000x1) zero_off2, View.ld_unit_zero (S := S64x16) zero_off2,
    View.ld_unit_zero (S := S1x16) zero_off2, View.ld_unit_zero (S := S16x1) zero_off2, View.ld_unit_zero (S := S1x1) zero_off2,
    View.ld_unit_zero (S := S64x64) zero_off2, View.ld_unit_zero (S := S1x64) zero_off2,
    View.readCov_unit_zero (S := S64x64) _ zero_off2, View.readCov_unit_zero (S := S1x64) _ zero_off2]

/-- The last point: the sums, as at a middle point. -/
theorem sums_last (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : ¬isFirst i) (hc2 : isLast i) (x0 : Vec F S10000x64 .f32) (x1 : Vec F S10000x1 .i32) (x2 : Vec F S64x16 .f32) (x3 : Vec F S1x16 .f32) (x4 : Vec F S16x1 .f32) (x5 : Vec F S1x1 .f32) (s : Vec F S64x64 .f32) (n : Vec F S1x64 .f32) :
    readSums (runLast (F := F) c i arg1 harg1 arg2 harg2 arg3 harg3 arg4 harg4 arg5 harg5 arg6 harg6 arg7 harg7 arg8 harg8 arg9 harg9 hc0 hc2 x0 x1 x2 x3 x4 x5 s n).2.1 = k2_pay4 x1 x0 s := by
  unfold readSums
  rw [View.read_writes_eq_canon _ _ _ (View.cover_of_wholeMem _ (by sl_whole_mem))]
  unfold runLast
  dsimp only
  sl_unfold_words
  rw [View.canon_cons_unit_zero (S := S64x64) zero_off2]
  simp only [View.readAt_eq_ld, harg1.read_unread, harg2.read_unread, harg3.read_unread, harg4.read_unread, harg5.read_unread, harg6.read_unread,
    harg8.read_unread, harg9.read_unread,
    View.ld_unit_zero (S := S10000x64) zero_off2, View.ld_unit_zero (S := S10000x1) zero_off2, View.ld_unit_zero (S := S64x16) zero_off2,
    View.ld_unit_zero (S := S1x16) zero_off2, View.ld_unit_zero (S := S16x1) zero_off2, View.ld_unit_zero (S := S1x1) zero_off2,
    View.ld_unit_zero (S := S64x64) zero_off2, View.ld_unit_zero (S := S1x64) zero_off2,
    View.readCov_unit_zero (S := S64x64) _ zero_off2, View.readCov_unit_zero (S := S1x64) _ zero_off2]

/-- The last point: the counts, as at a middle point. -/
theorem counts_last (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : ¬isFirst i) (hc2 : isLast i) (x0 : Vec F S10000x64 .f32) (x1 : Vec F S10000x1 .i32) (x2 : Vec F S64x16 .f32) (x3 : Vec F S1x16 .f32) (x4 : Vec F S16x1 .f32) (x5 : Vec F S1x1 .f32) (s : Vec F S64x64 .f32) (n : Vec F S1x64 .f32) :
    readCounts (runLast (F := F) c i arg1 harg1 arg2 harg2 arg3 harg3 arg4 harg4 arg5 harg5 arg6 harg6 arg7 harg7 arg8 harg8 arg9 harg9 hc0 hc2 x0 x1 x2 x3 x4 x5 s n).2.2.1 = k2_pay5 x1 n := by
  unfold readCounts
  rw [View.read_writes_eq_canon _ _ _ (View.cover_of_wholeMem _ (by sl_whole_mem))]
  unfold runLast
  dsimp only
  sl_unfold_words
  rw [View.canon_cons_unit_zero (S := S1x64) zero_off2]
  simp only [View.readAt_eq_ld, harg1.read_unread, harg2.read_unread, harg3.read_unread, harg4.read_unread, harg5.read_unread, harg6.read_unread,
    harg8.read_unread, harg9.read_unread,
    View.ld_unit_zero (S := S10000x64) zero_off2, View.ld_unit_zero (S := S10000x1) zero_off2, View.ld_unit_zero (S := S64x16) zero_off2,
    View.ld_unit_zero (S := S1x16) zero_off2, View.ld_unit_zero (S := S16x1) zero_off2, View.ld_unit_zero (S := S1x1) zero_off2,
    View.ld_unit_zero (S := S64x64) zero_off2, View.ld_unit_zero (S := S1x64) zero_off2,
    View.readCov_unit_zero (S := S64x64) _ zero_off2, View.readCov_unit_zero (S := S1x64) _ zero_off2]

/-- The last point: the result is the head of the quotient of the two accumulators as this point leaves them. -/
theorem result_last (c : Dev nD) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S1x64 .f32) (harg9 : arg9.IsWhole)
    (hc0 : ¬isFirst i) (hc2 : isLast i) (x0 : Vec F S10000x64 .f32) (x1 : Vec F S10000x1 .i32) (x2 : Vec F S64x16 .f32) (x3 : Vec F S1x16 .f32) (x4 : Vec F S16x1 .f32) (x5 : Vec F S1x1 .f32) (s : Vec F S64x64 .f32) (n : Vec F S1x64 .f32) :
    readResult (runLast (F := F) c i arg1 harg1 arg2 harg2 arg3 harg3 arg4 harg4 arg5 harg5 arg6 harg6 arg7 harg7 arg8 harg8 arg9 harg9 hc0 hc2 x0 x1 x2 x3 x4 x5 s n).1 = k2_pay6 (k2_pay5 x1 n) (k2_pay4 x1 x0 s) x2 x4 x3 x5 := by
  unfold readResult
  rw [View.read_writes_eq_canon _ _ _ (View.cover_of_wholeMem _ (by sl_whole_mem))]
  unfold runLast
  dsimp only
  sl_unfold_words
  rw [View.canon_cons_unit_zero (S := S64x1) zero_off2]
  simp only [View.readAt_eq_ld, harg1.read_unread, harg2.read_unread, harg3.read_unread, harg4.read_unread, harg5.read_unread, harg6.read_unread,
    harg8.read_unread, harg9.read_unread,
    View.ld_unit_zero (S := S10000x64) zero_off2, View.ld_unit_zero (S := S10000x1) zero_off2, View.ld_unit_zero (S := S64x16) zero_off2,
    View.ld_unit_zero (S := S1x16) zero_off2, View.ld_unit_zero (S := S16x1) zero_off2, View.ld_unit_zero (S := S1x1) zero_off2,
    View.ld_unit_zero (S := S64x64) zero_off2, View.ld_unit_zero (S := S1x64) zero_off2,
    View.readCov_unit_zero (S := S64x64) _ zero_off2, View.readCov_unit_zero (S := S1x64) _ zero_off2]

end Cert.KernelIdeal.Pool

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.Val.PoolEntry.lean ====
/-
  The pool kernel's five stored values, each read at one entry, over the extended reals.

  The kernel keeps a table of running sums `s : [64, 64]` and a row of running counts `n : [1, 64]`. It clears both at
  its first step; at every step it builds the one-hot mask `M[p, g] = [the id word of node p is the word of g]` and adds
  `Mᵀ · h` to the sums and the column sums of `M` to the counts; at its last step it divides the sums, row by row, by
  the larger of the count and one and applies the two-layer head.

  * A 32-bit word equals the word of `g < 64` exactly when, read signed, it is the integer `g`; so a mask entry,
    widened and converted, is the extended real `1` or `0` according to that test.
  * `1 · y = y` and `0 · y = 0` for every extended real `y`, so a product with a mask entry is an if-then-else, with no
    finiteness asked of `y`.
  * The product contracting the first axis of both operands reads, at `(g, j)`, `∑ₚ L[p, g] · R[p, j]`.
-/
import proofs.«422455_j33483565040041_2_alg».proof.Proof.Gen.KernelIdeal.Skeleton
import proofs.«422455_j33483565040041_2_alg».proof.Proof.Spec
import proofs.«422455_j33483565040041_2_alg».proof.Proof.LibPlainDot
import proofs.«422455_j33483565040041_2_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.Val
open Idealize.ShloMosaic Idealize.ShloMosaic.ValueIdx Cert.KernelIdeal Cert.KernelIdeal.Gen

theorem k2_pay1_entry (g j : Fin 64) : (k2_pay1 (F := Ideal)) (ix2 g j) = 0 := by
  unfold k2_pay1
  rw [shapeCast_self]
  exact Ideal.ofBits_zero_f32

theorem k2_pay2_entry (g : Fin 64) : (k2_pay2 (F := Ideal)) (ix2 0 g) = 0 := by
  unfold k2_pay2
  rw [shapeCast_self]
  exact Ideal.ofBits_zero_f32

theorem word_eq_iff_toInt (w : BitVec 32) (g : Fin 64) : w = BitVec.ofNat 32 g.val ↔ w.toInt = (g.val : ℤ) := by
  have hg := g.isLt
  have hw := w.isLt
  rw [← BitVec.toNat_inj, BitVec.toNat_ofNat, BitVec.toInt_eq_toNat_cond]
  split <;> omega

theorem bit_toInt (b : Bool) : ((((BitVec.ofBool b).setWidth 32).toInt : ℝ) : EReal) = if b then 1 else 0 := by
  cases b <;> simp

theorem mask_entry (ids : Vec Ideal S10000x1 .i32) (p : Fin 10000) (g : Fin 64) :
    (sitofp .f32 (extui 32 (k2_pay3 (F := Ideal) ids) natLt_1_32) : FVec Ideal S10000x64 .f32) (ix2 p g)
      = if (ids (ix2 p 0)).toInt = (g.val : ℤ) then (1 : EReal) else 0 := by
  have h1 : (broadcastTo S10000x64 (shapeCast S10000x1 ids shapeCasts_S10000x1_S10000x1) broadcasts_S10000x1_S10000x64 : IVec S10000x64 32) (ix2 p g)
      = ids (ix2 p 0) := by
    rw [shapeCast_self]; exact KeepdimsColumn.broadcastTo_a1_ab_apply ids _ p g
  have h2 : iota .tc S10000x64 32 [1] iota_S10000x64_d1_w32 (ix2 p g) = BitVec.ofNat 32 g.val :=
    iota_single_apply _ _ _ _ _ _
  unfold k2_pay3
  show ((((IntOp.cmpi .eq
      ((broadcastTo S10000x64 (shapeCast S10000x1 ids shapeCasts_S10000x1_S10000x1) broadcasts_S10000x1_S10000x64 : IVec S10000x64 32) (ix2 p g))
      (iota .tc S10000x64 32 [1] iota_S10000x64_d1_w32 (ix2 p g))).setWidth 32).toInt : ℝ) : EReal) = _
  rw [h1, h2]
  show ((((BitVec.ofBool (ids (ix2 p 0) == BitVec.ofNat 32 g.val)).setWidth 32).toInt : ℝ) : EReal) = _
  rw [bit_toInt]
  simp only [beq_iff_eq, word_eq_iff_toInt]

/-- A sum of an `[a, b]` array along its first axis, from the neutral accumulator, reads at column `c` as the sum over
    the rows `d` of the array at `(d, c)`. -/
theorem colSum_ab_apply {a b : ℕ} {φ : FTy} (v : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ v acc h hφ hacc (ix1 c) = ∑ d : Fin a, v (ix2 d c) := by
  rw [Ideal.multiReduction_add_single]
  refine Finset.sum_congr rfl fun d _ => congrArg v (funext fun e => Fin.ext ?_)
  match e with
  | ⟨0, _⟩ => rfl
  | ⟨1, _⟩ => rfl

theorem k2_pay5_entry (ids : Vec Ideal S10000x1 .i32) (n : Vec Ideal S1x64 .f32) (g : Fin 64) :
    (k2_pay5 (F := Ideal) ids n) (ix2 0 g)
      = n (ix2 0 g) + ∑ p : Fin 10000, (if (ids (ix2 p 0)).toInt = (g.val : ℤ) then (1 : EReal) else 0) := by
  unfold k2_pay5
  rw [shapeCast_self]
  show n (ix2 0 g) + shapeCast S1x64 (multiReduction .add [0] S64 (sitofp .f32 (extui 32 (k2_pay3 (F := Ideal) ids) natLt_1_32) : FVec Ideal S10000x64 .f32)
      0x00000000#32 reduces_S10000x64_S64 (.inl rfl) rfl) shapeCasts_S64_S1x64 (ix2 0 g) = _
  rw [shapeCast_a_1a_apply]
  refine congrArg (n (ix2 0 g) + ·) ?_
  refine (colSum_ab_apply _ _ _ _ _ g).trans ?_
  exact Finset.sum_congr rfl fun p _ => mask_entry ids p g

/-! The product that contracts the FIRST axis of both operands (`Lᵀ · R` for `L, R : [10000, 64]`): at result index
    `(g, j)` and contraction position `p` the left operand is read at `(p, g)` and the right one at `(p, j)`. -/

/-- The left operand's row is the contraction index. -/
theorem lhsT_0 (i : S64x64.Idx) (q : dot_S10000x64_S10000x64_S64x64_0_0_1_1_n_n.contr.Idx) :
    (dot_S10000x64_S10000x64_S64x64_0_0_1_1_n_n.lhsIdx i q 0).val = (q ⟨0, Nat.one_pos⟩).val :=
  dot_S10000x64_S10000x64_S64x64_0_0_1_1_n_n.lhsIdx_val_of_single rfl i q

/-- The left operand's column is the result's row. -/
theorem lhsT_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin 2) ∈ dot_S10000x64_S10000x64_S64x64_0_0_1_1_n_n.lhsBatch from List.not_mem_nil),
    dif_pos (show (1 : Fin 2) ∈ dot_S10000x64_S10000x64_S64x64_0_0_1_1_n_n.lhsNonContracting from List.mem_singleton.mpr rfl)]
  rfl

/-- The right operand's row is the contraction index. -/
theorem rhsT_0 (i : S64x64.Idx) (q : dot_S10000x64_S10000x64_S64x64_0_0_1_1_n_n.contr.Idx) :
    (dot_S10000x64_S10000x64_S64x64_0_0_1_1_n_n.rhsIdx i q 0).val = (q ⟨0, Nat.one_pos⟩).val :=
  dot_S10000x64_S10000x64_S64x64_0_0_1_1_n_n.rhsIdx_val_of_single rfl i q

/-- The right operand's column is the result's column. -/
theorem rhsT_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin 2) ∈ dot_S10000x64_S10000x64_S64x64_0_0_1_1_n_n.rhsBatch from List.not_mem_nil),
    dif_pos (show (1 : Fin 2) ∈ dot_S10000x64_S10000x64_S64x64_0_0_1_1_n_n.rhsNonContracting from List.mem_singleton.mpr rfl)]
  rfl

/-- The product at `(g, j)`, accumulated into zero: `∑ₚ L[p, g] · R[p, j]`. -/
theorem matmulT_zero_apply {φ₁ φ₂ : FTy} (prec : Option ContractPrecision)
    (L : FVec Ideal S10000x64 φ₁) (R : FVec Ideal S10000x64 φ₂) (g j : Fin 64) :
    matmul (F := Ideal) dot_S10000x64_S10000x64_S64x64_0_0_1_1_n_n prec L R (constant S64x64 .f32 0x00000000#32) (ix2 g j)
      = ∑ p : Fin 10000, L (ix2 p g) * R (ix2 p j) := by
  show FloatOps.matmul dot_S10000x64_S10000x64_S64x64_0_0_1_1_n_n prec L R (constant S64x64 .f32 0x00000000#32) (ix2 g j) = _
  rw [Ideal.matmul_constant_zero_apply, ← Equiv.sum_comp (contrEquiv1 dot_S10000x64_S10000x64_S64x64_0_0_1_1_n_n 10000 rfl rfl).symm]
  refine Finset.sum_congr rfl fun k _ => ?_
  have hk := contrEquiv1_symm_val dot_S10000x64_S10000x64_S64x64_0_0_1_1_n_n 10000 rfl rfl k
  have el : dot_S10000x64_S10000x64_S64x64_0_0_1_1_n_n.lhsIdx (ix2 g j) ((contrEquiv1 dot_S10000x64_S10000x64_S64x64_0_0_1_1_n_n 10000 rfl rfl).symm k) = ix2 k g :=
    funext fun a => Fin.ext (by
      match a with
      | ⟨0, _⟩ => exact (lhsT_0 _ _).trans hk
      | ⟨1, _⟩ => exact lhsT_1 _ _)
  have er : dot_S10000x64_S10000x64_S64x64_0_0_1_1_n_n.rhsIdx (ix2 g j) ((contrEquiv1 dot_S10000x64_S10000x64_S64x64_0_0_1_1_n_n 10000 rfl rfl).symm k) = ix2 k j :=
    funext fun a => Fin.ext (by
      match a with
      | ⟨0, _⟩ => exact (rhsT_0 _ _).trans hk
      | ⟨1, _⟩ => exact rhsT_1 _ _)
  rw [el, er]

theorem k2_pay4_entry (ids : Vec Ideal S10000x1 .i32) (h : Vec Ideal S10000x64 .f32) (s : Vec Ideal S64x64 .f32) (g j : Fin 64) :
    (k2_pay4 (F := Ideal) ids h s) (ix2 g j)
      = s (ix2 g j) + ∑ p : Fin 10000, (if (ids (ix2 p 0)).toInt = (g.val : ℤ) then h (ix2 p j) else 0) := by
  unfold k2_pay4
  rw [shapeCast_self]
  show s (ix2 g j) + matmul (F := Ideal) dot_S10000x64_S10000x64_S64x64_0_0_1_1_n_n none
      (truncf .bf16 (sitofp .f32 (extui 32 (k2_pay3 (F := Ideal) ids) natLt_1_32) : FVec Ideal S10000x64 .f32) bitsLt_bf16_f32)
      (truncf .bf16 (shapeCast S10000x64 h shapeCasts_S10000x64_S10000x64 : FVec Ideal S10000x64 .f32) bitsLt_bf16_f32)
      (constant S64x64 .f32 0x00000000#32) (ix2 g j) = _
  refine congrArg (s (ix2 g j) + ·) ?_
  refine (matmulT_zero_apply none _ _ g j).trans ?_
  refine Finset.sum_congr rfl fun p _ => ?_
  show (sitofp .f32 (extui 32 (k2_pay3 (F := Ideal) ids) natLt_1_32) : FVec Ideal S10000x64 .f32) (ix2 p g)
      * (shapeCast S10000x64 h shapeCasts_S10000x64_S10000x64 : FVec Ideal S10000x64 .f32) (ix2 p j) = _
  rw [shapeCast_self, mask_entry, ite_mul, one_mul, zero_mul]

/-- The word of `1.0` is the extended real `1`. -/
theorem ofBits_one_f32 : Ideal.ofBits .f32 0x3F800000#32 = 1 := IdealRules.sign_bit.ideal_onePat .f32

/-- The head's first product, `[64, 64] × [64, 16]` into zero, at `(g, q)`. -/
theorem matmul1_apply (L : FVec Ideal S64x64 .bf16) (R : FVec Ideal S64x16 .bf16) (g : Fin 64) (q : Fin 16) :
    matmul (F := Ideal) dot_S64x64_S64x16_S64x16_1_0_0_1_n_n none L R (constant S64x16 .f32 0x00000000#32) (ix2 g q)
      = ∑ k : Fin 64, L (ix2 g k) * R (ix2 k q) :=
  PlainDot.matmul_zero_apply 64 64 16 none L R g q

/-- The head's second product, `[64, 16] × [16, 1]` into zero, at `(g, o)`. -/
theorem matmul2_apply (L : FVec Ideal S64x16 .bf16) (R : FVec Ideal S16x1 .bf16) (g : Fin 64) (o : Fin 1) :
    matmul (F := Ideal) dot_S64x16_S16x1_S64x1_1_0_0_1_n_n none L R (constant S64x1 .f32 0x00000000#32) (ix2 g o)
      = ∑ q : Fin 16, L (ix2 g q) * R (ix2 q o) :=
  PlainDot.matmul_zero_apply 64 16 1 none L R g o

theorem k2_pay6_entry (n : Vec Ideal S1x64 .f32) (s : Vec Ideal S64x64 .f32) (l1 : Vec Ideal S64x16 .f32) (l2 : Vec Ideal S16x1 .f32)
    (c1 : Vec Ideal S1x16 .f32) (c2 : Vec Ideal S1x1 .f32) (g : Fin 64) (o : Fin 1) :
    (k2_pay6 (F := Ideal) n s l1 l2 c1 c2) (ix2 g o)
      = GraphNet.head (fun g k => Ideal.div (s (ix2 g k)) (max (n (ix2 0 g)) 1)) (fun k q => l1 (ix2 k q)) (fun q => c1 (ix2 0 q))
          (fun q o => l2 (ix2 q o)) (fun o => c2 (ix2 0 o)) g o := by
  have hz : (FloatOps.ofBits .f32 0x00000000#32 : Ideal .f32) = 0 := Ideal.ofBits_zero_f32
  have hone : (FloatOps.ofBits .f32 0x3F800000#32 : Ideal .f32) = 1 := ofBits_one_f32
  unfold k2_pay6 GraphNet.head
  simp only [shapeCast_self, addf_apply, broadcastTo_1b_ab_apply]
  refine congrArg (· + c2 (ix2 0 o)) ?_
  refine (matmul2_apply _ _ g o).trans ?_
  refine Finset.sum_congr rfl fun q _ => ?_
  simp only [truncf_apply, maximumf_apply, addf_apply, broadcast_apply, broadcastTo_1b_ab_apply]
  rw [matmul1_apply, hz]
  refine congrArg (fun x => max (x + c1 (ix2 0 q)) 0 * l2 (ix2 q o)) ?_
  refine Finset.sum_congr rfl fun k _ => ?_
  simp only [truncf_apply, divf_apply, KeepdimsColumn.broadcastTo_a1_ab_apply, maximumf_apply, broadcast_apply]
  rw [hone, transpose_ix2_apply]

end Cert.KernelIdeal.Val
end
-- ==== Proof.Val.PoolSums.lean ====
/-
  The pool region's ten grid points, by induction: after the last point the two accumulators hold the whole per-graph
  feature sums and node counts.

  Point t's two stepping blocks are rows 10000 t … 10000 t + 9999 of the node table and of the graph ids. Every point
  adds its block's contribution to what the point before left (the first point to the cleared accumulators), so after
  point n the accumulators hold the contributions of the first 10000 (n + 1) nodes; after point 9 that is every node.
  Only 0 + x = x and the splitting of a sum over an initial segment of the naturals are used: nothing is asked to be finite.
-/
import proofs.«422455_j33483565040041_2_alg».proof.Proof.Val.PoolPieces
import proofs.«422455_j33483565040041_2_alg».proof.Proof.Val.PoolEntry
import proofs.«422455_j33483565040041_2_alg».proof.Proof.Net
import Idealize.ShloMosaic.Lib.Pipeline.Value
noncomputable section
open Idealize.ShloMosaic Idealize.ShloMosaic.TcCoe Idealize.ShloMosaic.ValueIdx Idealize.SL.Sem
namespace Cert.KernelIdeal.Val
open Cert.KernelIdeal Cert.KernelIdeal.Gen
variable (V : (c : Dev nD) → (b : Ref sig .tc) → Buf (Elt Ideal) ((c : Thread nD τ).loc b))

theorem nine_lt : 9 < cfg2.N := lt_of_lt_of_eq (by decide) N_2.symm
/-- the node table and the graph ids the pool region finds -/
abbrev nodes (c : Dev nD) : Fin 100000 → Fin 64 → EReal := GraphNet.tab (V c main_v33)
abbrev graphIds (c : Dev nD) : Fin 100000 → BitVec 32 := fun r => (V c main_v36 : Vec Ideal S100000x1 .i32) (ix2 r 0)

/-! ## Where a block's entries sit in the arrays -/

/-- The two stepping windows' block index at a point: the point's number on the row axis, zero on the column axis. -/
theorem step_index : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem nodeBlock_apply (c : Dev nD) (t : Fin cfg2.N) (p : Fin 10000) (j : Fin 64) (h : 10000 * t.val + p.val < 100000) :
    (Pool.blockAt V c 0 t : Vec Ideal S10000x64 .f32) (ix2 p j) = (V c main_v33 : Vec Ideal S100000x64 .f32) (ix2 ⟨10000 * t.val + p.val, h⟩ j) := by
  show V c main_v33 (((cfg2.win 0).blk t).view.emb (ix2 p j)) = _
  refine congrArg (V c main_v33) (funext fun a => Fin.ext ?_)
  obtain ⟨e0, e1, e2, e3⟩ := step_index t
  match a with
  | ⟨0, _⟩ => show win2_0.index t (0 : Fin 2) * 10000 + 1 * p.val = 10000 * t.val + p.val; omega
  | ⟨1, _⟩ => show win2_0.index t (1 : Fin 2) * 64 + 1 * j.val = j.val; omega

theorem idBlock_apply (c : Dev nD) (t : Fin cfg2.N) (p : Fin 10000) (h : 10000 * t.val + p.val < 100000) :
    (Pool.blockAt V c 1 t : Vec Ideal S10000x1 .i32) (ix2 p 0) = (V c main_v36 : Vec Ideal S100000x1 .i32) (ix2 ⟨10000 * t.val + p.val, h⟩ 0) := by
  show V c main_v36 (((cfg2.win 1).blk t).view.emb (ix2 p 0)) = _
  refine congrArg (V c main_v36) (funext fun a => Fin.ext ?_)
  obtain ⟨e0, e1, e2, e3⟩ := step_index t
  match a with
  | ⟨0, _⟩ => show win2_1.index t (0 : Fin 2) * 10000 + 1 * p.val = 10000 * t.val + p.val; omega
  | ⟨1, _⟩ => show win2_1.index t (1 : Fin 2) * 1 + 1 * (0 : Fin 1).val = (0 : Fin 1).val; omega

/-! ## One point's step -/

/-- The first point leaves the sums at its block's contribution added to the cleared table. -/
theorem sums_zero (c : Dev nD) (h0 : 0 < cfg2.N) :
    ((Pool.leftAt V c 0 h0).2.1 : Vec Ideal S64x64 .f32)
      = k2_pay4 (F := Ideal) (Pool.blockAt V c 1 ⟨0, h0⟩) (Pool.blockAt V c 0 ⟨0, h0⟩) (k2_pay1 (F := Ideal)) := by
  show Pool.readSums (Pool.firstAt V c ⟨0, h0⟩ rfl).1 = _
  exact Pool.sums_first (F := Ideal) ..

/-- Every later point, a middle one or the last, leaves the sums at its block's contribution added to what the point before left. -/
theorem sums_succ (c : Dev nD) (n : ℕ) (hn : n + 1 < cfg2.N) :
    ((Pool.leftAt V c (n + 1) hn).2.1 : Vec Ideal S64x64 .f32)
      = k2_pay4 (F := Ideal) (Pool.blockAt V c 1 ⟨n + 1, hn⟩) (Pool.blockAt V c 0 ⟨n + 1, hn⟩) (Pool.leftAt V c n (Nat.lt_of_succ_lt hn)).2.1 := by
  by_cases h9 : n + 1 = 9
  · refine (congrArg (fun x => x.2.1) (Pool.leftAt_last (F := Ideal) V c ⟨n + 1, hn⟩ h9)).trans ?_
    show Pool.readSums (Pool.lastAt V c ⟨n + 1, hn⟩ h9 (Pool.leftAt V c n (Nat.lt_of_succ_lt hn)).2.1 (Pool.leftAt V c n (Nat.lt_of_succ_lt hn)).2.2).2.1 = _
    exact Pool.sums_last (F := Ideal) ..
  · refine (congrArg (fun x => x.2.1) (Pool.leftAt_middle (F := Ideal) V c ⟨n + 1, hn⟩ (Nat.succ_ne_zero n) h9)).trans ?_
    show Pool.readSums (Pool.middleAt V c ⟨n + 1, hn⟩ (Nat.succ_ne_zero n) h9 (Pool.leftAt V c n (Nat.lt_of_succ_lt hn)).2.1 (Pool.leftAt V c n (Nat.lt_of_succ_lt hn)).2.2).1 = _
    exact Pool.sums_middle (F := Ideal) ..

theorem counts_zero (c : Dev nD) (h0 : 0 < cfg2.N) :
    ((Pool.leftAt V c 0 h0).2.2 : Vec Ideal S1x64 .f32)
      = k2_pay5 (F := Ideal) (Pool.blockAt V c 1 ⟨0, h0⟩) (k2_pay2 (F := Ideal)) := by
  show Pool.readCounts (Pool.firstAt V c ⟨0, h0⟩ rfl).2.1 = _
  exact Pool.counts_first (F := Ideal) ..

theorem counts_succ (c : Dev nD) (n : ℕ) (hn : n + 1 < cfg2.N) :
    ((Pool.leftAt V c (n + 1) hn).2.2 : Vec Ideal S1x64 .f32)
      = k2_pay5 (F := Ideal) (Pool.blockAt V c 1 ⟨n + 1, hn⟩) (Pool.leftAt V c n (Nat.lt_of_succ_lt hn)).2.2 := by
  by_cases h9 : n + 1 = 9
  · refine (congrArg (fun x => x.2.2) (Pool.leftAt_last (F := Ideal) V c ⟨n + 1, hn⟩ h9)).trans ?_
    show Pool.readCounts (Pool.lastAt V c ⟨n + 1, hn⟩ h9 (Pool.leftAt V c n (Nat.lt_of_succ_lt hn)).2.1 (Pool.leftAt V c n (Nat.lt_of_succ_lt hn)).2.2).2.2.1 = _
    exact Pool.counts_last (F := Ideal) ..
  · refine (congrArg (fun x => x.2.2) (Pool.leftAt_middle (F := Ideal) V c ⟨n + 1, hn⟩ (Nat.succ_ne_zero n) h9)).trans ?_
    show Pool.readCounts (Pool.middleAt V c ⟨n + 1, hn⟩ (Nat.succ_ne_zero n) h9 (Pool.leftAt V c n (Nat.lt_of_succ_lt hn)).2.1 (Pool.leftAt V c n (Nat.lt_of_succ_lt hn)).2.2).2.1 = _
    exact Pool.counts_middle (F := Ideal) ..

/-! ## The sums over the nodes seen so far -/

/-- Node number `k`'s contribution to graph `g`'s sum of feature `j`: its feature if it belongs to the graph, else zero; zero beyond the table. -/
def nodeTerm (c : Dev nD) (g j : Fin 64) (k : ℕ) : EReal :=
  if h : k < 100000 then (if GraphNet.inGraph (graphIds V c) g ⟨k, h⟩ then nodes V c ⟨k, h⟩ j else 0) else 0

/-- Node number `k`'s contribution to graph `g`'s count. -/
def nodeOne (c : Dev nD) (g : Fin 64) (k : ℕ) : EReal :=
  if h : k < 100000 then (if GraphNet.inGraph (graphIds V c) g ⟨k, h⟩ then (1 : EReal) else 0) else 0

/-- Point `t`'s block holds the nodes `10000 t, …, 10000 t + 9999`: its contribution to the sums is theirs. -/
theorem blockSum_eq (c : Dev nD) (t : Fin cfg2.N) (g j : Fin 64) (ids : Vec Ideal S10000x1 .i32) (x : Vec Ideal S10000x64 .f32)
    (hids : ids = Pool.blockAt V c 1 t) (hx : x = Pool.blockAt V c 0 t) :
    (∑ p : Fin 10000, (if (ids (ix2 p 0)).toInt = (g.val : ℤ) then x (ix2 p j) else 0))
      = ∑ p ∈ Finset.range 10000, nodeTerm V c g j (10000 * t.val + p) := by
  subst hids hx
  rw [Finset.sum_range]
  refine Finset.sum_congr rfl fun p _ => ?_
  have ht : t.val < 10 := lt_of_lt_of_eq t.isLt N_2
  have h : 10000 * t.val + p.val < 100000 := by have := p.isLt; omega
  rw [nodeBlock_apply V c t p j h, idBlock_apply V c t p h]
  unfold nodeTerm
  rw [dif_pos h]
  by_cases hg : ((V c main_v36 : Vec Ideal S100000x1 .i32) (ix2 ⟨10000 * t.val + p.val, h⟩ 0)).toInt = (g.val : ℤ)
  · rw [if_pos hg, if_pos (show GraphNet.inGraph (graphIds V c) g ⟨10000 * t.val + p.val, h⟩ from hg)]
  · rw [if_neg hg, if_neg (show ¬GraphNet.inGraph (graphIds V c) g ⟨10000 * t.val + p.val, h⟩ from hg)]

theorem blockCount_eq (c : Dev nD) (t : Fin cfg2.N) (g : Fin 64) (ids : Vec Ideal S10000x1 .i32) (hids : ids = Pool.blockAt V c 1 t) :
    (∑ p : Fin 10000, (if (ids (ix2 p 0)).toInt = (g.val : ℤ) then (1 : EReal) else 0))
      = ∑ p ∈ Finset.range 10000, nodeOne V c g (10000 * t.val + p) := by
  subst hids
  rw [Finset.sum_range]
  refine Finset.sum_congr rfl fun p _ => ?_
  have ht : t.val < 10 := lt_of_lt_of_eq t.isLt N_2
  have h : 10000 * t.val + p.val < 100000 := by have := p.isLt; omega
  rw [idBlock_apply V c t p h]
  unfold nodeOne
  rw [dif_pos h]
  by_cases hg : ((V c main_v36 : Vec Ideal S100000x1 .i32) (ix2 ⟨10000 * t.val + p.val, h⟩ 0)).toInt = (g.val : ℤ)
  · rw [if_pos hg, if_pos (show GraphNet.inGraph (graphIds V c) g ⟨10000 * t.val + p.val, h⟩ from hg)]
  · rw [if_neg hg, if_neg (show ¬GraphNet.inGraph (graphIds V c) g ⟨10000 * t.val + p.val, h⟩ from hg)]

/-- After point `n` the sums hold the contributions of the first `10000 (n + 1)` nodes. -/
theorem sums_upto (c : Dev nD) (g j : Fin 64) : ∀ (n : ℕ) (hn : n < cfg2.N),
    ((Pool.leftAt V c n hn).2.1 : Vec Ideal S64x64 .f32) (ix2 g j) = ∑ k ∈ Finset.range (10000 * (n + 1)), nodeTerm V c g j k
  | 0, hn => by
    rw [sums_zero V c hn]
    refine (k2_pay4_entry _ _ _ g j).trans ?_
    rw [k2_pay1_entry, zero_add]
    refine (blockSum_eq V c ⟨0, hn⟩ g j _ _ rfl rfl).trans ?_
    refine Finset.sum_congr rfl fun p _ => ?_
    show nodeTerm V c g j (10000 * 0 + p) = _
    rw [Nat.mul_zero, Nat.zero_add]
  | n + 1, hn => by
    rw [sums_succ V c n hn]
    refine (k2_pay4_entry _ _ _ g j).trans ?_
    rw [sums_upto c g j n (Nat.lt_of_succ_lt hn)]
    rw [show 10000 * (n + 1 + 1) = 10000 * (n + 1) + 10000 from by omega, Finset.sum_range_add]
    exact congrArg (_ + ·) (blockSum_eq V c ⟨n + 1, hn⟩ g j _ _ rfl rfl)

/-- After point `n` the counts hold the first `10000 (n + 1)` nodes'. -/
theorem counts_upto (c : Dev nD) (g : Fin 64) : ∀ (n : ℕ) (hn : n < cfg2.N),
    ((Pool.leftAt V c n hn).2.2 : Vec Ideal S1x64 .f32) (ix2 0 g) = ∑ k ∈ Finset.range (10000 * (n + 1)), nodeOne V c g k
  | 0, hn => by
    rw [counts_zero V c hn]
    refine (k2_pay5_entry _ _ g).trans ?_
    rw [k2_pay2_entry, zero_add]
    refine (blockCount_eq V c ⟨0, hn⟩ g _ rfl).trans ?_
    refine Finset.sum_congr rfl fun p _ => ?_
    show nodeOne V c g (10000 * 0 + p) = _
    rw [Nat.mul_zero, Nat.zero_add]
  | n + 1, hn => by
    rw [counts_succ V c n hn]
    refine (k2_pay5_entry _ _ g).trans ?_
    rw [counts_upto c g n (Nat.lt_of_succ_lt hn)]
    rw [show 10000 * (n + 1 + 1) = 10000 * (n + 1) + 10000 from by omega, Finset.sum_range_add]
    exact congrArg (_ + ·) (blockCount_eq V c ⟨n + 1, hn⟩ g _ rfl)

theorem sums_at_last (c : Dev nD) (g j : Fin 64) :
    ((Pool.leftAt V c 9 nine_lt).2.1 : Vec Ideal S64x64 .f32) (ix2 g j) = GraphNet.graphSum (nodes V c) (graphIds V c) g j := by
  rw [sums_upto V c g j 9 nine_lt]
  show ∑ k ∈ Finset.range 100000, nodeTerm V c g j k = _
  rw [Finset.sum_range]
  unfold GraphNet.graphSum
  refine Finset.sum_congr rfl fun r _ => ?_
  unfold nodeTerm
  rw [dif_pos r.isLt]

theorem counts_at_last (c : Dev nD) (g : Fin 64) :
    ((Pool.leftAt V c 9 nine_lt).2.2 : Vec Ideal S1x64 .f32) (ix2 0 g) = GraphNet.graphCount (graphIds V c) g := by
  rw [counts_upto V c g 9 nine_lt]
  show ∑ k ∈ Finset.range 100000, nodeOne V c g k = _
  rw [Finset.sum_range]
  unfold GraphNet.graphCount
  refine Finset.sum_congr rfl fun r _ => ?_
  unfold nodeOne
  rw [dif_pos r.isLt]

end Cert.KernelIdeal.Val
end
-- ==== Proof.Val.PoolArray.lean ====
/-
  The pool region's final array. The result window is the whole [64, 1] array, stored and written back at the last grid
  point only; what that point stores is the head applied to the quotient of the two accumulators as that point leaves
  them, and those are the whole per-graph sums and counts (PoolSums.lean): so the array ends at the head of the mean
  pool of the node table the region finds.
-/
import proofs.«422455_j33483565040041_2_alg».proof.Proof.Val.PoolSums
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The last grid point. -/
abbrev lastPoint : Fin cfg2.N := ⟨9, nine_lt⟩

/-- The four weight windows and the result window have block index (0, 0) at every point. -/
theorem whole_windows : ∀ t : Fin cfg2.N, (∀ a : Fin 2, win2_2.index t a = 0) ∧ (∀ a : Fin 2, win2_3.index t a = 0)
    ∧ (∀ a : Fin 2, win2_4.index t a = 0) ∧ (∀ a : Fin 2, win2_5.index t a = 0) ∧ (∀ a : Fin 2, win2_6.index t a = 0) :=
  (by decide +kernel : ∀ t : Fin grid2.N, (∀ a : Fin 2, win2_2.index t a = 0) ∧ (∀ a : Fin 2, win2_3.index t a = 0)
    ∧ (∀ a : Fin 2, win2_4.index t a = 0) ∧ (∀ a : Fin 2, win2_5.index t a = 0) ∧ (∀ a : Fin 2, win2_6.index t a = 0))

/-- Window 2's block is its whole array at every point. -/
theorem block2_whole (c : Dev nD) (t : Fin cfg2.N) : (Pool.blockAt V c 2 t : Vec Ideal S64x16 .f32) = (V c main_arg8 : Vec Ideal S64x16 .f32) := by
  funext y
  show V c main_arg8 (((cfg2.win 2).blk t).view.emb y) = V c main_arg8 y
  congr 1
  funext a; apply Fin.ext
  match a with
  | ⟨0, _⟩ => show win2_2.index t (0 : Fin 2) * 64 + 1 * (y 0).val = (y 0).val; rw [(whole_windows t).1 0]; omega
  | ⟨1, _⟩ => show win2_2.index t (1 : Fin 2) * 16 + 1 * (y 1).val = (y 1).val; rw [(whole_windows t).1 1]; omega

/-- Window 3's block is its whole array at every point. -/
theorem block3_whole (c : Dev nD) (t : Fin cfg2.N) : (Pool.blockAt V c 3 t : Vec Ideal S1x16 .f32) = (V c main_v34 : Vec Ideal S1x16 .f32) := by
  funext y
  show V c main_v34 (((cfg2.win 3).blk t).view.emb y) = V c main_v34 y
  congr 1
  funext a; apply Fin.ext
  match a with
  | ⟨0, _⟩ => show win2_3.index t (0 : Fin 2) * 1 + 1 * (y 0).val = (y 0).val; rw [(whole_windows t).2.1 0]; omega
  | ⟨1, _⟩ => show win2_3.index t (1 : Fin 2) * 16 + 1 * (y 1).val = (y 1).val; rw [(whole_windows t).2.1 1]; omega

/-- Window 4's block is its whole array at every point. -/
theorem block4_whole (c : Dev nD) (t : Fin cfg2.N) : (Pool.blockAt V c 4 t : Vec Ideal S16x1 .f32) = (V c main_arg10 : Vec Ideal S16x1 .f32) := by
  funext y
  show V c main_arg10 (((cfg2.win 4).blk t).view.emb y) = V c main_arg10 y
  congr 1
  funext a; apply Fin.ext
  match a with
  | ⟨0, _⟩ => show win2_4.index t (0 : Fin 2) * 16 + 1 * (y 0).val = (y 0).val; rw [(whole_windows t).2.2.1 0]; omega
  | ⟨1, _⟩ => show win2_4.index t (1 : Fin 2) * 1 + 1 * (y 1).val = (y 1).val; rw [(whole_windows t).2.2.1 1]; omega

/-- Window 5's block is its whole array at every point. -/
theorem block5_whole (c : Dev nD) (t : Fin cfg2.N) : (Pool.blockAt V c 5 t : Vec Ideal S1x1 .f32) = (V c main_v35 : Vec Ideal S1x1 .f32) := by
  funext y
  show V c main_v35 (((cfg2.win 5).blk t).view.emb y) = V c main_v35 y
  congr 1
  funext a; apply Fin.ext
  match a with
  | ⟨0, _⟩ => show win2_5.index t (0 : Fin 2) * 1 + 1 * (y 0).val = (y 0).val; rw [(whole_windows t).2.2.2.1 0]; omega
  | ⟨1, _⟩ => show win2_5.index t (1 : Fin 2) * 1 + 1 * (y 1).val = (y 1).val; rw [(whole_windows t).2.2.2.1 1]; omega

/-- The whole-array function the region leaves: graph `g`'s number. -/
def pooledHead (c : Dev nD) : S64x1.Idx → EReal := fun i =>
  GraphNet.head (GraphNet.pooled (nodes V c) (graphIds V c)) (GraphNet.tab (V c main_arg8)) (fun q => (V c main_v34 : Vec Ideal S1x16 .f32) (ix2 0 q))
    (GraphNet.tab (V c main_arg10)) (fun o => (V c main_v35 : Vec Ideal S1x1 .f32) (ix2 0 o)) (i 0) (i 1)

/-- What the last point leaves in the result buffer is the head payload of the accumulators as that same point leaves them. -/
theorem last_point (c : Dev nD) :
    (Pool.leftAt V c 9 nine_lt).1 = k2_pay6 (F := Ideal) (Pool.leftAt V c 9 nine_lt).2.2 (Pool.leftAt V c 9 nine_lt).2.1
      (Pool.blockAt V c 2 lastPoint) (Pool.blockAt V c 4 lastPoint) (Pool.blockAt V c 3 lastPoint) (Pool.blockAt V c 5 lastPoint) := by
  have h : Pool.leftAt V c 9 nine_lt = _ := Pool.leftAt_last V c lastPoint rfl
  rw [h]
  dsimp only
  rw [Pool.result_last, Pool.sums_last, Pool.counts_last]

/-- Read at graph `g`: the head of the pooled table. -/
theorem result_entry (c : Dev nD) (g : Fin 64) (o : Fin 1) :
    ((Pool.leftAt V c 9 nine_lt).1 : Vec Ideal S64x1 .f32) (ix2 g o) = pooledHead V c (ix2 g o) := by
  rw [last_point V c, k2_pay6_entry, block2_whole, block3_whole, block4_whole, block5_whole]
  unfold pooledHead
  have hq : (fun (g k : Fin 64) => Ideal.div (((Pool.leftAt V c 9 nine_lt).2.1 : Vec Ideal S64x64 .f32) (ix2 g k))
        (max (((Pool.leftAt V c 9 nine_lt).2.2 : Vec Ideal S1x64 .f32) (ix2 0 g)) 1)) = GraphNet.pooled (nodes V c) (graphIds V c) := by
    funext g k
    unfold GraphNet.pooled
    rw [sums_at_last, counts_at_last]
  rw [hq]

theorem result_at (c : Dev nD) (y : S64x1.Idx) : ((Pool.leftAt V c 9 nine_lt).1 : Vec Ideal S64x1 .f32) y = pooledHead V c y := by
  have h := result_entry V c (y 0) (y 1)
  have e : y = ix2 (y 0) (y 1) := eq_ix2 y
  rw [e]
  exact h

/-- What the last point writes back is the whole array at `pooledHead`. -/
theorem flushed_last (c : Dev nD) (t : Fin cfg2.N) (h9 : t.val = 9) :
    (Pool.dat V c).flushed 6 t = ((cfg2.win 6).blk t).view.read (Elt Ideal) (pooledHead V c) := by
  show (cfg2.win 6).cut (grid2.coords t) ((Pool.dat V c).after 6 t) = _
  rw [Pool.after_result]
  obtain rfl : t = lastPoint := Fin.ext h9
  funext y
  have hemb : ((cfg2.win 6).blk lastPoint).view.emb y = (y : S64x1.Idx) := by
    funext a; apply Fin.ext
    match a with
    | ⟨0, _⟩ => show win2_6.index lastPoint (0 : Fin 2) * 64 + 1 * (y 0).val = (y 0).val; rw [(whole_windows lastPoint).2.2.2.2 0]; omega
    | ⟨1, _⟩ => show win2_6.index lastPoint (1 : Fin 2) * 1 + 1 * (y 1).val = (y 1).val; rw [(whole_windows lastPoint).2.2.2.2 1]; omega
  show ((Pool.leftAt V c 9 nine_lt).1 : Vec Ideal S64x1 .f32) y = pooledHead V c (((cfg2.win 6).blk lastPoint).view.emb y)
  rw [hemb]
  exact result_at V c y

/-- An index of the array is in point `t`'s block iff each coordinate is in the block's range. -/
theorem mem_result_block (t : Fin cfg2.N) (i : S64x1.Idx) :
    i ∈ ((cfg2.win 6).blk t).view.set ↔ ∀ a : Fin 2, win2_6.index t a * S64x1.size a ≤ (i a).val ∧ (i a).val < win2_6.index t a * S64x1.size a + S64x1.size a := by
  show i ∈ ((View.whole main_v37).slice (win2_6.rect t)).set ↔ _
  rw [View.set_slice_whole, Rect.mem_set_unit]
  exact Iff.rfl

/-- THE ARRAY the pool region leaves. -/
theorem pool_array (c : Dev nD) :
    (Pool.dat V c).arrAt 6 cfg2.N = (fun i : S64x1.Idx =>
      GraphNet.head (GraphNet.pooled (nodes V c) (graphIds V c)) (GraphNet.tab (V c main_arg8)) (fun q => (V c main_v34 : Vec Ideal S1x16 .f32) (ix2 0 q))
        (GraphNet.tab (V c main_arg10)) (fun o => (V c main_v35 : Vec Ideal S1x1 .f32) (ix2 0 o)) (i 0) (i 1)) := by
  refine (Pool.dat V c).arrAt_eq_of_cover 6 (pooledHead V c) (fun t hf => ?_) (fun i => ?_)
  · have hN : t.val < 10 := lt_of_lt_of_eq t.isLt N_2
    have h9 : t.val = 9 := by have := (flush2_6 t).mp hf; omega
    exact flushed_last V c t h9
  · refine ⟨lastPoint, (flush2_6 lastPoint).mpr rfl, ?_⟩
    rw [mem_result_block]
    intro a
    match a with
    | ⟨0, _⟩ => show win2_6.index lastPoint (0 : Fin 2) * 64 ≤ (i 0).val ∧ (i 0).val < win2_6.index lastPoint (0 : Fin 2) * 64 + 64; rw [(whole_windows lastPoint).2.2.2.2 0]; have h0 : (i 0).val < 64 := (i 0).isLt; omega
    | ⟨1, _⟩ => show win2_6.index lastPoint (1 : Fin 2) * 1 ≤ (i 1).val ∧ (i 1).val < win2_6.index lastPoint (1 : Fin 2) * 1 + 1; rw [(whole_windows lastPoint).2.2.2.2 1]; have h1 : (i 1).val < 1 := (i 1).isLt; omega

end Cert.KernelIdeal.Val

end
-- ==== Proof.Val.KernelResult.lean ====
/-
  The idealized kernel program's result is the network's function of the argument arrays. Walking back from the last
  boundary: the result array is the pool region's final array (PoolArray.lean) of the second hidden table and the graph
  ids (a reshape of the ids argument) and the head's weights; the second hidden table is the second combine region's
  final array (LayerArray.lean) of the aggregation of the first hidden table and that table; the first likewise of the
  node features. The kernel adds the two matrix products before the bias; a sum of three extended reals does not depend
  on the order (Spec.lean), which turns each layer into the network's. The aggregation is the shared stretch of host
  operations, never opened.
-/
import proofs.«422455_j33483565040041_2_alg».proof.Proof.KI.Whole
import proofs.«422455_j33483565040041_2_alg».proof.Proof.Val.LayerArray
import proofs.«422455_j33483565040041_2_alg».proof.Proof.Val.PoolArray
import proofs.«422455_j33483565040041_2_alg».proof.Proof.Net
import proofs.«422455_j33483565040041_2_alg».proof.Proof.LibKeepdimsColumn
import Idealize.ShloMosaic.Lib.StableHlo.Run
import Idealize.ShloMosaic.Lib.ValueLayout

noncomputable section

open Idealize.ShloMosaic Idealize.ShloMosaic.TcCoe Idealize.ShloMosaic.ValueIdx Idealize.SL.Sem

namespace Cert.KernelIdeal.Val

open Cert.KernelIdeal Cert.KernelIdeal.Gen Cert.KernelIdeal.Whole

variable (m : (ℓ : Loc nD τ sig) → Buf (Elt Ideal) ℓ) (ρ : Dev nD → PrngReg)

/-- An array of core `c` as launched. -/
abbrev arg (c : Dev nD) (r : Ref sig .tc) : Buf (Elt Ideal) ((c.tc : Thread nD τ).loc r) := m ((c.tc : Thread nD τ).loc r)

/-! ## A buffer nothing has written yet holds its launch contents -/

theorem B1_arg (c : Dev nD) (r : Ref sig .tc) (h0 : r ∉ hostOps0_W) : B1 m ρ c (Proc.devRef .tc r) = arg m c r :=
  (StableHlo.after_of_writes_sub hostOps0 _ hostOps0_writes h0).trans rfl
theorem B2_arg (c : Dev nD) (r : Ref sig .tc) (h0 : r ∉ hostOps0_W) (hr : r ≠ main_v18) : B2 m ρ c (Proc.devRef .tc r) = arg m c r :=
  (B2_keeps m ρ c r hr).trans (B1_arg m ρ c r h0)
theorem B3_arg (c : Dev nD) (r : Ref sig .tc) (h0 : r ∉ hostOps0_W) (hr : r ≠ main_v18) (h1 : r ∉ hostOps1_W) : B3 m ρ c (Proc.devRef .tc r) = arg m c r :=
  (StableHlo.after_of_writes_sub hostOps1 _ hostOps1_writes h1).trans (B2_arg m ρ c r h0 hr)
theorem B4_arg (c : Dev nD) (r : Ref sig .tc) (h0 : r ∉ hostOps0_W) (hr : r ≠ main_v18) (h1 : r ∉ hostOps1_W) (hr' : r ≠ main_v33) :
    B4 m ρ c (Proc.devRef .tc r) = arg m c r :=
  (B4_keeps m ρ c r hr').trans (B3_arg m ρ c r h0 hr h1)
theorem B5_arg (c : Dev nD) (r : Ref sig .tc) (h0 : r ∉ hostOps0_W) (hr : r ≠ main_v18) (h1 : r ∉ hostOps1_W) (hr' : r ≠ main_v33) (h2 : r ∉ hostOps2_W) :
    B5 m ρ c (Proc.devRef .tc r) = arg m c r :=
  (StableHlo.after_of_writes_sub hostOps2 _ hostOps2_writes h2).trans (B4_arg m ρ c r h0 hr h1 hr')

/-! ## What the host stretches compute -/

set_option maxHeartbeats 8000000 in
/-- The first stretch aggregates the node features. -/
theorem stretch0_aggr (c : Dev nD) : StableHlo.after (hostOps0 (F := Ideal)) (B0 m ρ c) (Proc.devRef .tc main_v16)
    = GraphNet.aggr32 (arg m c main_arg0) (arg m c main_arg1) (arg m c main_arg12) := by
  after_results
  rfl
set_option maxHeartbeats 8000000 in
/-- and lays the first bias out as a row. -/
theorem stretch0_bias (c : Dev nD) : StableHlo.after (hostOps0 (F := Ideal)) (B0 m ρ c) (Proc.devRef .tc main_v17)
    = shapeCast S1x64 (arg m c main_arg3) shapeCasts_S64_S1x64 := by
  after_results
  rfl
set_option maxHeartbeats 8000000 in
/-- The second stretch aggregates the first hidden table, as region 0 left it, -/
theorem stretch1_aggr (c : Dev nD) : StableHlo.after (hostOps1 (F := Ideal)) (B2 m ρ c) (Proc.devRef .tc main_v31)
    = GraphNet.aggr64 (B2 m ρ c (Proc.devRef .tc main_v18)) (B2 m ρ c (Proc.devRef .tc main_arg1)) (B2 m ρ c (Proc.devRef .tc main_arg12)) := by
  after_results
  rfl
set_option maxHeartbeats 8000000 in
/-- and lays the second bias out as a row. -/
theorem stretch1_bias (c : Dev nD) : StableHlo.after (hostOps1 (F := Ideal)) (B2 m ρ c) (Proc.devRef .tc main_v32)
    = shapeCast S1x64 (B2 m ρ c (Proc.devRef .tc main_arg6)) shapeCasts_S64_S1x64 := by
  after_results
  rfl
set_option maxHeartbeats 8000000 in
/-- The third stretch lays the graph ids out as a column -/
theorem stretch2_ids (c : Dev nD) : StableHlo.after (hostOps2 (F := Ideal)) (B4 m ρ c) (Proc.devRef .tc main_v36)
    = shapeCast S100000x1 (B4 m ρ c (Proc.devRef .tc main_arg13)) shapeCasts_S100000_S100000x1 := by
  after_results
  rfl
set_option maxHeartbeats 8000000 in
/-- and the head's two biases as rows. -/
theorem stretch2_bias1 (c : Dev nD) : StableHlo.after (hostOps2 (F := Ideal)) (B4 m ρ c) (Proc.devRef .tc main_v34)
    = shapeCast S1x16 (B4 m ρ c (Proc.devRef .tc main_arg9)) shapeCasts_S16_S1x16 := by
  after_results
  rfl
set_option maxHeartbeats 8000000 in
theorem stretch2_bias2 (c : Dev nD) : StableHlo.after (hostOps2 (F := Ideal)) (B4 m ρ c) (Proc.devRef .tc main_v35)
    = shapeCast S1x1 (B4 m ρ c (Proc.devRef .tc main_arg11)) shapeCasts_S1_S1x1 := by
  after_results
  rfl

/-! ## The two hidden tables -/

/-- Region 0 leaves the first hidden table. -/
theorem first_hidden (c : Dev nD) : (B2 m ρ c (Proc.devRef .tc main_v18) : Vec Ideal S100000x64 .f32)
    = GraphNet.hidden1 (arg m c main_arg0) (arg m c main_arg1) (arg m c main_arg2) (arg m c main_arg3) (arg m c main_arg4) (arg m c main_arg12) := by
  have h1 : B2 m ρ c (Proc.devRef .tc main_v18) = (Layer1.dat (E1 m ρ) c).arrAt 5 cfg0.N := B2_arr m ρ c 5
  refine (h1.trans (layer1_array (E1 m ρ) c)).trans ?_
  have e16 : (E1 m ρ c main_v16 : Vec Ideal S100000x32 .f32) = GraphNet.aggr32 (arg m c main_arg0) (arg m c main_arg1) (arg m c main_arg12) := stretch0_aggr m ρ c
  have e0 : E1 m ρ c main_arg0 = (arg m c main_arg0) := B1_arg m ρ c main_arg0 (by decide)
  have e2 : E1 m ρ c main_arg2 = (arg m c main_arg2) := B1_arg m ρ c main_arg2 (by decide)
  have e4 : E1 m ρ c main_arg4 = (arg m c main_arg4) := B1_arg m ρ c main_arg4 (by decide)
  have eb : (fun j : Fin 64 => (E1 m ρ c main_v17 : Vec Ideal S1x64 .f32) (ix2 0 j)) = GraphNet.row (arg m c main_arg3) := by
    funext j
    rw [show (E1 m ρ c main_v17 : Vec Ideal S1x64 .f32) = _ from stretch0_bias m ρ c]
    exact shapeCast_a_1a_apply _ _ _ _
  rw [e16, e0, e2, e4, eb]
  funext i
  unfold GraphNet.hidden1
  exact GraphNet.combineProductsFirst_eq _ _ _ _ _ _ _

/-- Region 1 leaves the second hidden table. -/
theorem second_hidden (c : Dev nD) : (B4 m ρ c (Proc.devRef .tc main_v33) : Vec Ideal S100000x64 .f32)
    = GraphNet.hidden2 (arg m c main_arg0) (arg m c main_arg1) (arg m c main_arg2) (arg m c main_arg3) (arg m c main_arg4) (arg m c main_arg5) (arg m c main_arg6) (arg m c main_arg7) (arg m c main_arg12) := by
  have h1 : B4 m ρ c (Proc.devRef .tc main_v33) = (Layer2.dat (E3 m ρ) c).arrAt 5 cfg1.N := B4_arr m ρ c 5
  refine (h1.trans (layer2_array (E3 m ρ) c)).trans ?_
  have e31 : (E3 m ρ c main_v31 : Vec Ideal S100000x64 .f32)
      = GraphNet.aggr64 (GraphNet.hidden1 (arg m c main_arg0) (arg m c main_arg1) (arg m c main_arg2) (arg m c main_arg3) (arg m c main_arg4) (arg m c main_arg12)) (arg m c main_arg1) (arg m c main_arg12) := by
    refine (stretch1_aggr m ρ c).trans ?_
    rw [first_hidden m ρ c, B2_arg m ρ c main_arg1 (by decide) (by decide), B2_arg m ρ c main_arg12 (by decide) (by decide)]
  have e18 : (E3 m ρ c main_v18 : Vec Ideal S100000x64 .f32) = GraphNet.hidden1 (arg m c main_arg0) (arg m c main_arg1) (arg m c main_arg2) (arg m c main_arg3) (arg m c main_arg4) (arg m c main_arg12) :=
    (StableHlo.after_of_writes_sub hostOps1 _ hostOps1_writes (by decide)).trans (first_hidden m ρ c)
  have e5 : E3 m ρ c main_arg5 = (arg m c main_arg5) := B3_arg m ρ c main_arg5 (by decide) (by decide) (by decide)
  have e7 : E3 m ρ c main_arg7 = (arg m c main_arg7) := B3_arg m ρ c main_arg7 (by decide) (by decide) (by decide)
  have eb : (fun j : Fin 64 => (E3 m ρ c main_v32 : Vec Ideal S1x64 .f32) (ix2 0 j)) = GraphNet.row (arg m c main_arg6) := by
    funext j
    rw [show (E3 m ρ c main_v32 : Vec Ideal S1x64 .f32) = _ from stretch1_bias m ρ c, B2_arg m ρ c main_arg6 (by decide) (by decide)]
    exact shapeCast_a_1a_apply _ _ _ _
  rw [e31, e18, e5, e7, eb]
  funext i
  unfold GraphNet.hidden2
  exact GraphNet.combineProductsFirst_eq _ _ _ _ _ _ _

/-! ## The result -/

/-- THE KERNEL PROGRAM'S RESULT, at the last boundary, is the network's function of the argument arrays as launched. -/
theorem kernel_result (c : Dev nD) : (B6 m ρ c (Proc.devRef .tc main_v37) : Vec Ideal S64x1 .f32)
    = GraphNet.result (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) := by
  have h1 : B6 m ρ c (Proc.devRef .tc main_v37) = (Pool.dat (E5 m ρ) c).arrAt 6 cfg2.N := B6_arr m ρ c 6
  refine (h1.trans (pool_array (E5 m ρ) c)).trans ?_
  have e33 : (E5 m ρ c main_v33 : Vec Ideal S100000x64 .f32)
      = GraphNet.hidden2 (arg m c main_arg0) (arg m c main_arg1) (arg m c main_arg2) (arg m c main_arg3) (arg m c main_arg4) (arg m c main_arg5) (arg m c main_arg6) (arg m c main_arg7) (arg m c main_arg12) :=
    (StableHlo.after_of_writes_sub hostOps2 _ hostOps2_writes (by decide)).trans (second_hidden m ρ c)
  have eids : graphIds (E5 m ρ) c = fun r => ((arg m c main_arg13) : Vec Ideal S100000 .i32) (ix1 r) := by
    funext r
    show (E5 m ρ c main_v36 : Vec Ideal S100000x1 .i32) (ix2 r 0) = _
    rw [show (E5 m ρ c main_v36 : Vec Ideal S100000x1 .i32) = _ from stretch2_ids m ρ c,
      B4_arg m ρ c main_arg13 (by decide) (by decide) (by decide) (by decide)]
    exact KeepdimsColumn.shapeCast_a_a1_apply _ _ _ _
  have e8 : E5 m ρ c main_arg8 = (arg m c main_arg8) := B5_arg m ρ c main_arg8 (by decide) (by decide) (by decide) (by decide) (by decide)
  have e10 : E5 m ρ c main_arg10 = (arg m c main_arg10) := B5_arg m ρ c main_arg10 (by decide) (by decide) (by decide) (by decide) (by decide)
  have ec1 : (fun q : Fin 16 => (E5 m ρ c main_v34 : Vec Ideal S1x16 .f32) (ix2 0 q)) = GraphNet.row (arg m c main_arg9) := by
    funext q
    rw [show (E5 m ρ c main_v34 : Vec Ideal S1x16 .f32) = _ from stretch2_bias1 m ρ c,
      B4_arg m ρ c main_arg9 (by decide) (by decide) (by decide) (by decide)]
    exact shapeCast_a_1a_apply _ _ _ _
  have ec2 : (fun o : Fin 1 => (E5 m ρ c main_v35 : Vec Ideal S1x1 .f32) (ix2 0 o)) = GraphNet.row (arg m c main_arg11) := by
    funext o
    rw [show (E5 m ρ c main_v35 : Vec Ideal S1x1 .f32) = _ from stretch2_bias2 m ρ c,
      B4_arg m ρ c main_arg11 (by decide) (by decide) (by decide) (by decide)]
    exact shapeCast_a_1a_apply _ _ _ _
  have enodes : nodes (E5 m ρ) c = GraphNet.tab (GraphNet.hidden2 (arg m c main_arg0) (arg m c main_arg1) (arg m c main_arg2) (arg m c main_arg3) (arg m c main_arg4) (arg m c main_arg5) (arg m c main_arg6) (arg m c main_arg7) (arg m c main_arg12)) := by
    show GraphNet.tab (E5 m ρ c main_v33) = _
    rw [e33]
  rw [enodes, eids, e8, e10, ec1, ec2]
  rfl

end Cert.KernelIdeal.Val

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.RefResult.lean ====
/-
  The reference program's result is the network's function of its fourteen argument arrays.

  The reference's stages are read one at a time: each aggregation is the shared chain of host operations, kept opaque;
  each layer's combine is a matrix product plus a broadcast bias plus a second matrix product, cut off below at zero;
  the pool is a row scatter-add of the second hidden table into a zero table at the graph ids, divided entry by entry by
  the larger of the scattered count and one; the head is two more matrix products with biases and one cut-off at zero.
-/
import proofs.«422455_j33483565040041_2_alg».proof.Proof.Net
import proofs.«422455_j33483565040041_2_alg».proof.Proof.Gen.ReferenceIdeal.Read
import proofs.«422455_j33483565040041_2_alg».proof.Proof.LibGatherScatter
import Idealize.ShloMosaic.Lib.IdealHost

noncomputable section

open Idealize.ShloMosaic Idealize.ShloMosaic.TcCoe Idealize.SL.Sem

namespace Cert.ReferenceIdeal.RefResult

open Cert.ReferenceIdeal
open Idealize.ShloMosaic.ValueIdx

/-- A rank-2 index with the given coordinates is `ix2` of them. -/
theorem idx2_eq {a b : ℕ} (j : (⟨2, ![a, b]⟩ : Shape).Idx) (p : Fin a) (q : Fin b)
    (h0 : (j 0).val = p.val) (h1 : (j 1).val = q.val) : j = ix2 p q :=
  funext fun d => Fin.ext (by match d with | ⟨0, _⟩ => exact h0 | ⟨1, _⟩ => exact h1)

/-- A rank-1 index with the given coordinate is `ix1` of it. -/
theorem idx1_eq {a : ℕ} (j : (⟨1, ![a]⟩ : Shape).Idx) (p : Fin a) (h0 : (j 0).val = p.val) : j = ix1 p :=
  funext fun d => Fin.ext (by match d with | ⟨0, _⟩ => exact h0)

section Stages

variable (x0 : (⟨S100000x32, .f32⟩ : BufTy).Contents (Elt Ideal)) (x1 : (⟨S1600000, .f32⟩ : BufTy).Contents (Elt Ideal))
  (x2 : (⟨S32x64, .f32⟩ : BufTy).Contents (Elt Ideal)) (x3 : (⟨S64, .f32⟩ : BufTy).Contents (Elt Ideal))
  (x4 : (⟨S32x64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64x16, .f32⟩ : BufTy).Contents (Elt Ideal)) (x9 : (⟨S16, .f32⟩ : BufTy).Contents (Elt Ideal))
  (x10 : (⟨S16x1, .f32⟩ : BufTy).Contents (Elt Ideal)) (x11 : (⟨S1, .f32⟩ : BufTy).Contents (Elt Ideal))
  (x12 : (⟨S2x1600000, .i32⟩ : BufTy).Contents (Elt Ideal)) (x13 : (⟨S100000, .i32⟩ : BufTy).Contents (Elt Ideal))

/-- The first aggregation is the shared chain of host operations on the node features. -/
theorem aggr32_eq : Read.val_main_v16 (F := Ideal) x0 x1 x12 = GraphNet.aggr32 x0 x1 x12 := rfl

/-- The first layer: the product of the aggregated features with the first weight table, plus the bias, plus the product
    of the node features with the second weight table, cut off below at zero. -/
theorem hidden1_eq : Read.val_main_v23 (F := Ideal) x0 x1 x2 x3 x4 x12 = GraphNet.hidden1 x0 x1 x2 x3 x4 x12 := by
  funext i
  rw [Read.val_main_v23_apply, Read.val_main_v22_apply, Read.val_main_v20_apply, Read.val_main_v17_apply,
    Read.val_main_v19_apply, Read.val_main_v18_apply, Read.val_main_v21_apply, Read.val_main_call0_v0_apply,
    Read.val_main_call0_cst_apply, aggr32_eq]
  have el : ∀ k, Read.lidx_main_v17 i k = ix2 (i 0) k := fun k => idx2_eq _ _ _ rfl rfl
  have er : ∀ k, Read.ridx_main_v17 i k = ix2 k (i 1) := fun k => idx2_eq _ _ _ rfl rfl
  have el' : ∀ k, Read.lidx_main_v21 i k = ix2 (i 0) k := fun k => idx2_eq _ _ _ rfl rfl
  have er' : ∀ k, Read.ridx_main_v21 i k = ix2 k (i 1) := fun k => idx2_eq _ _ _ rfl rfl
  have eb : Read.idx_main_v18 (Read.idx_main_v19 i) = ix1 (i 1) := idx1_eq _ _ rfl
  simp only [el, er, el', er', eb, Ideal.addf_def, Ideal.maximumf_def, Ideal.ofBits_def, Ideal.ofBits_zero_f32]
  rfl

/-- The second aggregation is the shared chain of host operations on the first hidden table. -/
theorem aggr64_eq : Read.val_main_v36 (F := Ideal) x0 x1 x2 x3 x4 x12
    = GraphNet.aggr64 (Read.val_main_v23 (F := Ideal) x0 x1 x2 x3 x4 x12) x1 x12 := rfl

/-- The second layer, on the first hidden table. -/
theorem hidden2_eq : Read.val_main_v43 (F := Ideal) x0 x1 x2 x3 x4 x5 x6 x7 x12
    = GraphNet.hidden2 x0 x1 x2 x3 x4 x5 x6 x7 x12 := by
  funext i
  rw [Read.val_main_v43_apply, Read.val_main_v42_apply, Read.val_main_v40_apply, Read.val_main_v37_apply,
    Read.val_main_v39_apply, Read.val_main_v38_apply, Read.val_main_v41_apply, Read.val_main_call1_v0_apply,
    Read.val_main_call1_cst_apply, aggr64_eq, hidden1_eq]
  have el : ∀ k, Read.lidx_main_v37 i k = ix2 (i 0) k := fun k => idx2_eq _ _ _ rfl rfl
  have er : ∀ k, Read.ridx_main_v37 i k = ix2 k (i 1) := fun k => idx2_eq _ _ _ rfl rfl
  have el' : ∀ k, Read.lidx_main_v41 i k = ix2 (i 0) k := fun k => idx2_eq _ _ _ rfl rfl
  have er' : ∀ k, Read.ridx_main_v41 i k = ix2 k (i 1) := fun k => idx2_eq _ _ _ rfl rfl
  have eb : Read.idx_main_v38 (Read.idx_main_v39 i) = ix1 (i 1) := idx1_eq _ _ rfl
  simp only [el, er, el', er', eb, Ideal.addf_def, Ideal.maximumf_def, Ideal.ofBits_def, Ideal.ofBits_zero_f32]
  rfl

/-- The printed dimension numbers of the row scatter are those of rows scattered by a column of indices. -/
theorem rowScatter_rec : scatter_S64x64_S100000x1_S100000x64_1_0_0_1
    = GatherScatter.rowScatterDims 64 64 100000 Gen.scatter_S64x64_S100000x1_S100000x64_1_0_0_1_wf := rfl

/-- The printed dimension numbers of the count scatter are those of scalars scattered by a column of indices. -/
theorem vecScatter_rec : scatter_S64_S100000x1_S100000_n_0_0_1
    = GatherScatter.vecScatterDims 64 100000 Gen.scatter_S64_S100000x1_S100000_n_0_0_1_wf := rfl

/-- The scattered table at graph `g`, feature `j`: the sum of that feature over the nodes whose id is `g`. -/
theorem graphSum_eq (g j : Fin 64) :
    Read.val_main_v46 (F := Ideal) x0 x1 x2 x3 x4 x5 x6 x7 x12 x13 (ix2 g j)
      = GraphNet.graphSum (GraphNet.tab (GraphNet.hidden2 x0 x1 x2 x3 x4 x5 x6 x7 x12)) (fun r => x13 (ix1 r)) g j := by
  unfold Read.val_main_v46
  rw [rowScatter_rec]
  refine (GatherScatter.rowScatterAdd_apply _ _ _ _ g j).trans ?_
  rw [Read.val_main_v44_apply, Read.val_main_cst_4_apply, Ideal.ofBits_def, Ideal.ofBits_zero_f32, zero_add,
    Finset.sum_filter, hidden2_eq]
  unfold GraphNet.graphSum
  refine Finset.sum_congr rfl fun r _ => ?_
  have e : Read.idx_main_v45 (ix2 r (0 : Fin 1)) = ix1 r := idx1_eq _ _ rfl
  exact if_congr (by rw [Read.val_main_v45_apply, e]; exact Iff.rfl) rfl rfl

/-- The scattered counts at graph `g`: the number of nodes whose id is `g`. -/
theorem graphCount_eq (g : Fin 64) :
    Read.val_main_v50 (F := Ideal) x13 (ix1 g) = GraphNet.graphCount (fun r => x13 (ix1 r)) g := by
  unfold Read.val_main_v50
  rw [vecScatter_rec]
  refine (GatherScatter.vecScatterAdd_apply _ _ _ _ g).trans ?_
  rw [Read.val_main_v48_apply, Read.val_main_cst_6_apply, Ideal.ofBits_def, Ideal.ofBits_zero_f32, zero_add,
    Finset.sum_filter]
  unfold GraphNet.graphCount
  refine Finset.sum_congr rfl fun r _ => ?_
  have e : Read.idx_main_v49 (ix2 r (0 : Fin 1)) = ix1 r := idx1_eq _ _ rfl
  refine if_congr (by rw [Read.val_main_v49_apply, e]; exact Iff.rfl) ?_ rfl
  rw [Read.val_main_v47_apply, Read.val_main_cst_5_apply, Ideal.ofBits_def, Ideal.ofBits_one_f32]

/-- The mean pool: the scattered sum over the larger of the scattered count and one. -/
theorem pooled_eq (g j : Fin 64) :
    Read.val_main_v55 (F := Ideal) x0 x1 x2 x3 x4 x5 x6 x7 x12 x13 (ix2 g j)
      = GraphNet.pooled (GraphNet.tab (GraphNet.hidden2 x0 x1 x2 x3 x4 x5 x6 x7 x12)) (fun r => x13 (ix1 r)) g j := by
  have e : Read.idx_main_v53 (Read.idx_main_v54 (ix2 g j)) = ix1 g := idx1_eq _ _ rfl
  rw [Read.val_main_v55_apply, Read.val_main_v54_apply, Read.val_main_v53_apply, Read.val_main_v52_apply,
    Read.val_main_v51_apply, Read.val_main_cst_7_apply, Ideal.hostDivf_def, Ideal.maximumf_def, Ideal.ofBits_def,
    Ideal.ofBits_one_f32, e, graphSum_eq, graphCount_eq]
  rfl

/-- The pooled stage as a table of graphs and features. -/
theorem pooled_tab_eq : GraphNet.tab (Read.val_main_v55 (F := Ideal) x0 x1 x2 x3 x4 x5 x6 x7 x12 x13)
    = GraphNet.pooled (GraphNet.tab (GraphNet.hidden2 x0 x1 x2 x3 x4 x5 x6 x7 x12)) (fun r => x13 (ix1 r)) :=
  funext fun g => funext fun j => pooled_eq x0 x1 x2 x3 x4 x5 x6 x7 x12 x13 g j

/-- The last stage is the head of the mean pool: the pooled table times the first head table plus its bias, cut off
    below at zero, times the second head table plus its bias. -/
theorem result_eq : Read.val_main_v64 (F := Ideal) x0 x1 x2 x3 x4 x5 x6 x7 x8 x9 x10 x11 x12 x13
    = GraphNet.result x0 x1 x2 x3 x4 x5 x6 x7 x8 x9 x10 x11 x12 x13 := by
  funext i
  have el : ∀ q k, Read.lidx_main_v56 (Read.lidx_main_v61 i q) k = ix2 (i 0) k := fun q k => idx2_eq _ _ _ rfl rfl
  have er : ∀ q k, Read.ridx_main_v56 (Read.lidx_main_v61 i q) k = ix2 k q := fun q k => idx2_eq _ _ _ rfl rfl
  have eb : ∀ q, Read.idx_main_v57 (Read.idx_main_v58 (Read.lidx_main_v61 i q)) = ix1 q := fun q => idx1_eq _ _ rfl
  have er' : ∀ q, Read.ridx_main_v61 i q = ix2 q (i 1) := fun q => idx2_eq _ _ _ rfl rfl
  have eb' : Read.idx_main_v62 (Read.idx_main_v63 i) = ix1 (i 1) :=
    idx1_eq _ _ (by have h : (i 1).val < 1 := (i 1).isLt; show 0 = (i 1).val; omega)
  rw [Read.val_main_v64_apply, Read.val_main_v61_apply, Read.val_main_v63_apply, Read.val_main_v62_apply]
  simp only [Read.val_main_v60_apply, Read.val_main_v59_apply, Read.val_main_v56_apply, Read.val_main_v58_apply,
    Read.val_main_v57_apply, Read.val_main_call2_v0_apply, Read.val_main_call2_cst_apply, el, er, eb, er', eb',
    Ideal.addf_def, Ideal.maximumf_def, Ideal.ofBits_def, Ideal.ofBits_zero_f32]
  show GraphNet.head (GraphNet.tab (Read.val_main_v55 (F := Ideal) x0 x1 x2 x3 x4 x5 x6 x7 x12 x13)) (GraphNet.tab x8)
    (GraphNet.row x9) (GraphNet.tab x10) (GraphNet.row x11) (i 0) (i 1) = _
  rw [pooled_tab_eq]
  rfl

end Stages

/-- The reference program's result is the network's function of the argument arrays. -/
theorem reference_result (m : (ℓ : Loc nD τ sig) → Buf (Elt Ideal) ℓ) (c : Dev nD) :
    Cert.ReferenceIdeal.Value.res_main_v64 (F := Ideal) m c
      = GraphNet.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) := by
  rw [Read.val_main_v64_eq]
  exact result_eq _ _ _ _ _ _ _ _ _ _ _ _ _ _

end Cert.ReferenceIdeal.RefResult

end
-- ==== Proof.lean ====
/-
  The proof of `Cert.Claim`: a graph network — two GraphConv layers, a mean pool over the graphs, a two-layer head —
  computed by three pipelined kernels between stretches of host operations, against the same network on the host.

  Both programs gather, scale and scatter-add the edge messages with the SAME host operations; that aggregation is
  carried as one function and never opened. What differs: (1) each layer's combine stage adds the two matrix products
  first and the bias last where the reference adds the bias to the first product — one value, by commutativity and
  associativity of + on the extended reals; (2) the pool sums each graph's rows by multiplying with a one-hot mask, block
  of 10000 nodes by block, into an accumulator carried over ten grid points, where the reference scatter-adds by graph
  id — the same sum, a node whose id is outside 0..63 contributing to neither; (3) the matrix products are taken block
  of 5000 rows by block. No step needs finiteness: the precondition is never opened.

  The frames: each kernel program runs to its end, faults nowhere and leaves its fourteen arguments as launched, by the
  launch theorem for a program of several kernel regions over one record per region (the regions' modules); the
  reference by its run read back. The idealized program's rewrites are none, so `preserves` asks nothing.
-/
import proofs.«422455_j33483565040041_2_alg».proof.Defs
import proofs.«422455_j33483565040041_2_alg».proof.Proof.Gen.Kernel
import proofs.«422455_j33483565040041_2_alg».proof.Proof.Gen.KernelIdeal
import proofs.«422455_j33483565040041_2_alg».proof.Proof.Gen.ReferenceIdeal
import proofs.«422455_j33483565040041_2_alg».proof.Proof.Gen.Pre_finite_inputs
import proofs.«422455_j33483565040041_2_alg».proof.Proof.Gen.ReferenceIdeal.Run
import proofs.«422455_j33483565040041_2_alg».proof.Proof.K.Whole
import proofs.«422455_j33483565040041_2_alg».proof.Proof.KI.Whole
import proofs.«422455_j33483565040041_2_alg».proof.Proof.Val.KernelResult
import proofs.«422455_j33483565040041_2_alg».proof.Proof.RefResult
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Whole.frame (F := Bits) m ρ

/-- The idealized kernel program runs and keeps its arguments. -/
theorem frame_kernel_ideal : Cert.frame_KernelIdeal := fun m ρ _ => Cert.KernelIdeal.Whole.frame (F := Ideal) m ρ

/-- The reference runs and keeps its arguments: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end at the network's function of those arguments. -/
theorem algebraic : Cert.algebraic_KernelIdeal_ReferenceIdeal := by
  intro m ρ m' ρ' _ hagree
  refine ⟨fun c => GraphNet.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Whole.run (F := Ideal) m ρ)
    exact ⟨(h c _ (Cert.KernelIdeal.Whole.mem_uc Cert.KernelIdeal.main_v37 (by decide))).trans (Cert.KernelIdeal.Val.kernel_result m ρ c),
      (h c _ (Cert.KernelIdeal.Whole.mem_uc Cert.KernelIdeal.main_arg0 (by decide))).trans (Cert.KernelIdeal.Whole.atEnd_main_arg0 m ρ c),
      (h c _ (Cert.KernelIdeal.Whole.mem_uc Cert.KernelIdeal.main_arg1 (by decide))).trans (Cert.KernelIdeal.Whole.atEnd_main_arg1 m ρ c),
      (h c _ (Cert.KernelIdeal.Whole.mem_uc Cert.KernelIdeal.main_arg2 (by decide))).trans (Cert.KernelIdeal.Whole.atEnd_main_arg2 m ρ c),
      (h c _ (Cert.KernelIdeal.Whole.mem_uc Cert.KernelIdeal.main_arg3 (by decide))).trans (Cert.KernelIdeal.Whole.atEnd_main_arg3 m ρ c),
      (h c _ (Cert.KernelIdeal.Whole.mem_uc Cert.KernelIdeal.main_arg4 (by decide))).trans (Cert.KernelIdeal.Whole.atEnd_main_arg4 m ρ c),
      (h c _ (Cert.KernelIdeal.Whole.mem_uc Cert.KernelIdeal.main_arg5 (by decide))).trans (Cert.KernelIdeal.Whole.atEnd_main_arg5 m ρ c),
      (h c _ (Cert.KernelIdeal.Whole.mem_uc Cert.KernelIdeal.main_arg6 (by decide))).trans (Cert.KernelIdeal.Whole.atEnd_main_arg6 m ρ c),
      (h c _ (Cert.KernelIdeal.Whole.mem_uc Cert.KernelIdeal.main_arg7 (by decide))).trans (Cert.KernelIdeal.Whole.atEnd_main_arg7 m ρ c),
      (h c _ (Cert.KernelIdeal.Whole.mem_uc Cert.KernelIdeal.main_arg8 (by decide))).trans (Cert.KernelIdeal.Whole.atEnd_main_arg8 m ρ c),
      (h c _ (Cert.KernelIdeal.Whole.mem_uc Cert.KernelIdeal.main_arg9 (by decide))).trans (Cert.KernelIdeal.Whole.atEnd_main_arg9 m ρ c),
      (h c _ (Cert.KernelIdeal.Whole.mem_uc Cert.KernelIdeal.main_arg10 (by decide))).trans (Cert.KernelIdeal.Whole.atEnd_main_arg10 m ρ c),
      (h c _ (Cert.KernelIdeal.Whole.mem_uc Cert.KernelIdeal.main_arg11 (by decide))).trans (Cert.KernelIdeal.Whole.atEnd_main_arg11 m ρ c),
      (h c _ (Cert.KernelIdeal.Whole.mem_uc Cert.KernelIdeal.main_arg12 (by decide))).trans (Cert.KernelIdeal.Whole.atEnd_main_arg12 m ρ c),
      (h c _ (Cert.KernelIdeal.Whole.mem_uc Cert.KernelIdeal.main_arg13 (by decide))).trans (Cert.KernelIdeal.Whole.atEnd_main_arg13 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.RefResult.reference_result m' c]
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
